-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x16 : Shape := ⟨2, ![1600000, 16]⟩
abbrev S144x128 : Shape := ⟨2, ![144, 128]⟩
abbrev S128 : Shape := ⟨1, ![128]⟩
abbrev S144x4 : Shape := ⟨2, ![144, 4]⟩
abbrev S4 : Shape := ⟨1, ![4]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S144x128 : S_.BroadcastsInDim S144x128 (![] : Fin 0 → Fin S144x128.rank)
  reducesTo_S144x128_S_d0_1 : S144x128.ReducesTo [0, 1] S_
  bcast_S_S128 : S_.BroadcastsInDim S128 (![] : Fin 0 → Fin S128.rank)
  reducesTo_S128_S_d0 : S128.ReducesTo [0] S_
  bcast_S_S144x4 : S_.BroadcastsInDim S144x4 (![] : Fin 0 → Fin S144x4.rank)
  reducesTo_S144x4_S_d0_1 : S144x4.ReducesTo [0, 1] S_
  bcast_S_S4 : S_.BroadcastsInDim S4 (![] : Fin 0 → Fin S4.rank)
  reducesTo_S4_S_d0 : S4.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_v28 : IVec S_ 1) (main_v32 : IVec S1600000 1) (main_v34 : IVec S1600000 32) : IVec S_ 1 :=
  let main_c_11 : IVec S_ 32 := constantI S_ 32 100000#32
  let main_v35 : IVec S1600000 32 := broadcastInDim S1600000 ![] bcast_S_S1600000 main_c_11
  let main_v36 : IVec S1600000 1 := cmpi .slt main_v34 main_v35
  let main_v37 : IVec S1600000 1 := andi main_v32 main_v36
  let main_c_12 : IVec S_ 1 := constantI S_ 1 1#1
  let main_v38 : IVec S_ 1 := (fun x v => Host.reduce IntOp.andi x v reducesTo_S1600000_S_d0 h_S_) main_v37 main_c_12
  let main_v39 : IVec S_ 1 := andi main_v28 main_v38
  main_v39

def fn_part1 {F : FTy → Type} [FloatOps F] (main_arg1 : IVec S2x1600000 32) (main_arg5 : FVec F S144x4 .f32) (main_arg6 : FVec F S4 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S144x4 .f32 := Host.absf main_arg5
  let main_cst_6 : FVec F S_ .f32 := constant S_ .f32 0x7F800000#32
  let main_v20 : FVec F S144x4 .f32 := broadcastInDim S144x4 ![] bcast_S_S144x4 main_cst_6
  let main_v21 : IVec S144x4 1 := cmpf .olt main_v19 main_v20
  let main_c_7 : IVec S_ 1 := constantI S_ 1 1#1
  let main_v22 : IVec S_ 1 := (fun x v => Host.reduce IntOp.andi x v reducesTo_S144x4_S_d0_1 h_S_) main_v21 main_c_7
  let main_v23 : IVec S_ 1 := andi main_v18 main_v22
  let main_v24 : FVec F S4 .f32 := Host.absf main_arg6
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : IVec S1x1600000 32 := (extractStridedSlice S1x1600000 ![0, 0] · slices_S2x1600000_S1x1600000_0_0) main_arg1
  let main_v30 : IVec S1600000 32 := shapeCast S1600000 main_v29 shapeCasts_S1x1600000_S1600000
  let main_c_10 : IVec S_ 32 := constantI S_ 32 0#32
  let main_v31 : IVec S1600000 32 := broadcastInDim S1600000 ![] bcast_S_S1600000 main_c_10
  let main_v32 : IVec S1600000 1 := cmpi .sge main_v30 main_v31
  let main_v33 : IVec S1x1600000 32 := (extractStridedSlice S1x1600000 ![0, 0] · slices_S2x1600000_S1x1600000_0_0) main_arg1
  let main_v34 : IVec S1600000 32 := shapeCast S1600000 main_v33 shapeCasts_S1x1600000_S1600000
  fn_part2 (F := F) main_v28 main_v32 main_v34

def fn {F : FTy → Type} [FloatOps F] (main_arg0 : FVec F S100000x128 .f32) (main_arg1 : IVec S2x1600000 32) (main_arg2 : FVec F S1600000x16 .f32) (main_arg3 : FVec F S144x128 .f32) (main_arg4 : FVec F S128 .f32) (main_arg5 : FVec F S144x4 .f32) (main_arg6 : FVec F S4 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S144x128 .f32 := Host.absf main_arg3
  let main_cst_2 : FVec F S_ .f32 := constant S_ .f32 0x7F800000#32
  let main_v10 : FVec F S144x128 .f32 := broadcastInDim S144x128 ![] bcast_S_S144x128 main_cst_2
  let main_v11 : IVec S144x128 1 := cmpf .olt main_v9 main_v10
  let main_c_3 : IVec S_ 1 := constantI S_ 1 1#1
  let main_v12 : IVec S_ 1 := (fun x v => Host.reduce IntOp.andi x v reducesTo_S144x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_v13 main_v16
-- ==== Kernel.lean ====
abbrev S100000x128 : Shape := ⟨2, ![100000, 128]⟩
abbrev S2x1600000 : Shape := ⟨2, ![2, 1600000]⟩
abbrev S1600000x16 : Shape := ⟨2, ![1600000, 16]⟩
abbrev S144x128 : Shape := ⟨2, ![144, 128]⟩
abbrev S128 : Shape := ⟨1, ![128]⟩
abbrev S144x4 : Shape := ⟨2, ![144, 4]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1 : Shape := ⟨1, ![1]⟩
abbrev S1x1 : Shape := ⟨2, ![1, 1]⟩
abbrev S1600000x128 : Shape := ⟨2, ![1600000, 128]⟩
abbrev S1600000x144 : Shape := ⟨2, ![1600000, 144]⟩
abbrev S10000x128 : Shape := ⟨2, ![10000, 128]⟩
abbrev S10000x16 : Shape := ⟨2, ![10000, 16]⟩
abbrev S10000x144 : Shape := ⟨2, ![10000, 144]⟩
abbrev S10000 : Shape := ⟨1, ![10000]⟩
abbrev S10000x1 : Shape := ⟨2, ![10000, 1]⟩
abbrev S100000x144 : Shape := ⟨2, ![100000, 144]⟩
abbrev S5000x144 : Shape := ⟨2, ![5000, 144]⟩
abbrev S5000x1 : Shape := ⟨2, ![5000, 1]⟩
abbrev S5000x128 : Shape := ⟨2, ![5000, 128]⟩
abbrev S1x128 : Shape := ⟨2, ![1, 128]⟩
abbrev S5000 : Shape := ⟨1, ![5000]⟩
abbrev S100000x4 : Shape := ⟨2, ![100000, 4]⟩
abbrev S5000x4 : Shape := ⟨2, ![5000, 4]⟩
abbrev S1x4 : Shape := ⟨2, ![1, 4]⟩

abbrev nBuf : Space → Nat
  | .hbm => 76
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x16, .f32⟩
  | .hbm, ⟨3, _⟩ => ⟨S144x128, .f32⟩
  | .hbm, ⟨4, _⟩ => ⟨S128, .f32⟩
  | .hbm, ⟨5, _⟩ => ⟨S144x4, .f32⟩
  | .hbm, ⟨6, _⟩ => ⟨S4, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S100000x1, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1, .i32⟩
  | .hbm, ⟨27, _⟩ => ⟨S_, .i32⟩
  | .hbm, ⟨28, _⟩ => ⟨S1600000x1, .i32⟩
  | .hbm, ⟨29, _⟩ => ⟨S1600000x1, .i1⟩
  | .hbm, ⟨30, _⟩ => ⟨S1x1, .i32⟩
  | .hbm, ⟨31, _⟩ => ⟨S1600000x1, .i32⟩
  | .hbm, ⟨32, _⟩ => ⟨S1600000x1, .i1⟩
  | .hbm, ⟨33, _⟩ => ⟨S1600000x1, .i1⟩
  | .hbm, ⟨34, _⟩ => ⟨S_, .i1⟩
  | .hbm, ⟨35, _⟩ => ⟨S1600000, .i1⟩
  | .hbm, ⟨36, _⟩ => ⟨S1600000x128, .f32⟩
  | .hbm, ⟨37, _⟩ => ⟨S1600000x128, .i1⟩
  | .hbm, ⟨38, _⟩ => ⟨S_, .f32⟩
  | .hbm, ⟨39, _⟩ => ⟨S1600000x128, .f32⟩
  | .hbm, ⟨40, _⟩ => ⟨S1600000x128, .f32⟩
  | .hbm, ⟨41, _⟩ => ⟨S1600000x144, .f32⟩
  | .hbm, ⟨42, _⟩ => ⟨S_, .f32⟩
  | .hbm, ⟨43, _⟩ => ⟨S100000x144, .f32⟩
  | .hbm, ⟨44, _⟩ => ⟨S1600000x1, .i32⟩
  | .hbm, ⟨45, _⟩ => ⟨S100000x144, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1, .i32⟩
  | .hbm, ⟨56, _⟩ => ⟨S_, .i32⟩
  | .hbm, ⟨57, _⟩ => ⟨S1600000x1, .i32⟩
  | .hbm, ⟨58, _⟩ => ⟨S1600000x1, .i1⟩
  | .hbm, ⟨59, _⟩ => ⟨S1x1, .i32⟩
  | .hbm, ⟨60, _⟩ => ⟨S1600000x1, .i32⟩
  | .hbm, ⟨61, _⟩ => ⟨S1600000x1, .i1⟩
  | .hbm, ⟨62, _⟩ => ⟨S1600000x1, .i1⟩
  | .hbm, ⟨63, _⟩ => ⟨S_, .i1⟩
  | .hbm, ⟨64, _⟩ => ⟨S1600000, .i1⟩
  | .hbm, ⟨65, _⟩ => ⟨S1600000x128, .f32⟩
  | .hbm, ⟨66, _⟩ => ⟨S1600000x128, .i1⟩
  | .hbm, ⟨67, _⟩ => ⟨S_, .f32⟩
  | .hbm, ⟨68, _⟩ => ⟨S1600000x128, .f32⟩
  | .hbm, ⟨69, _⟩ => ⟨S1600000x128, .f32⟩
  | .hbm, ⟨70, _⟩ => ⟨S1600000x144, .f32⟩
  | .hbm, ⟨71, _⟩ => ⟨S_, .f32⟩
  | .hbm, ⟨72, _⟩ => ⟨S100000x144, .f32⟩
  | .hbm, ⟨73, _⟩ => ⟨S1600000x1, .i32⟩
  | .hbm, ⟨74, _⟩ => ⟨S100000x144, .f32⟩
  | .hbm, ⟨75, _⟩ => ⟨S100000x4, .f32⟩
  | .local _ .vmem, ⟨0, _⟩ => ⟨S10000x128, .f32⟩
  | .local _ .vmem, ⟨1, _⟩ => ⟨S10000x128, .f32⟩
  | .local _ .vmem, ⟨2, _⟩ => ⟨S10000x16, .f32⟩
  | .local _ .vmem, ⟨3, _⟩ => ⟨S10000x16, .f32⟩
  | .local _ .vmem, ⟨4, _⟩ => ⟨S10000x144, .f32⟩
  | .local _ .vmem, ⟨5, _⟩ => ⟨S10000x144, .f32⟩
  | .local _ .vmem, ⟨6, _⟩ => ⟨S5000x144, .f32⟩
  | .local _ .vmem, ⟨7, _⟩ => ⟨S5000x144, .f32⟩
  | .local _ .vmem, ⟨8, _⟩ => ⟨S5000x1, .f32⟩
  | .local _ .vmem, ⟨9, _⟩ => ⟨S5000x1, .f32⟩
  | .local _ .vmem, ⟨10, _⟩ => ⟨S144x128, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S10000x128, .f32⟩
  | .local _ .vmem, ⟨15, _⟩ => ⟨S10000x128, .f32⟩
  | .local _ .vmem, ⟨16, _⟩ => ⟨S10000x16, .f32⟩
  | .local _ .vmem, ⟨17, _⟩ => ⟨S10000x16, .f32⟩
  | .local _ .vmem, ⟨18, _⟩ => ⟨S10000x144, .f32⟩
  | .local _ .vmem, ⟨19, _⟩ => ⟨S10000x144, .f32⟩
  | .local _ .vmem, ⟨20, _⟩ => ⟨S5000x144, .f32⟩
  | .local _ .vmem, ⟨21, _⟩ => ⟨S5000x144, .f32⟩
  | .local _ .vmem, ⟨22, _⟩ => ⟨S5000x1, .f32⟩
  | .local _ .vmem, ⟨23, _⟩ => ⟨S5000x1, .f32⟩
  | .local _ .vmem, ⟨24, _⟩ => ⟨S144x4, .f32⟩
  | .local _ .vmem, ⟨25, _⟩ => ⟨S4, .f32⟩
  | .local _ .vmem, ⟨26, _⟩ => ⟨S5000x4, .f32⟩
  | .local _ .vmem, ⟨27, _⟩ => ⟨S5000x4, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v9 : Ref sig .tc := ⟨.hbm, 40, rfl⟩
abbrev main_v10 : Ref sig .tc := ⟨.hbm, 41, rfl⟩
abbrev main_cst_1 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v15 : Ref sig .tc := ⟨.hbm, 69, rfl⟩
abbrev main_v16 : Ref sig .tc := ⟨.hbm, 70, rfl⟩
abbrev main_cst_2 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x144 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S144x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x144 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x144 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S144x4 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S4 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x4 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x16_S10000x16_0_0 : ∀ a, (![0, 0] : Fin 2 → Nat) a + S10000x16.size a ≤ S10000x16.size a
  h_S10000x16 : 0 < S10000x16.numel
  concatenates_S10000x128_S10000x16_S10000x144_d1 : Shape.Concatenates [S10000x128, S10000x16] S10000x144 1
  reduces_S10000x144_S10000 : S10000x144.Reduces [1] S10000
  shapeCasts_S10000_S10000x1 : S10000.ShapeCasts S10000x1
  broadcasts_S10000x1_S10000x144 : S10000x1.Broadcasts S10000x144
  inb_S10000x144_S10000x144_0_0 : ∀ a, (![0, 0] : Fin 2 → Nat) a + S10000x144.size a ≤ S10000x144.size a
  h_S10000x144 : 0 < S10000x144.numel
  bcast_S_S100000x144 : S_.BroadcastsInDim S100000x144 (![] : Fin 0 → Fin S100000x144.rank)
  inb_S5000x144_S5000x144_0_0 : ∀ a, (![0, 0] : Fin 2 → Nat) a + S5000x144.size a ≤ S5000x144.size a
  h_S5000x144 : 0 < S5000x144.numel
  shapeCasts_S5000x144_S5000x144 : S5000x144.ShapeCasts S5000x144
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x144 : S5000x1.Broadcasts S5000x144
  inb_S144x128_S144x128_0_0 : ∀ a, (![0, 0] : Fin 2 → Nat) a + S144x128.size a ≤ S144x128.size a
  h_S144x128 : 0 < S144x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  inb_S144x4_S144x4_0_0 : ∀ a, (![0, 0] : Fin 2 → Nat) a + S144x4.size a ≤ S144x4.size a
  h_S144x4 : 0 < S144x4.numel
  inb_S4_S4_0 : ∀ a, (![0] : Fin 1 → Nat) a + S4.size a ≤ S4.size a
  h_S4 : 0 < S4.numel
  shapeCasts_S4_S1x4 : S4.ShapeCasts S1x4
  broadcasts_S1x4_S5000x4 : S1x4.Broadcasts S5000x4
  reduces_S5000x4_S5000 : S5000x4.Reduces [1] S5000
  broadcasts_S5000x1_S5000x4 : S5000x1.Broadcasts S5000x4
  inb_S5000x4_S5000x4_0_0 : ∀ a, (![0, 0] : Fin 2 → Nat) a + S5000x4.size a ≤ S5000x4.size a
  h_S5000x4 : 0 < S5000x4.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x144_S1600000x1_S1600000x144_1_0_0_1_wf : ScatterDims.WF S100000x144 S1600000x1 S1600000x144 [1] [0] [0] 1
  dot_S5000x144_S144x128_S5000x128_1_0_0_1_n_n_wf : DotDims.WF S5000x144 S144x128 S5000x128 [1] [0] [0] [1] [] []
  dot_S5000x144_S144x4_S5000x4_1_0_0_1_n_n_wf : DotDims.WF S5000x144 S144x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S1600000x128.size a
  hwx0_0 : ∀ i : grid0.Coords, EltTy.bits .f32 = 32 ∨ (Rect.block (s := S1600000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S1600000x16.size a
  hwx0_1 : ∀ i : grid0.Coords, EltTy.bits .f32 = 32 ∨ (Rect.block (s := S1600000x16) S10000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x144.size a ≤ S1600000x144.size a
  hwx0_2 : ∀ i : grid0.Coords, EltTy.bits .f32 = 32 ∨ (Rect.block (s := S1600000x144) S10000x144.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x144.size a ≤ S100000x144.size a
  hwx1_0 : ∀ i : grid1.Coords, EltTy.bits .f32 = 32 ∨ (Rect.block (s := S100000x144) S5000x144.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S144x128.size a ≤ S144x128.size a
  hwx1_2 : ∀ i : grid1.Coords, EltTy.bits .f32 = 32 ∨ (Rect.block (s := S144x128) S144x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S1600000x128.size a
  hwx2_0 : ∀ i : grid2.Coords, EltTy.bits .f32 = 32 ∨ (Rect.block (s := S1600000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S1600000x16.size a
  hwx2_1 : ∀ i : grid2.Coords, EltTy.bits .f32 = 32 ∨ (Rect.block (s := S1600000x16) S10000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x144.size a ≤ S1600000x144.size a
  hwx2_2 : ∀ i : grid2.Coords, EltTy.bits .f32 = 32 ∨ (Rect.block (s := S1600000x144) S10000x144.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x144.size a ≤ S100000x144.size a
  hwx3_0 : ∀ i : grid3.Coords, EltTy.bits .f32 = 32 ∨ (Rect.block (s := S100000x144) S5000x144.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S144x4.size a ≤ S144x4.size a
  hwx3_2 : ∀ i : grid3.Coords, EltTy.bits .f32 = 32 ∨ (Rect.block (s := S144x4) S144x4.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S4.size a ≤ S4.size a
  hwx3_3 : ∀ i : grid3.Coords, EltTy.bits .f32 = 32 ∨ (Rect.block (s := S4) S4.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x4.size a ≤ S100000x4.size a
  hwx3_4 : ∀ i : grid3.Coords, EltTy.bits .f32 = 32 ∨ (Rect.block (s := S100000x4) S5000x4.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x144_S1600000x1_S1600000x144_1_0_0_1 : ScatterDims S100000x144 S1600000x1 S1600000x144 where
  updateWindowDims := [1]
  insertedWindowDims := [0]
  scatterDimsToOperandDims := [0]
  indexVectorDim := 1
  wf := scatter_S100000x144_S1600000x1_S1600000x144_1_0_0_1_wf
def dot_S5000x144_S144x128_S5000x128_1_0_0_1_n_n : DotDims S5000x144 S144x128 S5000x128 where
  lhsContracting := [1]
  rhsContracting := [0]
  lhsNonContracting := [0]
  rhsNonContracting := [1]
  lhsBatch := []
  rhsBatch := []
  wf := dot_S5000x144_S144x128_S5000x128_1_0_0_1_n_n_wf
def dot_S5000x144_S144x4_S5000x4_1_0_0_1_n_n : DotDims S5000x144 S144x4 S5000x4 where
  lhsContracting := [1]
  rhsContracting := [0]
  lhsNonContracting := [0]
  rhsNonContracting := [1]
  lhsBatch := []
  rhsBatch := []
  wf := dot_S5000x144_S144x4_S5000x4_1_0_0_1_n_n_wf

abbrev win0_0 : Pipeline.Window sig grid0 :=
  Pipeline.Window.ofSpec (Memref.whole main_v9) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S10000x144.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x144.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S144x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v15) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S10000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S10000x144.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v19) S5000x144.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S144x4.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S4.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v20) S5000x4.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x16 : Shape := ⟨2, ![1600000, 16]⟩
abbrev S144x128 : Shape := ⟨2, ![144, 128]⟩
abbrev S128 : Shape := ⟨1, ![128]⟩
abbrev S144x4 : Shape := ⟨2, ![144, 4]⟩
abbrev S4 : Shape := ⟨1, ![4]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1600000x144 : Shape := ⟨2, ![1600000, 144]⟩
abbrev S100000x144 : Shape := ⟨2, ![100000, 144]⟩
abbrev S100000 : Shape := ⟨1, ![100000]⟩
abbrev S100000x1 : Shape := ⟨2, ![100000, 1]⟩
abbrev S1x128 : Shape := ⟨2, ![1, 128]⟩
abbrev S100000x4 : Shape := ⟨2, ![100000, 4]⟩
abbrev S1x4 : Shape := ⟨2, ![1, 4]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x16, .f32⟩
  | .hbm, ⟨3, _⟩ => ⟨S144x128, .f32⟩
  | .hbm, ⟨4, _⟩ => ⟨S128, .f32⟩
  | .hbm, ⟨5, _⟩ => ⟨S144x4, .f32⟩
  | .hbm, ⟨6, _⟩ => ⟨S4, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x144, .f32⟩
  | .hbm, ⟨21, _⟩ => ⟨S1600000x144, .f32⟩
  | .hbm, ⟨22, _⟩ => ⟨S_, .f32⟩
  | .hbm, ⟨23, _⟩ => ⟨S1600000, .f32⟩
  | .hbm, ⟨24, _⟩ => ⟨S1600000x1, .f32⟩
  | .hbm, ⟨25, _⟩ => ⟨S1600000x1, .f32⟩
  | .hbm, ⟨26, _⟩ => ⟨S_, .f32⟩
  | .hbm, ⟨27, _⟩ => ⟨S1600000x1, .f32⟩
  | .hbm, ⟨28, _⟩ => ⟨S1600000x1, .f32⟩
  | .hbm, ⟨29, _⟩ => ⟨S1600000x144, .f32⟩
  | .hbm, ⟨30, _⟩ => ⟨S1600000x144, .f32⟩
  | .hbm, ⟨31, _⟩ => ⟨S_, .f32⟩
  | .hbm, ⟨32, _⟩ => ⟨S100000x144, .f32⟩
  | .hbm, ⟨33, _⟩ => ⟨S1600000x1, .i32⟩
  | .hbm, ⟨34, _⟩ => ⟨S100000x144, .f32⟩
  | .hbm, ⟨35, _⟩ => ⟨S_, .f32⟩
  | .hbm, ⟨36, _⟩ => ⟨S1600000, .f32⟩
  | .hbm, ⟨37, _⟩ => ⟨S_, .f32⟩
  | .hbm, ⟨38, _⟩ => ⟨S100000, .f32⟩
  | .hbm, ⟨39, _⟩ => ⟨S1600000x1, .i32⟩
  | .hbm, ⟨40, _⟩ => ⟨S100000, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S100000x1, .f32⟩
  | .hbm, ⟨45, _⟩ => ⟨S100000x144, .f32⟩
  | .hbm, ⟨46, _⟩ => ⟨S100000x144, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000, .f32⟩
  | .hbm, ⟨54, _⟩ => ⟨S100000x1, .f32⟩
  | .hbm, ⟨55, _⟩ => ⟨S100000x1, .f32⟩
  | .hbm, ⟨56, _⟩ => ⟨S_, .f32⟩
  | .hbm, ⟨57, _⟩ => ⟨S100000x1, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x128, .f32⟩
  | .hbm, ⟨73, _⟩ => ⟨S1600000x144, .f32⟩
  | .hbm, ⟨74, _⟩ => ⟨S1600000x144, .f32⟩
  | .hbm, ⟨75, _⟩ => ⟨S_, .f32⟩
  | .hbm, ⟨76, _⟩ => ⟨S1600000, .f32⟩
  | .hbm, ⟨77, _⟩ => ⟨S1600000x1, .f32⟩
  | .hbm, ⟨78, _⟩ => ⟨S1600000x1, .f32⟩
  | .hbm, ⟨79, _⟩ => ⟨S_, .f32⟩
  | .hbm, ⟨80, _⟩ => ⟨S1600000x1, .f32⟩
  | .hbm, ⟨81, _⟩ => ⟨S1600000x1, .f32⟩
  | .hbm, ⟨82, _⟩ => ⟨S1600000x144, .f32⟩
  | .hbm, ⟨83, _⟩ => ⟨S1600000x144, .f32⟩
  | .hbm, ⟨84, _⟩ => ⟨S_, .f32⟩
  | .hbm, ⟨85, _⟩ => ⟨S100000x144, .f32⟩
  | .hbm, ⟨86, _⟩ => ⟨S1600000x1, .i32⟩
  | .hbm, ⟨87, _⟩ => ⟨S100000x144, .f32⟩
  | .hbm, ⟨88, _⟩ => ⟨S_, .f32⟩
  | .hbm, ⟨89, _⟩ => ⟨S1600000, .f32⟩
  | .hbm, ⟨90, _⟩ => ⟨S_, .f32⟩
  | .hbm, ⟨91, _⟩ => ⟨S100000, .f32⟩
  | .hbm, ⟨92, _⟩ => ⟨S1600000x1, .i32⟩
  | .hbm, ⟨93, _⟩ => ⟨S100000, .f32⟩
  | .hbm, ⟨94, _⟩ => ⟨S_, .f32⟩
  | .hbm, ⟨95, _⟩ => ⟨S100000, .f32⟩
  | .hbm, ⟨96, _⟩ => ⟨S100000, .f32⟩
  | .hbm, ⟨97, _⟩ => ⟨S100000x1, .f32⟩
  | .hbm, ⟨98, _⟩ => ⟨S100000x144, .f32⟩
  | .hbm, ⟨99, _⟩ => ⟨S100000x144, .f32⟩
  | .hbm, ⟨100, _⟩ => ⟨S100000x4, .f32⟩
  | .hbm, ⟨101, _⟩ => ⟨S1x4, .f32⟩
  | .hbm, ⟨102, _⟩ => ⟨S100000x4, .f32⟩
  | .hbm, ⟨103, _⟩ => ⟨S100000x4, .f32⟩
  | .hbm, ⟨104, _⟩ => ⟨S100000x4, .f32⟩
  | .hbm, ⟨105, _⟩ => ⟨S_, .f32⟩
  | .hbm, ⟨106, _⟩ => ⟨S100000, .f32⟩
  | .hbm, ⟨107, _⟩ => ⟨S100000x1, .f32⟩
  | .hbm, ⟨108, _⟩ => ⟨S100000x1, .f32⟩
  | .hbm, ⟨109, _⟩ => ⟨S_, .f32⟩
  | .hbm, ⟨110, _⟩ => ⟨S100000x1, .f32⟩
  | .hbm, ⟨111, _⟩ => ⟨S100000x1, .f32⟩
  | .hbm, ⟨112, _⟩ => ⟨S100000x4, .f32⟩
  | .hbm, ⟨113, _⟩ => ⟨S100000x4, .f32⟩
  | .hbm, ⟨114, _⟩ => ⟨S100000x4, .f32⟩
  | .hbm, ⟨115, _⟩ => ⟨S100000x4, .f32⟩
  | .hbm, ⟨116, _⟩ => ⟨S_, .f32⟩
  | .hbm, ⟨117, _⟩ => ⟨S100000x4, .f32⟩
  | .hbm, ⟨118, _⟩ => ⟨S100000x4, .f32⟩
  | .hbm, ⟨119, _⟩ => ⟨S_, .f32⟩
  | .hbm, ⟨120, _⟩ => ⟨S100000x4, .f32⟩
  | .hbm, ⟨121, _⟩ => ⟨S100000x4, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_15 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_16 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_17 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_18 : Ref sig .tc := ⟨.hbm, 116, rfl⟩
abbrev main_v87 : Ref sig .tc := ⟨.hbm, 117, rfl⟩
abbrev main_v88 : Ref sig .tc := ⟨.hbm, 118, rfl⟩
abbrev main_cst_19 : Ref sig .tc := ⟨.hbm, 119, rfl⟩
abbrev main_v89 : Ref sig .tc := ⟨.hbm, 120, rfl⟩
abbrev main_v90 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x128_S1600000x16_S1600000x144_d1 : Shape.Concatenates [S1600000x128, S1600000x16] S1600000x144 1
  reducesTo_S1600000x144_S1600000_d1 : S1600000x144.ReducesTo [1] S1600000
  h_S_ : 0 < S_.numel
  bcast_S_S1600000x1 : S_.BroadcastsInDim S1600000x1 (![] : Fin 0 → Fin S1600000x1.rank)
  bcast_S1600000x1_S1600000x144_0_1 : S1600000x1.BroadcastsInDim S1600000x144 (![0, 1] : Fin 2 → Fin S1600000x144.rank)
  bcast_S_S100000x144 : S_.BroadcastsInDim S100000x144 (![] : Fin 0 → Fin S100000x144.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x144_0_1 : S100000x1.BroadcastsInDim S100000x144 (![0, 1] : Fin 2 → Fin S100000x144.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  reducesTo_S100000x4_S100000_d1 : S100000x4.ReducesTo [1] S100000
  bcast_S100000x1_S100000x4_0_1 : S100000x1.BroadcastsInDim S100000x4 (![0, 1] : Fin 2 → Fin S100000x4.rank)
  bcast_S_S100000x4 : S_.BroadcastsInDim S100000x4 (![] : Fin 0 → Fin S100000x4.rank)
  gather_S100000x128_S1600000x1_S1600000x128_1_0_n_n_0_1_1128_wf : GatherDims.WF S100000x128 S1600000x1 S1600000x128 [1] [0] [] [0] [] 1 ![1, 128]
  scatter_S100000x144_S1600000x1_S1600000x144_1_0_0_1_wf : ScatterDims.WF S100000x144 S1600000x1 S1600000x144 [1] [0] [0] 1
  scatter_S100000_S1600000x1_S1600000_n_0_0_1_wf : ScatterDims.WF S100000 S1600000x1 S1600000 [] [0] [0] 1
  dot_S100000x144_S144x128_S100000x128_1_0_0_1_n_n_wf : DotDims.WF S100000x144 S144x128 S100000x128 [1] [0] [0] [1] [] []
  dot_S100000x144_S144x4_S100000x4_1_0_0_1_n_n_wf : DotDims.WF S100000x144 S144x4 S100000x4 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x144_S1600000x1_S1600000x144_1_0_0_1 : ScatterDims S100000x144 S1600000x1 S1600000x144 where
  updateWindowDims := [1]
  insertedWindowDims := [0]
  scatterDimsToOperandDims := [0]
  indexVectorDim := 1
  wf := scatter_S100000x144_S1600000x1_S1600000x144_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x144_S144x128_S100000x128_1_0_0_1_n_n : DotDims S100000x144 S144x128 S100000x128 where
  lhsContracting := [1]
  rhsContracting := [0]
  lhsNonContracting := [0]
  rhsNonContracting := [1]
  lhsBatch := []
  rhsBatch := []
  wf := dot_S100000x144_S144x128_S100000x128_1_0_0_1_n_n_wf
def dot_S100000x144_S144x4_S100000x4_1_0_0_1_n_n : DotDims S100000x144 S144x4 S100000x4 where
  lhsContracting := [1]
  rhsContracting := [0]
  lhsNonContracting := [0]
  rhsNonContracting := [1]
  lhsBatch := []
  rhsBatch := []
  wf := dot_S100000x144_S144x4_S100000x4_1_0_0_1_n_n_wf

class Facts : Prop extends Facts₀ where

variable [Facts]
-- ==== Proof.Spec.lean ====
/-
  The mathematics both programs compute, index by index over the extended reals.

  One message-passing layer: every edge `e` carries the row `[xr e | ea e]` (144 entries: 128 gathered node
  features, then 16 edge features) divided by `max (sqrt (sum of its squares)) eps`; the rows are summed into
  their destination nodes (the scatter, shared by both programs and never opened here); every node row is divided by
  `max count 1`, multiplied by the weight matrix, shifted by the bias, and normalised the same way; then the
  activation (a maximum with zero, or the logistic function). Two layers, the second gathering from the first's result.
-/
import Idealize.ShloMosaic.Lib.ValueIdx
import Idealize.ShloMosaic.PureOps.Ideal.Laws

noncomputable section

open scoped BigOperators

namespace Cert.Spec

open Idealize.ShloMosaic Idealize.ShloMosaic.ValueIdx

/-- A rank-2 array of extended reals. -/
abbrev A2 (n m : Nat) : Type := (⟨2, ![n, m]⟩ : Shape).Idx → EReal
/-- A rank-1 array of extended reals. -/
abbrev A1 (n : Nat) : Type := (⟨1, ![n]⟩ : Shape).Idx → EReal

/-- The floor under every norm: the word both programs carry (about 1e-12). -/
def epsW : EReal := Ideal.ofBits .f32 0x2B8CBCCC#32
/-- The floor under every count: the word of 1.0 both programs carry. -/
def oneW : EReal := Ideal.ofBits .f32 0x3F800000#32
/-- The zero word the first layer's activation compares with. -/
def zeroW : EReal := Ideal.ofBits .f32 0x00000000#32

/-- Entry `k` of edge `e`'s concatenated row: a gathered feature for `k < 128`, an edge feature after. -/
def catAt (xr : A2 1600000 128) (ea : A2 1600000 16) (e : Fin 1600000) (k : Fin 144) : EReal :=
  if h : k.val < 128 then xr (ix2 e ⟨k.val, h⟩) else ea (ix2 e ⟨k.val - 128, by have := k.isLt; omega⟩)

/-- What a row is divided by: its Euclidean norm, floored at `epsW`. -/
def rowDen {K : Nat} (v : Fin K → EReal) : EReal := max (Ideal.sqrt (∑ k : Fin K, v k * v k)) epsW

/-- The normalised concatenated row of edge `e`, entry `j`. -/
def cnAt (xr : A2 1600000 128) (ea : A2 1600000 16) (e : Fin 1600000) (j : Fin 144) : EReal :=
  Ideal.div (catAt xr ea e j) (rowDen (catAt xr ea e))

/-- The edge stage as one array. -/
def cn (xr : A2 1600000 128) (ea : A2 1600000 16) : A2 1600000 144 := fun i => cnAt xr ea (i 0) (i 1)

/-- Node `n`'s summed row divided by its floored count: the mean over incoming edges. -/
def aggAt (s : A2 100000 144) (cnt : Fin 100000 → EReal) (n : Fin 100000) (k : Fin 144) : EReal :=
  Ideal.div (s (ix2 n k)) (max (cnt n) oneW)

/-- The linear map of the mean row, entry `j`: the product with the weights' column `j`, plus the bias. -/
def linAt {C : Nat} (s : A2 100000 144) (cnt : Fin 100000 → EReal) (W : A2 144 C) (b : A1 C) (n : Fin 100000) (j : Fin C) : EReal :=
  (∑ k : Fin 144, aggAt s cnt n k * W (ix2 k j)) + b (ix1 j)

/-- The normalised linear row of node `n`, entry `j`. -/
def normAt {C : Nat} (s : A2 100000 144) (cnt : Fin 100000 → EReal) (W : A2 144 C) (b : A1 C) (n : Fin 100000) (j : Fin C) : EReal :=
  Ideal.div (linAt s cnt W b n j) (rowDen (linAt s cnt W b n))

/-- The first layer's node stage: the normalised linear row, floored at zero. -/
def alnRelu (s : A2 100000 144) (cnt : Fin 100000 → EReal) (W : A2 144 128) (b : A1 128) : A2 100000 128 :=
  fun i => max (normAt s cnt W b (i 0) (i 1)) zeroW

/-- The second layer's node stage: the logistic function of the normalised linear row. -/
def alnSig (s : A2 100000 144) (cnt : Fin 100000 → EReal) (W : A2 144 4) (b : A1 4) : A2 100000 4 :=
  fun i => Ideal.logistic (normAt s cnt W b (i 0) (i 1))

/-- Both layers, over the two operations the programs share verbatim: `take` (rows of a node array read at the
    edges' source nodes) and `scat` (edge rows summed into their destination nodes). -/
def twoLayers (take : A2 100000 128 → A2 1600000 128) (scat : A2 1600000 144 → A2 100000 144) (cnt : Fin 100000 → EReal)
    (x : A2 100000 128) (ea : A2 1600000 16) (W1 : A2 144 128) (b1 : A1 128) (W2 : A2 144 4) (b2 : A1 4) : A2 100000 4 :=
  alnSig (scat (cn (take (alnRelu (scat (cn (take x) ea)) cnt W1 b1)) ea)) cnt W2 b2

end Cert.Spec

end
-- ==== Proof.KCn0.lean ====
import proofs.«411764_j69793218560204_1_alg».proof.Proof.Gen.KernelIdeal.Frame
import proofs.«411764_j69793218560204_1_alg».proof.Proof.Spec
import Idealize.ShloMosaic.Lib.Pipeline.Value
import Idealize.ShloMosaic.Lib.ValueLayout

set_option maxRecDepth 16384

noncomputable section

namespace Cert.KernelIdeal.Cn0

open Idealize.ShloMosaic Idealize.ShloMosaic.TcCoe Idealize.ShloMosaic.ValueIdx Idealize.SL.Sem
open Cert.KernelIdeal Cert.KernelIdeal.Gen
open scoped BigOperators

/-- Entry `k` of row `p` of two blocks set side by side: the first block's for `k < 128`, the second's after. -/
def catB (x0 : FVec Ideal S10000x128 .f32) (x1 : FVec Ideal S10000x16 .f32) (p : Fin 10000) (k : Fin 144) : EReal :=
  if h : k.val < 128 then x0 (ix2 p ⟨k.val, h⟩) else x1 (ix2 p ⟨k.val - 128, by have := k.isLt; omega⟩)

/-- The two blocks set side by side along the columns, read at row `p`, column `k`: the side the column falls on, at the
    column counted from that side's start. -/
theorem cat_apply (x0 : FVec Ideal S10000x128 .f32) (x1 : FVec Ideal S10000x16 .f32) (p : Fin 10000) (k : Fin 144) :
    concatenate S10000x144 1 [⟨S10000x128, x0⟩, ⟨S10000x16, x1⟩] concatenates_S10000x128_S10000x16_S10000x144_d1 (ix2 p k)
      = catB x0 x1 p k := by
  unfold catB
  split
  · rename_i h
    exact concatenate_pair_apply_left (1 : Fin S10000x144.rank) x0 x1 _ (ix2 p k) rfl (ix2 p ⟨k.val, h⟩)
      (fun b => by match b with | ⟨0, _⟩ => rfl | ⟨1, _⟩ => rfl)
  · rename_i h
    refine concatenate_pair_apply_right (1 : Fin S10000x144.rank) x0 x1 _ (ix2 p k) rfl rfl (ix2 p ⟨k.val - 128, by have := k.isLt; omega⟩)
      (fun b hb => by match b, hb with | ⟨0, _⟩, _ => rfl | ⟨1, _⟩, hb => exact absurd rfl hb) ?_
    show k.val - 128 + 128 = k.val
    omega

/-- What every entry of row `p` is divided by: the row's squares summed over its 144 entries, the square root of the sum
    kept as a one-entry column, floored at the small constant, and spread back over the row's 144 columns. -/
theorem den_apply (c : FVec Ideal S10000x144 .f32) (p : Fin 10000) (q : Fin 144) :
    broadcastTo S10000x144
      (maximumf (sqrt (shapeCast S10000x1 (multiReduction (F := Ideal) .add [1] S10000 (mulf c c) 0x00000000#32 reduces_S10000x144_S10000 (.inl rfl) rfl) shapeCasts_S10000_S10000x1))
        (broadcast S10000x1 (Scalar.ofBits (F := Ideal) .f32 0x2B8CBCCC#32)))
      broadcasts_S10000x1_S10000x144 (ix2 p q)
    = max (Ideal.sqrt (∑ k : Fin 144, c (ix2 p k) * c (ix2 p k))) Cert.Spec.epsW := by
  refine (broadcastTo_apply _ _ (ix2 p q) (ix2 p (0 : Fin 1)) ?_).trans ?_
  · intro a
    match a with
    | ⟨0, _⟩ => rfl
    | ⟨1, _⟩ => rfl
  show max (Ideal.sqrt (shapeCast S10000x1 _ shapeCasts_S10000_S10000x1 (ix2 p (0 : Fin 1)))) Cert.Spec.epsW = _
  refine congrArg (fun z => max (Ideal.sqrt z) Cert.Spec.epsW) ?_
  refine (shapeCast_apply _ _ (ix2 p (0 : Fin 1)) (ix1 p) ?_).trans ?_
  · rw [Shape.rowMajor_val_one, Shape.rowMajor_val_two]
    show p.val = p.val * 1 + 0
    omega
  refine (Ideal.multiReduction_add_single (mulf c c) 0x00000000#32 reduces_S10000x144_S10000 (.inl rfl) rfl (ix1 p)).trans ?_
  refine Finset.sum_congr rfl fun k _ => ?_
  have e : reduces_S10000x144_S10000.lift (ix1 p) k = ix2 p k :=
    funext fun a => Fin.ext (by match a with | ⟨0, _⟩ => rfl | ⟨1, _⟩ => rfl)
  exact congrArg (fun z => c z * c z) e

/-- The block the body stores, read at row `p`, entry `q`: the concatenated row's entry over the row's floored norm. -/
theorem pay_apply (x0 : Vec Ideal S10000x128 .f32) (x1 : Vec Ideal S10000x16 .f32) (p : Fin 10000) (q : Fin 144) :
    k0_pay1 (F := Ideal) x0 x1 (ix2 p q)
      = Ideal.div (catB x0 x1 p q) (max (Ideal.sqrt (∑ k : Fin 144, catB x0 x1 p k * catB x0 x1 p k)) Cert.Spec.epsW) := by
  unfold k0_pay1
  dsimp only
  rw [shapeCast_self]
  show Ideal.div _ _ = _
  rw [den_apply, cat_apply]
  simp only [cat_apply]

/-- One stored row against the specification: when the two blocks' row `p` holds edge `e`'s gathered features and edge
    features, the stored entry `q` of that row is edge `e`'s normalised concatenated row at `q`. -/
theorem row_eq (xr : Cert.Spec.A2 1600000 128) (ea : Cert.Spec.A2 1600000 16)
    (x0 : Vec Ideal S10000x128 .f32) (x1 : Vec Ideal S10000x16 .f32) (e : Fin 1600000) (p : Fin 10000)
    (h0 : ∀ k : Fin 128, x0 (ix2 p k) = xr (ix2 e k)) (h1 : ∀ k : Fin 16, x1 (ix2 p k) = ea (ix2 e k)) (q : Fin 144) :
    k0_pay1 (F := Ideal) x0 x1 (ix2 p q) = Cert.Spec.cnAt xr ea e q := by
  have hc : ∀ k : Fin 144, catB x0 x1 p k = Cert.Spec.catAt xr ea e k := by
    intro k
    unfold catB Cert.Spec.catAt
    split
    · exact h0 _
    · exact h1 _
  rw [pay_apply]
  unfold Cert.Spec.cnAt Cert.Spec.rowDen
  simp only [hc]

variable (V : (c : Dev nD) → (b : Ref sig .tc) → Buf (Elt Ideal) ((c : Thread nD τ).loc b))

/-- The body reads and writes each staged block from its corner. -/
theorem zero_off : (![0, 0] : Fin 2 → Nat) = fun _ => 0 := funext fun a => by fin_cases a <;> rfl

/-- Where the three windows' blocks sit at grid point `t`: all three at block row `t`, block column 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row `p`, entry `q` of what point `t` stores is the specification at edge `10000·t + p`, entry `q`: the place the output
    block's row `p` has in the array. -/
theorem block_eq (c : Dev nD) (t : Fin cfg0.N) (p : Fin 10000) (q : Fin 144) :
    k0_pay1 (F := Ideal) (iblk0 V c 0 t) (iblk0 V c 1 t) (ix2 p q)
      = Cert.Spec.cn (V c main_v9) (V c main_arg2) (((cfg0.win 2).blk t).view.emb (ix2 p q)) := by
  obtain ⟨a0, a1, b0, b1, o0, o1⟩ := index_facts t
  have ht : t.val < 160 := by have := t.isLt; have hN : cfg0.N = 160 := N_0; omega
  have he : ((cfg0.win 2).blk t).view.emb (ix2 p q) = ix2 (⟨t.val * 10000 + p.val, by omega⟩ : Fin 1600000) q := by
    funext a; apply Fin.ext
    match a with
    | ⟨0, _⟩ => show win0_2.index t (0 : Fin 2) * 10000 + 1 * p.val = t.val * 10000 + p.val; omega
    | ⟨1, _⟩ => show win0_2.index t (1 : Fin 2) * 144 + 1 * q.val = q.val; omega
  rw [he]
  show _ = Cert.Spec.cnAt _ _ _ _
  refine row_eq (V c main_v9) (V c main_arg2) _ _ _ p (fun k => ?_) (fun k => ?_) q
  · show (V c main_v9 : S1600000x128.Idx → EReal) (((cfg0.win 0).blk t).view.emb (ix2 p k)) = _
    refine congrArg (V c main_v9 : S1600000x128.Idx → EReal) (funext fun a => Fin.ext ?_)
    match a with
    | ⟨0, _⟩ => show win0_0.index t (0 : Fin 2) * 10000 + 1 * p.val = t.val * 10000 + p.val; omega
    | ⟨1, _⟩ => show win0_0.index t (1 : Fin 2) * 128 + 1 * k.val = k.val; omega
  · show (V c main_arg2 : S1600000x16.Idx → EReal) (((cfg0.win 1).blk t).view.emb (ix2 p k)) = _
    refine congrArg (V c main_arg2 : S1600000x16.Idx → EReal) (funext fun a => Fin.ext ?_)
    match a with
    | ⟨0, _⟩ => show win0_1.index t (0 : Fin 2) * 10000 + 1 * p.val = t.val * 10000 + p.val; omega
    | ⟨1, _⟩ => show win0_1.index t (1 : Fin 2) * 16 + 1 * k.val = k.val; omega

/-- What point `t` writes back is block `t` of the specification's array. -/
theorem flushed_eq (c : Dev nD) (t : Fin cfg0.N) :
    (dat0 (F := Ideal) V c).flushed 2 t
      = ((cfg0.win 2).blk t).view.read (Elt Ideal) (Cert.Spec.cn (V c main_v9) (V c main_arg2)) := by
  show (cfg0.win 2).cut (grid0.coords t) ((dat0 V c).after 2 t) = _
  rw [after0_2]
  unfold out0_2
  rw [View.canon_unit_zero zero_off]
  simp only [View.ld_unit_zero (S := S10000x128) zero_off, View.ld_unit_zero (S := S10000x16) zero_off]
  funext j
  obtain ⟨p, q, rfl⟩ : ∃ (p : Fin 10000) (q : Fin 144), j = ix2 p q := ⟨j 0, j 1, eq_ix2 j⟩
  exact block_eq V c t p q

/-- An index of the array is in point `t`'s block iff each coordinate is in the block's range on its axis. -/
theorem mem_blk (t : Fin cfg0.N) (i : S1600000x144.Idx) :
    i ∈ ((cfg0.win 2).blk t).view.set ↔ ∀ a : Fin 2, win0_2.index t a * S10000x144.size a ≤ (i a).val ∧ (i a).val < win0_2.index t a * S10000x144.size a + S10000x144.size a := by
  show i ∈ ((View.whole main_v10).slice (win0_2.rect t)).set ↔ _
  rw [View.set_slice_whole, Rect.mem_set_unit]
  exact Iff.rfl

/-- Every index of the array is in some point's block: row `r` is in the block of point `r / 10000`. -/
theorem cover (i : S1600000x144.Idx) :
    ∃ t : Fin cfg0.N, (cfg0.win 2).flush t = true ∧ i ∈ ((cfg0.win 2).blk t).view.set := by
  have hi0 : (i 0).val < 1600000 := (i 0).isLt
  have hi1 : (i 1).val < 144 := (i 1).isLt
  have hN : cfg0.N = 160 := N_0
  obtain ⟨t, ht⟩ : ∃ t : Fin cfg0.N, t.val = (i 0).val / 10000 := ⟨⟨(i 0).val / 10000, by omega⟩, rfl⟩
  obtain ⟨_, _, _, _, o0, o1⟩ := index_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 144 ≤ (i 1).val ∧ (i 1).val < win0_2.index t (1 : Fin 2) * 144 + 144; omega

/-- The first edge stage's output array after its last grid point: the normalised concatenated rows of the two input arrays
    as the stage finds them. -/
theorem final (c : Dev nD) :
    (dat0 (F := Ideal) V c).arrAt 2 cfg0.N = Cert.Spec.cn (V c main_v9) (V c main_arg2) :=
  (dat0 V c).arrAt_eq_of_cover 2 (Cert.Spec.cn (V c main_v9) (V c main_arg2)) (fun t _ => flushed_eq V c t) cover

end Cert.KernelIdeal.Cn0

end
-- ==== Proof.KCn2.lean ====
import proofs.«411764_j69793218560204_1_alg».proof.Proof.KCn0

set_option maxRecDepth 16384

noncomputable section

namespace Cert.KernelIdeal.Cn2

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The second edge stage stores the same function of its two blocks as the first. -/
theorem pay_same (x0 : Vec Ideal S10000x128 .f32) (x1 : Vec Ideal S10000x16 .f32) :
    k2_pay1 (F := Ideal) x0 x1 = k0_pay1 (F := Ideal) x0 x1 := rfl

/-- Where the three windows' blocks sit at grid point `t`: all three at block row `t`, block column 0. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Row `p`, entry `q` of what point `t` stores is the specification at edge `10000·t + p`, entry `q`: the place the output
    block's row `p` has in the array. -/
theorem block_eq (c : Dev nD) (t : Fin cfg2.N) (p : Fin 10000) (q : Fin 144) :
    k2_pay1 (F := Ideal) (iblk2 V c 0 t) (iblk2 V c 1 t) (ix2 p q)
      = Cert.Spec.cn (V c main_v15) (V c main_arg2) (((cfg2.win 2).blk t).view.emb (ix2 p q)) := by
  obtain ⟨a0, a1, b0, b1, o0, o1⟩ := index_facts t
  have ht : t.val < 160 := by have := t.isLt; have hN : cfg2.N = 160 := N_2; omega
  have he : ((cfg2.win 2).blk t).view.emb (ix2 p q) = ix2 (⟨t.val * 10000 + p.val, by omega⟩ : Fin 1600000) q := by
    funext a; apply Fin.ext
    match a with
    | ⟨0, _⟩ => show win2_2.index t (0 : Fin 2) * 10000 + 1 * p.val = t.val * 10000 + p.val; omega
    | ⟨1, _⟩ => show win2_2.index t (1 : Fin 2) * 144 + 1 * q.val = q.val; omega
  rw [he, pay_same]
  show _ = Cert.Spec.cnAt _ _ _ _
  refine Cn0.row_eq (V c main_v15) (V c main_arg2) _ _ _ p (fun k => ?_) (fun k => ?_) q
  · show (V c main_v15 : S1600000x128.Idx → EReal) (((cfg2.win 0).blk t).view.emb (ix2 p k)) = _
    refine congrArg (V c main_v15 : S1600000x128.Idx → EReal) (funext fun a => Fin.ext ?_)
    match a with
    | ⟨0, _⟩ => show win2_0.index t (0 : Fin 2) * 10000 + 1 * p.val = t.val * 10000 + p.val; omega
    | ⟨1, _⟩ => show win2_0.index t (1 : Fin 2) * 128 + 1 * k.val = k.val; omega
  · show (V c main_arg2 : S1600000x16.Idx → EReal) (((cfg2.win 1).blk t).view.emb (ix2 p k)) = _
    refine congrArg (V c main_arg2 : S1600000x16.Idx → EReal) (funext fun a => Fin.ext ?_)
    match a with
    | ⟨0, _⟩ => show win2_1.index t (0 : Fin 2) * 10000 + 1 * p.val = t.val * 10000 + p.val; omega
    | ⟨1, _⟩ => show win2_1.index t (1 : Fin 2) * 16 + 1 * k.val = k.val; omega

/-- What point `t` writes back is block `t` of the specification's array. -/
theorem flushed_eq (c : Dev nD) (t : Fin cfg2.N) :
    (dat2 (F := Ideal) V c).flushed 2 t
      = ((cfg2.win 2).blk t).view.read (Elt Ideal) (Cert.Spec.cn (V c main_v15) (V c main_arg2)) := by
  show (cfg2.win 2).cut (grid2.coords t) ((dat2 V c).after 2 t) = _
  rw [after2_2]
  unfold out2_2
  rw [View.canon_unit_zero Cn0.zero_off]
  simp only [View.ld_unit_zero (S := S10000x128) Cn0.zero_off, View.ld_unit_zero (S := S10000x16) Cn0.zero_off]
  funext j
  obtain ⟨p, q, rfl⟩ : ∃ (p : Fin 10000) (q : Fin 144), j = ix2 p q := ⟨j 0, j 1, eq_ix2 j⟩
  exact block_eq V c t p q

/-- An index of the array is in point `t`'s block iff each coordinate is in the block's range on its axis. -/
theorem mem_blk (t : Fin cfg2.N) (i : S1600000x144.Idx) :
    i ∈ ((cfg2.win 2).blk t).view.set ↔ ∀ a : Fin 2, win2_2.index t a * S10000x144.size a ≤ (i a).val ∧ (i a).val < win2_2.index t a * S10000x144.size a + S10000x144.size a := by
  show i ∈ ((View.whole main_v16).slice (win2_2.rect t)).set ↔ _
  rw [View.set_slice_whole, Rect.mem_set_unit]
  exact Iff.rfl

/-- Every index of the array is in some point's block: row `r` is in the block of point `r / 10000`. -/
theorem cover (i : S1600000x144.Idx) :
    ∃ t : Fin cfg2.N, (cfg2.win 2).flush t = true ∧ i ∈ ((cfg2.win 2).blk t).view.set := by
  have hi0 : (i 0).val < 1600000 := (i 0).isLt
  have hi1 : (i 1).val < 144 := (i 1).isLt
  have hN : cfg2.N = 160 := N_2
  obtain ⟨t, ht⟩ : ∃ t : Fin cfg2.N, t.val = (i 0).val / 10000 := ⟨⟨(i 0).val / 10000, by omega⟩, rfl⟩
  obtain ⟨_, _, _, _, o0, o1⟩ := index_facts t
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 144 ≤ (i 1).val ∧ (i 1).val < win2_2.index t (1 : Fin 2) * 144 + 144; omega

/-- The second edge stage's output array after its last grid point: the normalised concatenated rows of the two input
    arrays as the stage finds them. -/
theorem final (c : Dev nD) :
    (dat2 (F := Ideal) V c).arrAt 2 cfg2.N = Cert.Spec.cn (V c main_v15) (V c main_arg2) :=
  (dat2 V c).arrAt_eq_of_cover 2 (Cert.Spec.cn (V c main_v15) (V c main_arg2)) (fun t _ => flushed_eq V c t) cover

end Cert.KernelIdeal.Cn2

end
-- ==== Proof.KAln1.lean ====
/-
  The first layer's node stage, block by block, is the specification's `alnRelu` of the arrays it is given.

  The stage walks the 100000 nodes in 20 blocks of 5000 rows. For a block it takes the nodes' summed rows (144 entries each)
  and their counts, divides each row by its count floored at one, multiplies by the 144 x 128 weight matrix, adds the bias,
  divides each resulting row by its Euclidean norm floored at a tiny constant, and floors every entry at zero. Read at row `p`
  and column `q` of a block this is exactly the specification's entry at node `5000 t + p` and column `q`: an entry depends
  only on its own node's summed row and count, on the whole weight matrix and on the whole bias. The 20 blocks tile the
  result, so after the last block the result is the specification's array.
-/
import proofs.«411764_j69793218560204_1_alg».proof.Proof.Gen.KernelIdeal.Frame
import proofs.«411764_j69793218560204_1_alg».proof.Proof.Spec
import Idealize.ShloMosaic.Lib.Pipeline.Value
import Idealize.ShloMosaic.Lib.ValueLayout

set_option maxRecDepth 16384

noncomputable section

namespace Cert.KernelIdeal.Aln1

open Idealize.ShloMosaic Idealize.ShloMosaic.TcCoe Idealize.ShloMosaic.ValueIdx Idealize.SL.Sem
open Cert.KernelIdeal Cert.KernelIdeal.Gen
open scoped BigOperators

/-! ## Two layout reads at literal coordinates: a column kept by a row sum, and a column spread over the row -/

section Layout
variable {α : Type}

/-- A length-`a` vector viewed as an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## One block of the node stage, entry by entry -/

/-- Entry `k` of block row `p`'s mean: the summed row over the row's count floored at one. -/
def aggB (x0 : Vec Ideal S5000x144 .f32) (x1 : Vec Ideal S5000x1 .f32) (p : Fin 5000) (k : Fin 144) : EReal :=
  Ideal.div (x0 (ix2 p k)) (max (x1 (ix2 p (0 : Fin 1))) Cert.Spec.oneW)

/-- Entry `j` of block row `p`'s linear image: the mean row against the weights' column `j`, plus the bias. -/
def linB (x0 : Vec Ideal S5000x144 .f32) (x1 : Vec Ideal S5000x1 .f32) (x2 : Vec Ideal S144x128 .f32) (x3 : Vec Ideal S128 .f32)
    (p : Fin 5000) (j : Fin 128) : EReal :=
  (∑ k : Fin 144, aggB x0 x1 p k * x2 (ix2 k j)) + x3 (ix1 j)

/-- The block of mean rows as the body forms it. -/
def aggV (x0 : Vec Ideal S5000x144 .f32) (x1 : Vec Ideal S5000x1 .f32) : FVec Ideal S5000x144 .f32 :=
  divf (shapeCast S5000x144 x0 shapeCasts_S5000x144_S5000x144)
    (broadcastTo S5000x144 (maximumf (shapeCast S5000x1 x1 shapeCasts_S5000x1_S5000x1) (broadcast S5000x1 (Scalar.ofBits .f32 0x3F800000#32)))
      broadcasts_S5000x1_S5000x144)

/-- The block of linear images as the body forms it. -/
def linV (x0 : Vec Ideal S5000x144 .f32) (x1 : Vec Ideal S5000x1 .f32) (x2 : Vec Ideal S144x128 .f32) (x3 : Vec Ideal S128 .f32) :
    FVec Ideal S5000x128 .f32 :=
  addf (matmul (φ₁ := .f32) (φ₂ := .f32) dot_S5000x144_S144x128_S5000x128_1_0_0_1_n_n none (aggV x0 x1) x2 (constant (F := Ideal) S5000x128 .f32 0x00000000#32))
    (broadcastTo S5000x128 (shapeCast S1x128 x3 shapeCasts_S128_S1x128) broadcasts_S1x128_S5000x128)

/-- The stored block is the linear block over its rows' floored norms, floored at zero. -/
theorem pay_eq (x0 : Vec Ideal S5000x144 .f32) (x1 : Vec Ideal S5000x1 .f32) (x2 : Vec Ideal S144x128 .f32) (x3 : Vec Ideal S128 .f32) :
    k1_pay1 (F := Ideal) x0 x1 x2 x3
      = maximumf (divf (linV x0 x1 x2 x3)
          (broadcastTo S5000x128
            (maximumf (sqrt (shapeCast S5000x1
                (multiReduction (F := Ideal) .add [1] S5000 (mulf (linV x0 x1 x2 x3) (linV x0 x1 x2 x3)) 0x00000000#32 reduces_S5000x128_S5000 (.inl rfl) rfl)
                shapeCasts_S5000_S5000x1))
              (broadcast S5000x1 (Scalar.ofBits .f32 0x2B8CBCCC#32)))
            broadcasts_S5000x1_S5000x128))
        (broadcast S5000x128 (Scalar.ofBits .f32 0x00000000#32)) := rfl

/-! ## The product's operand indices: row and contracted coordinate on the left, contracted coordinate and column on the right -/

theorem dot_left_row (i : S5000x128.Idx) (q : dot_S5000x144_S144x128_S5000x128_1_0_0_1_n_n.contr.Idx) :
    (dot_S5000x144_S144x128_S5000x128_1_0_0_1_n_n.lhsIdx i q 0).val = (i 0).val := by
  unfold DotDims.lhsIdx
  rw [dif_neg (show ¬(0 : Fin S5000x144.rank) ∈ dot_S5000x144_S144x128_S5000x128_1_0_0_1_n_n.lhsBatch by decide), dif_pos (show (0 : Fin S5000x144.rank) ∈ dot_S5000x144_S144x128_S5000x128_1_0_0_1_n_n.lhsNonContracting by decide)]
  rfl
theorem dot_left_col (i : S5000x128.Idx) (q : dot_S5000x144_S144x128_S5000x128_1_0_0_1_n_n.contr.Idx) :
    (dot_S5000x144_S144x128_S5000x128_1_0_0_1_n_n.lhsIdx i q 1).val = (q ⟨0, by decide⟩).val :=
  dot_S5000x144_S144x128_S5000x128_1_0_0_1_n_n.lhsIdx_val_of_single rfl i q
theorem dot_right_row (i : S5000x128.Idx) (q : dot_S5000x144_S144x128_S5000x128_1_0_0_1_n_n.contr.Idx) :
    (dot_S5000x144_S144x128_S5000x128_1_0_0_1_n_n.rhsIdx i q 0).val = (q ⟨0, by decide⟩).val :=
  dot_S5000x144_S144x128_S5000x128_1_0_0_1_n_n.rhsIdx_val_of_single rfl i q
theorem dot_right_col (i : S5000x128.Idx) (q : dot_S5000x144_S144x128_S5000x128_1_0_0_1_n_n.contr.Idx) :
    (dot_S5000x144_S144x128_S5000x128_1_0_0_1_n_n.rhsIdx i q 1).val = (i 1).val := by
  unfold DotDims.rhsIdx
  rw [dif_neg (show ¬(1 : Fin S144x128.rank) ∈ dot_S5000x144_S144x128_S5000x128_1_0_0_1_n_n.rhsBatch by decide), dif_pos (show (1 : Fin S144x128.rank) ∈ dot_S5000x144_S144x128_S5000x128_1_0_0_1_n_n.rhsNonContracting by decide)]
  rfl

/-- The mean block at `(p, k)`: the casts are identities and the count's column is read at row `p`. -/
theorem aggV_apply (x0 : Vec Ideal S5000x144 .f32) (x1 : Vec Ideal S5000x1 .f32) (p : Fin 5000) (k : Fin 144) :
    aggV x0 x1 (ix2 p k) = aggB x0 x1 p k := by
  unfold aggV aggB
  rw [divf_apply, shapeCast_self, broadcastTo_a1_ab_apply, maximumf_apply, shapeCast_self, broadcast_apply]
  rfl

/-- The linear block at `(p, j)`: the product is the sum over the 144 contracted entries, the bias is read at column `j`. -/
theorem linV_apply (x0 : Vec Ideal S5000x144 .f32) (x1 : Vec Ideal S5000x1 .f32) (x2 : Vec Ideal S144x128 .f32) (x3 : Vec Ideal S128 .f32)
    (p : Fin 5000) (j : Fin 128) : linV x0 x1 x2 x3 (ix2 p j) = linB x0 x1 x2 x3 p j := by
  unfold linV linB
  rw [addf_apply, broadcastTo_1b_ab_apply, shapeCast_a_1a_apply]
  refine congrArg (· + x3 (ix1 j)) ?_
  simp only [matmul]
  rw [Ideal.matmul_constant_zero_apply, ← Equiv.sum_comp (ValueIdx.contrEquiv1 dot_S5000x144_S144x128_S5000x128_1_0_0_1_n_n 144 rfl rfl).symm]
  refine Finset.sum_congr rfl fun k _ => ?_
  have hk := ValueIdx.contrEquiv1_symm_val dot_S5000x144_S144x128_S5000x128_1_0_0_1_n_n 144 rfl rfl k
  have el : dot_S5000x144_S144x128_S5000x128_1_0_0_1_n_n.lhsIdx (ix2 p j) ((ValueIdx.contrEquiv1 dot_S5000x144_S144x128_S5000x128_1_0_0_1_n_n 144 rfl rfl).symm k) = ix2 p k := funext fun a => Fin.ext (by
    match a with
    | ⟨0, _⟩ => exact dot_left_row _ _
    | ⟨1, _⟩ => exact (dot_left_col _ _).trans hk)
  have er : dot_S5000x144_S144x128_S5000x128_1_0_0_1_n_n.rhsIdx (ix2 p j) ((ValueIdx.contrEquiv1 dot_S5000x144_S144x128_S5000x128_1_0_0_1_n_n 144 rfl rfl).symm k) = ix2 k j := funext fun a => Fin.ext (by
    match a with
    | ⟨0, _⟩ => exact (dot_right_row _ _).trans hk
    | ⟨1, _⟩ => exact dot_right_col _ _)
  rw [el, er, aggV_apply]

/-- The source index of a row sum: the row's coordinate with the summed column inserted. -/
theorem rowsum_lift (p : Fin 5000) (k : Fin 128) :
    Shape.Reduces.lift reduces_S5000x128_S5000 (ix1 p) k = ix2 p k :=
  funext fun a => Fin.ext (by
    match a with
    | ⟨0, _⟩ => rfl
    | ⟨1, _⟩ => rfl)

/-- A row's sum of squares at the ideal values. -/
theorem rowsum_apply (y : FVec Ideal S5000x128 .f32) (hacc : (0x00000000#32 : BitVec 32) = 0x00000000#32) (p : Fin 5000) :
    multiReduction (F := Ideal) .add [1] S5000 y 0x00000000#32 reduces_S5000x128_S5000 (.inl rfl) hacc (ix1 p) = ∑ k : Fin 128, y (ix2 p k) := by
  refine (Ideal.multiReduction_add_single y 0x00000000#32 reduces_S5000x128_S5000 (.inl rfl) hacc (ix1 p)).trans ?_
  show ∑ k : Fin 128, y (Shape.Reduces.lift reduces_S5000x128_S5000 (ix1 p) k) = _
  refine Finset.sum_congr rfl fun k _ => ?_
  rw [rowsum_lift]

/-- THE STORED BLOCK AT `(p, q)`: row `p`'s linear image over its floored norm, floored at zero. -/
theorem pay_apply (x0 : Vec Ideal S5000x144 .f32) (x1 : Vec Ideal S5000x1 .f32) (x2 : Vec Ideal S144x128 .f32) (x3 : Vec Ideal S128 .f32)
    (p : Fin 5000) (q : Fin 128) :
    k1_pay1 (F := Ideal) x0 x1 x2 x3 (ix2 p q)
      = max (Ideal.div (linB x0 x1 x2 x3 p q) (Cert.Spec.rowDen (linB x0 x1 x2 x3 p))) Cert.Spec.zeroW := by
  rw [pay_eq, maximumf_apply, divf_apply, broadcast_apply, broadcastTo_a1_ab_apply, maximumf_apply, broadcast_apply, linV_apply]
  show max (Ideal.div _ (max (Ideal.sqrt (shapeCast S5000x1 _ shapeCasts_S5000_S5000x1 (ix2 p (0 : Fin 1)))) _)) _ = _
  rw [shapeCast_a_a1_apply, rowsum_apply]
  unfold Cert.Spec.rowDen
  simp only [mulf_apply, linV_apply]
  rfl

/-! ## From the blocks to the array -/

variable (V : (c : Dev nD) → (b : Ref sig .tc) → Buf (Elt Ideal) ((c : Thread nD τ).loc b))

theorem zero_offsets₂ : (![0, 0] : Fin 2 → Nat) = fun _ => 0 := funext fun a => by fin_cases a <;> rfl
theorem zero_offsets₁ : (![0] : Fin 1 → Nat) = fun _ => 0 := funext fun a => by fin_cases a; rfl

/-- Where the five windows sit at grid point `t`: the summed rows, the counts and the result move down one block of rows per
    point; the weights and the bias stay whole. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- The node that row `p` of grid point `t`'s block belongs to. -/
def nodeOf (t : Fin cfg1.N) (p : Fin 5000) : Fin 100000 :=
  ⟨5000 * t.val + p.val, by have := t.isLt; have hN : cfg1.N = 20 := N_1; have := p.isLt; omega⟩

/-- Row `p` of the summed rows' block at point `t` is node `5000 t + p`'s summed row. -/
theorem rows_block_apply (c : Dev nD) (t : Fin cfg1.N) (p : Fin 5000) (k : Fin 144) :
    (iblk1 V c 0 t : Vec Ideal S5000x144 .f32) (ix2 p k) = (V c main_v13 : S100000x144.Idx → EReal) (ix2 (nodeOf t p) k) := by
  obtain ⟨e0, e1, -⟩ := block_indices t
  unfold iblk1
  rw [View.read_apply]
  show V c main_v13 _ = V c main_v13 _
  refine congrArg _ (funext fun a => Fin.ext ?_)
  match a with
  | ⟨0, _⟩ => show win1_0.index t (0 : Fin 2) * 5000 + 1 * p.val = 5000 * t.val + p.val; omega
  | ⟨1, _⟩ => show win1_0.index t (1 : Fin 2) * 144 + 1 * k.val = k.val; omega

/-- Row `p` of the counts' block at point `t` is node `5000 t + p`'s count. -/
theorem counts_block_apply (c : Dev nD) (t : Fin cfg1.N) (p : Fin 5000) :
    (iblk1 V c 1 t : Vec Ideal S5000x1 .f32) (ix2 p (0 : Fin 1)) = (V c main_v8 : S100000x1.Idx → EReal) (ix2 (nodeOf t p) (0 : Fin 1)) := by
  obtain ⟨-, -, e0, e1, -⟩ := block_indices t
  unfold iblk1
  rw [View.read_apply]
  show V c main_v8 _ = V c main_v8 _
  refine congrArg _ (funext fun a => Fin.ext ?_)
  match a with
  | ⟨0, _⟩ => show win1_1.index t (0 : Fin 2) * 5000 + 1 * p.val = 5000 * t.val + p.val; omega
  | ⟨1, _⟩ => show win1_1.index t (1 : Fin 2) * 1 + 1 * 0 = 0; omega

/-- The weights' block is the whole weight matrix at every point. -/
theorem weights_block_eq (c : Dev nD) (t : Fin cfg1.N) : (iblk1 V c 2 t : Vec Ideal S144x128 .f32) = V c main_arg3 := by
  obtain ⟨-, -, -, -, e0, e1, -⟩ := block_indices t
  funext y
  unfold iblk1
  rw [View.read_apply]
  show V c main_arg3 _ = V c main_arg3 y
  refine congrArg _ (funext fun a => Fin.ext ?_)
  match a with
  | ⟨0, _⟩ => show win1_2.index t (0 : Fin 2) * 144 + 1 * (y 0).val = (y 0).val; omega
  | ⟨1, _⟩ => show win1_2.index t (1 : Fin 2) * 128 + 1 * (y 1).val = (y 1).val; omega

/-- The bias's block is the whole bias at every point. -/
theorem bias_block_eq (c : Dev nD) (t : Fin cfg1.N) : (iblk1 V c 3 t : Vec Ideal S128 .f32) = V c main_arg4 := by
  obtain ⟨-, -, -, -, -, -, e0, -⟩ := block_indices t
  funext y
  unfold iblk1
  rw [View.read_apply]
  show V c main_arg4 _ = V c main_arg4 y
  refine congrArg _ (funext fun a => Fin.ext ?_)
  match a with
  | ⟨0, _⟩ => show win1_3.index t (0 : Fin 1) * 128 + 1 * (y 0).val = (y 0).val; omega

/-- A stored block whose input rows are the arrays' rows of the nodes `n p`, at `(p, q)`: the node stage of the arrays at `(n p, q)`. -/
theorem stored_apply (a0 : S100000x144.Idx → EReal) (a1 : S100000x1.Idx → EReal) (a2 : S144x128.Idx → EReal) (a3 : S128.Idx → EReal)
    (x0 : Vec Ideal S5000x144 .f32) (x1 : Vec Ideal S5000x1 .f32) (n : Fin 5000 → Fin 100000)
    (h0 : ∀ p k, x0 (ix2 p k) = a0 (ix2 (n p) k)) (h1 : ∀ p, x1 (ix2 p (0 : Fin 1)) = a1 (ix2 (n p) (0 : Fin 1)))
    (p : Fin 5000) (q : Fin 128) :
    k1_pay1 (F := Ideal) x0 x1 a2 a3 (ix2 p q) = Cert.Spec.alnRelu a0 (fun m => a1 (ix2 m (0 : Fin 1))) a2 a3 (ix2 (n p) q) := by
  rw [pay_apply]
  have hlin : linB x0 x1 a2 a3 p = Cert.Spec.linAt a0 (fun m => a1 (ix2 m (0 : Fin 1))) a2 a3 (n p) := by
    funext j
    unfold linB Cert.Spec.linAt aggB Cert.Spec.aggAt
    simp only [h0, h1]
  rw [hlin]
  rfl

/-- The same for the whole stored block, as a function of the block's index. -/
theorem stored_eq (a0 : S100000x144.Idx → EReal) (a1 : S100000x1.Idx → EReal) (a2 : S144x128.Idx → EReal) (a3 : S128.Idx → EReal)
    (x0 : Vec Ideal S5000x144 .f32) (x1 : Vec Ideal S5000x1 .f32) (n : Fin 5000 → Fin 100000)
    (h0 : ∀ p k, x0 (ix2 p k) = a0 (ix2 (n p) k)) (h1 : ∀ p, x1 (ix2 p (0 : Fin 1)) = a1 (ix2 (n p) (0 : Fin 1))) :
    (k1_pay1 (F := Ideal) x0 x1 a2 a3 : S5000x128.Idx → EReal)
      = fun j => Cert.Spec.alnRelu a0 (fun m => a1 (ix2 m (0 : Fin 1))) a2 a3 (ix2 (n ⟨(j 0).val, idx2_lt0 j⟩) (⟨(j 1).val, idx2_lt1 j⟩ : Fin 128)) := by
  funext j
  obtain ⟨p, q, rfl⟩ : ∃ (p : Fin 5000) (q : Fin 128), j = ix2 p q := ⟨j 0, j 1, eq_ix2 j⟩
  exact stored_apply a0 a1 a2 a3 x0 x1 n h0 h1 p q

/-- WHAT POINT `t` WRITES BACK is block `t` of the node stage of the arrays as the region finds them. -/
theorem flushed_eq (c : Dev nD) (t : Fin cfg1.N) :
    (dat1 (F := Ideal) V c).flushed 4 t
      = ((cfg1.win 4).blk t).view.read (Elt Ideal)
          (Cert.Spec.alnRelu (V c main_v13) (fun n => V c main_v8 (ix2 n (0 : Fin 1))) (V c main_arg3) (V c main_arg4)) := by
  show (cfg1.win 4).cut (grid1.coords t) ((dat1 V c).after 4 t) = _
  rw [after1_4]
  unfold out1_4
  rw [View.canon_unit_zero zero_offsets₂]
  simp only [View.ld_unit_zero (S := S5000x144) zero_offsets₂, View.ld_unit_zero (S := S5000x1) zero_offsets₂,
    View.ld_unit_zero (S := S144x128) zero_offsets₂, View.ld_unit_zero (S := S128) zero_offsets₁]
  rw [weights_block_eq, bias_block_eq,
    stored_eq (V c main_v13) (V c main_v8) (V c main_arg3) (V c main_arg4) (iblk1 V c 0 t) (iblk1 V c 1 t) (nodeOf t)
      (rows_block_apply V c t) (counts_block_apply V c t)]
  obtain ⟨-, -, -, -, -, -, -, e0, e1⟩ := block_indices t
  funext j
  rw [View.read_apply]
  show Cert.Spec.alnRelu _ _ _ _ (ix2 (nodeOf t ⟨(j 0).val, _⟩) (⟨(j 1).val, _⟩ : Fin 128)) = Cert.Spec.alnRelu _ _ _ _ (((cfg1.win 4).blk t).view.emb j)
  refine congrArg _ (funext fun a => Fin.ext ?_)
  match a with
  | ⟨0, _⟩ => show 5000 * t.val + (j 0).val = win1_4.index t (0 : Fin 2) * 5000 + 1 * (j 0).val; omega
  | ⟨1, _⟩ => show (j 1).val = win1_4.index t (1 : Fin 2) * 128 + 1 * (j 1).val; omega

/-- A node's row lies in point `t`'s block iff each coordinate is in the block's range on its axis. -/
theorem mem_block (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v14).slice (win1_4.rect t)).set ↔ _
  rw [View.set_slice_whole, Rect.mem_set_unit]
  exact Iff.rfl

/-- Every entry of the result is written: node `r`'s row by the point `r / 5000`. -/
theorem covered (i : S100000x128.Idx) : ∃ t : Fin cfg1.N, (cfg1.win 4).flush t = true ∧ i ∈ ((cfg1.win 4).blk t).view.set := by
  have hN : cfg1.N = 20 := N_1
  have hi0 : (i 0).val < 100000 := (i 0).isLt
  have hi1 : (i 1).val < 128 := (i 1).isLt
  have ht : (i 0).val / 5000 < cfg1.N := by rw [hN]; omega
  obtain ⟨-, -, -, -, -, -, -, e0, e1⟩ := block_indices ⟨(i 0).val / 5000, ht⟩
  refine ⟨⟨(i 0).val / 5000, ht⟩, flush1_4 _, ?_⟩
  rw [mem_block]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val ∧ (i 1).val < win1_4.index ⟨(i 0).val / 5000, ht⟩ (1 : Fin 2) * 128 + 128
    rw [e1]; omega

/-- The node stage's output array after its last grid point: every node's summed row divided by its floored count, mapped
    through the weights and the bias, normalised, then the activation. -/
theorem final (c : Dev nD) :
    (dat1 (F := Ideal) V c).arrAt 4 cfg1.N
      = Cert.Spec.alnRelu (V c main_v13) (fun n => V c main_v8 (ix2 n (0 : Fin 1))) (V c main_arg3) (V c main_arg4) :=
  (dat1 (F := Ideal) V c).arrAt_eq_of_cover 4 _ (fun t _ => flushed_eq V c t) covered

end Cert.KernelIdeal.Aln1

end
-- ==== Proof.KAln3.lean ====
/-
  The second layer's node stage, block by block.

  Each of the twenty grid points takes 5000 consecutive node rows: it divides each summed row (144 entries) by its count floored
  at one, multiplies by the 144 x 4 weight matrix, adds the bias, divides the four results by their Euclidean norm floored at
  the small constant, and applies the logistic function. Row r of point t's block is node 5000 t + r, the weights and the bias
  are read whole at every point, and the twenty blocks tile the 100000 x 4 output; so after the last point the output array is
  the specification's node stage of the arrays the region started from.

  Order of the text: a column read at coordinates; the matrix product and the row sum as finite sums; one stored entry as the
  specification's expression; each input block as rows of its array; what a point writes back; the cover; the whole array.
-/
import proofs.«411764_j69793218560204_1_alg».proof.Proof.Gen.KernelIdeal.Frame
import proofs.«411764_j69793218560204_1_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open scoped BigOperators

namespace Cert.KernelIdeal.Aln3

open Idealize.ShloMosaic Idealize.ShloMosaic.TcCoe Idealize.ShloMosaic.ValueIdx Idealize.SL.Sem
open Cert.KernelIdeal Cert.KernelIdeal.Gen

/-! ## A column read at coordinates -/

section Column
variable {α : Type}

/-- A vector of length a cast to one column reads, at row i, the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column spread over b columns reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The matrix product read at coordinates -/

theorem lhs_axis0 (i : S5000x4.Idx) (q : dot_S5000x144_S144x4_S5000x4_1_0_0_1_n_n.contr.Idx) :
    (dot_S5000x144_S144x4_S5000x4_1_0_0_1_n_n.lhsIdx i q 0).val = (i 0).val := by
  unfold DotDims.lhsIdx
  rw [dif_neg (show ¬(0 : Fin S5000x144.rank) ∈ dot_S5000x144_S144x4_S5000x4_1_0_0_1_n_n.lhsBatch by decide), dif_pos (show (0 : Fin S5000x144.rank) ∈ dot_S5000x144_S144x4_S5000x4_1_0_0_1_n_n.lhsNonContracting by decide)]
  rfl
theorem lhs_axis1 (i : S5000x4.Idx) (q : dot_S5000x144_S144x4_S5000x4_1_0_0_1_n_n.contr.Idx) :
    (dot_S5000x144_S144x4_S5000x4_1_0_0_1_n_n.lhsIdx i q 1).val = (q ⟨0, by decide⟩).val :=
  dot_S5000x144_S144x4_S5000x4_1_0_0_1_n_n.lhsIdx_val_of_single rfl i q
theorem rhs_axis0 (i : S5000x4.Idx) (q : dot_S5000x144_S144x4_S5000x4_1_0_0_1_n_n.contr.Idx) :
    (dot_S5000x144_S144x4_S5000x4_1_0_0_1_n_n.rhsIdx i q 0).val = (q ⟨0, by decide⟩).val :=
  dot_S5000x144_S144x4_S5000x4_1_0_0_1_n_n.rhsIdx_val_of_single rfl i q
theorem rhs_axis1 (i : S5000x4.Idx) (q : dot_S5000x144_S144x4_S5000x4_1_0_0_1_n_n.contr.Idx) :
    (dot_S5000x144_S144x4_S5000x4_1_0_0_1_n_n.rhsIdx i q 1).val = (i 1).val := by
  unfold DotDims.rhsIdx
  rw [dif_neg (show ¬(1 : Fin S144x4.rank) ∈ dot_S5000x144_S144x4_S5000x4_1_0_0_1_n_n.rhsBatch by decide), dif_pos (show (1 : Fin S144x4.rank) ∈ dot_S5000x144_S144x4_S5000x4_1_0_0_1_n_n.rhsNonContracting by decide)]
  rfl

/-- Rows times columns: entry (p, j) of the product into a zero accumulator is the sum over the 144 shared coordinates. -/
theorem matmul_at (y : FVec Ideal S5000x144 .f32) (w : FVec Ideal S144x4 .f32) (p : Fin 5000) (j : Fin 4) :
    matmul (F := Ideal) dot_S5000x144_S144x4_S5000x4_1_0_0_1_n_n none y w (constant S5000x4 .f32 0x00000000#32) (ix2 p j)
      = ∑ k : Fin 144, y (ix2 p k) * w (ix2 k j) := by
  refine (Ideal.matmul_constant_zero_apply dot_S5000x144_S144x4_S5000x4_1_0_0_1_n_n none y w (ix2 p j)).trans ?_
  rw [← Equiv.sum_comp (ValueIdx.contrEquiv1 dot_S5000x144_S144x4_S5000x4_1_0_0_1_n_n 144 rfl rfl).symm]
  refine Finset.sum_congr rfl fun k _ => ?_
  have hk := ValueIdx.contrEquiv1_symm_val dot_S5000x144_S144x4_S5000x4_1_0_0_1_n_n 144 rfl rfl k
  have el : dot_S5000x144_S144x4_S5000x4_1_0_0_1_n_n.lhsIdx (ix2 p j) ((ValueIdx.contrEquiv1 dot_S5000x144_S144x4_S5000x4_1_0_0_1_n_n 144 rfl rfl).symm k) = ix2 p k := funext fun a => Fin.ext (by
    match a with
    | ⟨0, _⟩ => exact lhs_axis0 _ _
    | ⟨1, _⟩ => exact (lhs_axis1 _ _).trans hk)
  have er : dot_S5000x144_S144x4_S5000x4_1_0_0_1_n_n.rhsIdx (ix2 p j) ((ValueIdx.contrEquiv1 dot_S5000x144_S144x4_S5000x4_1_0_0_1_n_n 144 rfl rfl).symm k) = ix2 k j := funext fun a => Fin.ext (by
    match a with
    | ⟨0, _⟩ => exact (rhs_axis0 _ _).trans hk
    | ⟨1, _⟩ => exact rhs_axis1 _ _)
  rw [el, er]

/-- A row of four summed: the sum over the second axis, read at row p, is the sum of that row's four entries. -/
theorem rowsum_at (y : FVec Ideal S5000x4 .f32) (p : Fin 5000) :
    multiReduction (F := Ideal) .add [1] S5000 y 0x00000000#32 reduces_S5000x4_S5000 (.inl rfl) rfl (ix1 p) = ∑ k : Fin 4, y (ix2 p k) := by
  refine (Ideal.multiReduction_add_single y 0x00000000#32 reduces_S5000x4_S5000 (.inl rfl) rfl (ix1 p)).trans ?_
  show ∑ k : Fin 4, y (reduces_S5000x4_S5000.lift (ix1 p) k) = _
  refine Finset.sum_congr rfl fun k _ => congrArg y (funext fun c => Fin.ext ?_)
  match c with
  | ⟨0, _⟩ => rfl
  | ⟨1, _⟩ => rfl

/-! ## The body's arithmetic at one row -/

/-- The linear stage of the block: the rows divided by their floored counts, times the weights, plus the bias. -/
def linV (x0 : FVec Ideal S5000x144 .f32) (x1 : FVec Ideal S5000x1 .f32) (x2 : FVec Ideal S144x4 .f32) (x3 : FVec Ideal S4 .f32) : FVec Ideal S5000x4 .f32 :=
  addf (matmul dot_S5000x144_S144x4_S5000x4_1_0_0_1_n_n none
      (divf (shapeCast S5000x144 x0 shapeCasts_S5000x144_S5000x144)
        (broadcastTo S5000x144 (maximumf (shapeCast S5000x1 x1 shapeCasts_S5000x1_S5000x1) (broadcast S5000x1 (Scalar.ofBits .f32 0x3F800000#32))) broadcasts_S5000x1_S5000x144))
      x2 (constant S5000x4 .f32 0x00000000#32))
    (broadcastTo S5000x4 (shapeCast S1x4 x3 shapeCasts_S4_S1x4) broadcasts_S1x4_S5000x4)

/-- The stored block is the logistic function of the linear stage divided by its floored row norms. -/
theorem pay_eq (x0 : Vec Ideal S5000x144 .f32) (x1 : Vec Ideal S5000x1 .f32) (x2 : Vec Ideal S144x4 .f32) (x3 : Vec Ideal S4 .f32) :
    k3_pay1 (F := Ideal) x0 x1 x2 x3
      = logistic (divf (linV x0 x1 x2 x3)
          (broadcastTo S5000x4 (maximumf (sqrt (shapeCast S5000x1
              (multiReduction .add [1] S5000 (mulf (linV x0 x1 x2 x3) (linV x0 x1 x2 x3)) 0x00000000#32 reduces_S5000x4_S5000 (.inl rfl) rfl)
              shapeCasts_S5000_S5000x1))
            (broadcast S5000x1 (Scalar.ofBits .f32 0x2B8CBCCC#32))) broadcasts_S5000x1_S5000x4)) := rfl

/-- The linear stage at (p, j), when row p of the block is row n of the arrays. -/
theorem linV_at (x0 : Vec Ideal S5000x144 .f32) (x1 : Vec Ideal S5000x1 .f32) (x2 : Vec Ideal S144x4 .f32) (x3 : Vec Ideal S4 .f32)
    (s : Cert.Spec.A2 100000 144) (cnt : Fin 100000 → EReal) (W : Cert.Spec.A2 144 4) (b : Cert.Spec.A1 4)
    (p : Fin 5000) (n : Fin 100000)
    (h0 : ∀ k : Fin 144, x0 (ix2 p k) = s (ix2 n k)) (h1 : x1 (ix2 p (0 : Fin 1)) = cnt n)
    (h2 : ∀ (k : Fin 144) (j : Fin 4), x2 (ix2 k j) = W (ix2 k j)) (h3 : ∀ j : Fin 4, x3 (ix1 j) = b (ix1 j)) (j : Fin 4) :
    linV x0 x1 x2 x3 (ix2 p j) = Cert.Spec.linAt s cnt W b n j := by
  unfold linV Cert.Spec.linAt
  refine congrArg₂ (fun a b : EReal => a + b) ?_ ?_
  · refine (matmul_at _ _ p j).trans (Finset.sum_congr rfl fun k _ => ?_)
    refine congrArg₂ (fun a b : EReal => a * b) ?_ (h2 k j)
    unfold Cert.Spec.aggAt
    refine congrArg₂ Ideal.div ?_ ?_
    · rw [shapeCast_self]; exact h0 k
    · refine (broadcastTo_a1_ab_apply _ _ p k).trans ?_
      refine congrArg₂ max ?_ rfl
      rw [shapeCast_self]; exact h1
  · refine (broadcastTo_1b_ab_apply _ _ p j).trans ?_
    exact (shapeCast_a_1a_apply _ _ 0 j).trans (h3 j)

/-- Entry (p, q) of the stored block is the specification's normalised linear row of node n through the logistic function. -/
theorem pay_at (x0 : Vec Ideal S5000x144 .f32) (x1 : Vec Ideal S5000x1 .f32) (x2 : Vec Ideal S144x4 .f32) (x3 : Vec Ideal S4 .f32)
    (s : Cert.Spec.A2 100000 144) (cnt : Fin 100000 → EReal) (W : Cert.Spec.A2 144 4) (b : Cert.Spec.A1 4)
    (p : Fin 5000) (n : Fin 100000)
    (h0 : ∀ k : Fin 144, x0 (ix2 p k) = s (ix2 n k)) (h1 : x1 (ix2 p (0 : Fin 1)) = cnt n)
    (h2 : ∀ (k : Fin 144) (j : Fin 4), x2 (ix2 k j) = W (ix2 k j)) (h3 : ∀ j : Fin 4, x3 (ix1 j) = b (ix1 j)) (q : Fin 4) :
    k3_pay1 (F := Ideal) x0 x1 x2 x3 (ix2 p q) = Ideal.logistic (Cert.Spec.normAt s cnt W b n q) := by
  have hl := linV_at x0 x1 x2 x3 s cnt W b p n h0 h1 h2 h3
  rw [pay_eq]
  refine congrArg Ideal.logistic ?_
  unfold Cert.Spec.normAt Cert.Spec.rowDen
  refine congrArg₂ Ideal.div (hl q) ?_
  refine (broadcastTo_a1_ab_apply _ _ p q).trans ?_
  refine congrArg₂ max ?_ rfl
  refine congrArg Ideal.sqrt ?_
  refine (shapeCast_a_a1_apply _ _ p 0).trans ?_
  refine (rowsum_at _ p).trans (Finset.sum_congr rfl fun k _ => ?_)
  exact congrArg₂ (fun a b : EReal => a * b) (hl k) (hl k)

variable (V : (c : Dev nD) → (b : Ref sig .tc) → Buf (Elt Ideal) ((c : Thread nD τ).loc b))

/-! ## Each input block as rows of its array -/

/-- The zero offsets of a whole-block read, on two axes and on one. -/
theorem hz2 : (![0, 0] : Fin 2 → Nat) = fun _ => 0 := funext fun a => by fin_cases a <;> rfl
theorem hz1 : (![0] : Fin 1 → Nat) = fun _ => 0 := funext fun a => by fin_cases a; rfl

/-- Where each window's block sits at point t: the row windows at block t, the weights and the bias at block 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- The summed rows' block at point t is rows 5000 t … 5000 t + 4999 of the array. -/
theorem rows_at (c : Dev nD) (t : Fin cfg3.N) (p : Fin 5000) (k : Fin 144) (n : Fin 100000) (hn : n.val = 5000 * t.val + p.val) :
    (iblk3 V c 0 t : Vec Ideal S5000x144 .f32) (ix2 p k) = (V c main_v19 : Cert.Spec.A2 100000 144) (ix2 n k) := by
  obtain ⟨e0, e1, -⟩ := idx_facts t
  unfold iblk3
  rw [View.read_apply]
  show V c main_v19 _ = V c main_v19 _
  congr 1
  funext a
  apply Fin.ext
  match a with
  | ⟨0, _⟩ => show win3_0.index t (0 : Fin 2) * 5000 + 1 * p.val = n.val; rw [e0, hn]; omega
  | ⟨1, _⟩ => show win3_0.index t (1 : Fin 2) * 144 + 1 * k.val = k.val; rw [e1]; omega

/-- The counts' block at point t is the same rows of the counts' column. -/
theorem counts_at (c : Dev nD) (t : Fin cfg3.N) (p : Fin 5000) (n : Fin 100000) (hn : n.val = 5000 * t.val + p.val) :
    (iblk3 V c 1 t : Vec Ideal S5000x1 .f32) (ix2 p (0 : Fin 1)) = (V c main_v8 : Cert.Spec.A2 100000 1) (ix2 n (0 : Fin 1)) := by
  obtain ⟨-, -, e0, e1, -⟩ := idx_facts t
  unfold iblk3
  rw [View.read_apply]
  show V c main_v8 _ = V c main_v8 _
  congr 1
  funext a
  apply Fin.ext
  match a with
  | ⟨0, _⟩ => show win3_1.index t (0 : Fin 2) * 5000 + 1 * p.val = n.val; rw [e0, hn]; omega
  | ⟨1, _⟩ => show win3_1.index t (1 : Fin 2) * 1 + 1 * 0 = 0; rw [e1]

/-- The weights' block is the whole weight matrix at every point. -/
theorem weights_at (c : Dev nD) (t : Fin cfg3.N) (k : Fin 144) (j : Fin 4) :
    (iblk3 V c 2 t : Vec Ideal S144x4 .f32) (ix2 k j) = (V c main_arg5 : Cert.Spec.A2 144 4) (ix2 k j) := by
  obtain ⟨-, -, -, -, e0, e1, -⟩ := idx_facts t
  unfold iblk3
  rw [View.read_apply]
  show V c main_arg5 _ = V c main_arg5 _
  congr 1
  funext a
  apply Fin.ext
  match a with
  | ⟨0, _⟩ => show win3_2.index t (0 : Fin 2) * 144 + 1 * k.val = k.val; rw [e0]; omega
  | ⟨1, _⟩ => show win3_2.index t (1 : Fin 2) * 4 + 1 * j.val = j.val; rw [e1]; omega

/-- The bias's block is the whole bias at every point. -/
theorem bias_at (c : Dev nD) (t : Fin cfg3.N) (j : Fin 4) :
    (iblk3 V c 3 t : Vec Ideal S4 .f32) (ix1 j) = (V c main_arg6 : Cert.Spec.A1 4) (ix1 j) := by
  obtain ⟨-, -, -, -, -, -, e0, -⟩ := idx_facts t
  unfold iblk3
  rw [View.read_apply]
  show V c main_arg6 _ = V c main_arg6 _
  congr 1
  funext a
  apply Fin.ext
  match a with
  | ⟨0, _⟩ => show win3_3.index t (0 : Fin 1) * 4 + 1 * j.val = j.val; rw [e0]; omega

/-! ## From the blocks to the array -/

/-- What point t writes back: rows 5000 t … 5000 t + 4999 of the specification's node stage. -/
theorem flushed_eq (c : Dev nD) (t : Fin cfg3.N) :
    (dat3 (F := Ideal) V c).flushed 4 t
      = ((cfg3.win 4).blk t).view.read (Elt Ideal)
          (Cert.Spec.alnSig (V c main_v19) (fun n => V c main_v8 (ix2 n (0 : Fin 1))) (V c main_arg5) (V c main_arg6)) := by
  show (cfg3.win 4).cut (grid3.coords t) ((dat3 V c).after 4 t) = _
  rw [after3_4]
  unfold out3_4
  rw [View.canon_unit_zero hz2]
  simp only [View.ld_unit_zero (S := S5000x144) hz2, View.ld_unit_zero (S := S5000x1) hz2, View.ld_unit_zero (S := S144x4) hz2,
    View.ld_unit_zero (S := S4) hz1]
  funext j
  obtain ⟨p, q, rfl⟩ : ∃ (p : Fin 5000) (q : Fin 4), j = ix2 p q := ⟨j 0, j 1, eq_ix2 j⟩
  have ht : t.val < 20 := lt_of_lt_of_eq t.isLt N_3
  have hp : p.val < 5000 := p.isLt
  obtain ⟨-, -, -, -, -, -, -, e0, e1⟩ := idx_facts t
  have hemb : ((cfg3.win 4).blk t).view.emb (ix2 p q) = (ix2 (⟨5000 * t.val + p.val, by omega⟩ : Fin 100000) q : S100000x4.Idx) := by
    funext a
    apply Fin.ext
    match a with
    | ⟨0, _⟩ => show win3_4.index t (0 : Fin 2) * 5000 + 1 * p.val = 5000 * t.val + p.val; rw [e0]; omega
    | ⟨1, _⟩ => show win3_4.index t (1 : Fin 2) * 4 + 1 * q.val = q.val; rw [e1]; omega
  show k3_pay1 (F := Ideal) (iblk3 V c 0 t) (iblk3 V c 1 t) (iblk3 V c 2 t) (iblk3 V c 3 t) (ix2 p q)
    = Cert.Spec.alnSig (V c main_v19) (fun n => V c main_v8 (ix2 n (0 : Fin 1))) (V c main_arg5) (V c main_arg6) (((cfg3.win 4).blk t).view.emb (ix2 p q))
  rw [hemb]
  exact pay_at (iblk3 V c 0 t) (iblk3 V c 1 t) (iblk3 V c 2 t) (iblk3 V c 3 t)
    (V c main_v19) (fun n => V c main_v8 (ix2 n (0 : Fin 1))) (V c main_arg5) (V c main_arg6) p ⟨5000 * t.val + p.val, by omega⟩
    (fun k => rows_at V c t p k _ rfl) (counts_at V c t p _ rfl) (fun k j => weights_at V c t k j) (fun j => bias_at V c t j) q

/-- Membership in point t's block of the output, axis by axis: a coordinate is in it when it is at least the block's first
    index on that axis and less than that plus the block's extent. -/
theorem mem_blk (t : Fin cfg3.N) (i : S100000x4.Idx) :
    i ∈ ((cfg3.win 4).blk t).view.set ↔ ∀ a : Fin 2, win3_4.index t a * S5000x4.size a ≤ (i a).val ∧ (i a).val < win3_4.index t a * S5000x4.size a + S5000x4.size a := by
  show i ∈ ((View.whole main_v20).slice (win3_4.rect t)).set ↔ _
  rw [View.set_slice_whole, Rect.mem_set_unit]
  exact Iff.rfl

/-- Every node row lies in the block of the point its row number divided by 5000 names. -/
theorem covered (i : S100000x4.Idx) : ∃ t : Fin cfg3.N, (cfg3.win 4).flush t = true ∧ i ∈ ((cfg3.win 4).blk t).view.set := by
  have hi0 : (i 0).val < 100000 := (i 0).isLt
  have hi1 : (i 1).val < 4 := (i 1).isLt
  have hN : cfg3.N = 20 := N_3
  let t : Fin cfg3.N := ⟨(i 0).val / 5000, by rw [hN]; omega⟩
  obtain ⟨-, -, -, -, -, -, -, e0, e1⟩ := idx_facts t
  have e0' : win3_4.index t (0 : Fin 2) = (i 0).val / 5000 := e0
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 4 ≤ (i 1).val ∧ (i 1).val < win3_4.index t (1 : Fin 2) * 4 + 4; omega

/-- The node stage's output array after its last grid point: every node's summed row divided by its floored count, mapped
    through the weights and the bias, normalised, then the activation. -/
theorem final (c : Dev nD) :
    (dat3 (F := Ideal) V c).arrAt 4 cfg3.N
      = Cert.Spec.alnSig (V c main_v19) (fun n => V c main_v8 (ix2 n (0 : Fin 1))) (V c main_arg5) (V c main_arg6) :=
  (dat3 (F := Ideal) V c).arrAt_eq_of_cover 4
    (Cert.Spec.alnSig (V c main_v19) (fun n => V c main_v8 (ix2 n (0 : Fin 1))) (V c main_arg5) (V c main_arg6))
    (fun t _ => flushed_eq V c t) covered

end Cert.KernelIdeal.Aln3

end
-- ==== Proof.Take.lean ====
import proofs.«411764_j69793218560204_1_alg».proof.Proof.Gen.KernelIdeal
import Idealize.ShloMosaic.Lib.StableHlo.Predicate
import Idealize.ShloMosaic.Lib.ValueIdx
import Idealize.ShloMosaic.Lib.Pipeline.Value
import Idealize.ShloMosaic.PureOps.Reduce

noncomputable section

namespace Cert.KernelIdeal.Take

open Idealize.ShloMosaic Idealize.ShloMosaic.ValueIdx
open Cert.KernelIdeal Cert.KernelIdeal.Gen

variable {F : FTy → Type} [FloatOps F]

/-- The edge list's first row: the edges' source nodes. -/
def rowOf (a1 : IVec S2x1600000 32) : IVec S1600000 32 :=
  shapeCast S1600000 (extractStridedSlice S1x1600000 ![0, 0] a1 slices_S2x1600000_S1x1600000_0_0) shapeCasts_S1x1600000_S1600000

/-- The edge list's second row: the edges' destination nodes. -/
def colOf (a1 : IVec S2x1600000 32) : IVec S1600000 32 :=
  shapeCast S1600000 (extractStridedSlice S1x1600000 ![1, 0] a1 slices_S2x1600000_S1x1600000_1_0) shapeCasts_S1x1600000_S1600000

/-- The source nodes with negative entries wrapped by the node count, as a column of start indices. -/
def takeIdx (row : IVec S1600000 32) : IVec S1600000x1 32 :=
  broadcastInDim S1600000x1 ![0] bcast_S1600000_S1600000x1_0
    (select (cmpi .slt row (broadcastInDim S1600000 ![] bcast_S_S1600000 (constantI S_ 32 0#32)))
      (addi row (broadcastInDim S1600000 ![] bcast_S_S1600000 (constantI S_ 32 100000#32))) row)

/-- Which edges' wrapped source index lies in `[0, 99999]`. -/
def inBounds (row : IVec S1600000 32) : IVec S1600000 1 :=
  (fun x v => Host.reduce IntOp.andi x v reducesTo_S1600000x1_S1600000_d1 h_S_)
    (andi (cmpi .sge (takeIdx row) (broadcastInDim S1600000x1 ![] bcast_S_S1600000x1 (constantI S_ 32 0#32)))
      (cmpi .sle (takeIdx row) (broadcastInDim S1600000x1 ![0, 1] bcast_S1x1_S1600000x1_0_1
        (broadcastInDim S1x1 ![1] bcast_S1_S1x1_1 (constantI S1 32 99999#32)))))
    (constantI S_ 1 1#1)

/-- The plain row gather at the wrapped source indices. -/
def takePlain (y : FVec F S100000x128 .f32) (row : IVec S1600000 32) : FVec F S1600000x128 .f32 :=
  Host.gather gather_S100000x128_S1600000x1_S1600000x128_1_0_n_n_0_1_1128 y (takeIdx row)

/-- The kernel program's row gather: the plain gather where the wrapped index is in bounds, a fill pattern elsewhere. -/
def takeFill (y : FVec F S100000x128 .f32) (row : IVec S1600000 32) : FVec F S1600000x128 .f32 :=
  select (broadcastInDim S1600000x128 ![0] bcast_S1600000_S1600000x128_0 (inBounds row))
    (takePlain y row)
    (broadcastInDim S1600000x128 ![] bcast_S_S1600000x128 (constant S_ .f32 0x7FC00000#32))

/-- An `and`-fold over one-bit words that starts at 1 and meets only 1s ends at 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a (List.mem_cons_self ..)]; decide
    rw [List.foldl_cons, e]
    exact foldl_andi_one f l (fun n hn => h n (List.mem_cons_of_mem _ hn))

/-- An `and`-reduction from 1 of an array that is 1 everywhere is 1 at every result index. -/
theorem reduce_andi_of_all_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ (fun n _ => hx n)

/-- A word below 100000 is not negative when read signed. -/
theorem not_neg_of_lt (w : BitVec 32) (hw : w.toNat < 100000) : IntOp.cmpi .slt w 0#32 = 0#1 := by
  apply eq_zero_of_ne_one
  intro h
  have := (StableHlo.Predicate.slt_iff_toNat (a := w) (b := 0#32) (by omega) (by decide)).1 h
  simp at this

/-- A word below 100000 lies in `[0, 99999]` when read signed. -/
theorem in_range_of_lt (w : BitVec 32) (hw : w.toNat < 100000) :
    IntOp.andi (IntOp.cmpi .sge w 0#32) (IntOp.cmpi .sle w 99999#32) = 1#1 := by
  have h0 : IntOp.cmpi .sge w 0#32 = 1#1 :=
    (StableHlo.Predicate.sge_iff_toNat (a := w) (b := 0#32) (by omega) (by decide)).2 (by simp)
  have h1 : IntOp.cmpi .sle w 99999#32 = 1#1 :=
    (StableHlo.Predicate.sle_iff_toNat (a := w) (b := 99999#32) (by omega) (by decide)).2
      (by have : (99999#32).toNat = 99999 := by decide
          omega)
  rw [h0, h1]; decide

/-- Where every source node is a node, the wrap of negative entries changes nothing at edge `e`. -/
theorem wrap_apply (row : IVec S1600000 32) (hr : ∀ e : Fin 1600000, (row (ix1 e)).toNat < 100000) (e : Fin 1600000) :
    select (cmpi .slt row (broadcastInDim S1600000 ![] bcast_S_S1600000 (constantI S_ 32 0#32)))
      (addi row (broadcastInDim S1600000 ![] bcast_S_S1600000 (constantI S_ 32 100000#32))) row (ix1 e) = row (ix1 e) := by
  rw [select_apply]
  have hneg : cmpi .slt row (broadcastInDim S1600000 ![] bcast_S_S1600000 (constantI S_ 32 0#32)) (ix1 e) = 0#1 :=
    not_neg_of_lt (row (ix1 e)) (hr e)
  rw [hneg, select_zero]

/-- So the start index of the edge with first coordinate `i 0` is that edge's source node. -/
theorem takeIdx_apply (row : IVec S1600000 32) (hr : ∀ e : Fin 1600000, (row (ix1 e)).toNat < 100000) (i : S1600000x1.Idx) :
    takeIdx row i = row (ix1 (i 0)) := by
  unfold takeIdx
  exact (broadcastInDim_apply ![0] bcast_S1600000_S1600000x1_0 _ i (ix1 (i 0)) (fun a => match a with
    | ⟨0, _⟩ => by show (i 0).val = if (1600000 : Nat) = 1 then 0 else (i 0).val; rw [if_neg (by decide)])).trans
    (wrap_apply row hr (i 0))

/-- Where every source node is a node, every edge is in bounds. -/
theorem inBounds_one (row : IVec S1600000 32) (hr : ∀ e : Fin 1600000, (row (ix1 e)).toNat < 100000) (j : S1600000.Idx) :
    inBounds row j = 1#1 := by
  unfold inBounds
  refine reduce_andi_of_all_one _ _ _ _ rfl (fun i => ?_) j
  show IntOp.andi (IntOp.cmpi .sge (takeIdx row i) 0#32) (IntOp.cmpi .sle (takeIdx row i) 99999#32) = 1#1
  rw [takeIdx_apply row hr i]
  exact in_range_of_lt _ (hr (i 0))

/-- The first row of the edge list at edge `e` is that entry of the list. -/
theorem rowOf_apply (a1 : IVec S2x1600000 32) (e : Fin 1600000) : rowOf a1 (ix1 e) = a1 (ix2 (0 : Fin 2) e) := by
  unfold rowOf
  rw [shapeCast_apply _ shapeCasts_S1x1600000_S1600000 (ix1 e) (ix2 (0 : Fin 1) e)
    (by rewrite [Shape.rowMajor_val_two, Shape.rowMajor_val_one]; show 0 * 1600000 + e.val = e.val; omega)]
  exact extractStridedSlice_apply ![0, 0] a1 slices_S2x1600000_S1x1600000_0_0 (ix2 (0 : Fin 1) e) (ix2 (0 : Fin 2) e)
    (fun a => match a with
      | ⟨0, _⟩ => by show (0 : Nat) = 0 + 0; omega
      | ⟨1, _⟩ => by show e.val = 0 + e.val; omega)

/-- Where every source node is a node, no edge is out of bounds and the fill never shows. -/
theorem takeFill_eq (y : FVec F S100000x128 .f32) (row : IVec S1600000 32)
    (hr : ∀ e : Fin 1600000, (row (ix1 e)).toNat < 100000) : takeFill y row = takePlain y row := by
  funext i
  unfold takeFill
  rw [select_apply]
  have hb : broadcastInDim S1600000x128 ![0] bcast_S1600000_S1600000x128_0 (inBounds row) i = 1#1 :=
    (broadcastInDim_apply ![0] bcast_S1600000_S1600000x128_0 (inBounds row) i (ix1 (i 0)) (fun a => match a with
      | ⟨0, _⟩ => by show (i 0).val = if (1600000 : Nat) = 1 then 0 else (i 0).val; rw [if_neg (by decide)])).trans
      (inBounds_one row hr _)
  rw [hb, select_one]

end Cert.KernelIdeal.Take

end
-- ==== Proof.KValue.lean ====
/-
  The kernel program's result as the specification's two layers.

  The program's buffers are followed from the launch to the return, boundary by boundary: the host lines before the
  first stage cut the edge list into its two rows, count every node's incoming edges and gather the source nodes' rows;
  each edge stage leaves the normalised concatenated rows; each scatter sums them into the destination nodes; each node
  stage leaves the normalised linear rows through its activation. A buffer no line and no stage writes keeps its
  contents across a boundary. Where every source node is a node, the program's gather never shows its fill.
-/
import proofs.«411764_j69793218560204_1_alg».proof.Proof.Gen.KernelIdeal.Frame
import proofs.«411764_j69793218560204_1_alg».proof.Proof.KCn0
import proofs.«411764_j69793218560204_1_alg».proof.Proof.KCn2
import proofs.«411764_j69793218560204_1_alg».proof.Proof.KAln1
import proofs.«411764_j69793218560204_1_alg».proof.Proof.KAln3
import proofs.«411764_j69793218560204_1_alg».proof.Proof.Take
import proofs.«411764_j69793218560204_1_alg».proof.Proof.Spec
import Idealize.ShloMosaic.Lib.StableHlo.Run
import Idealize.ShloMosaic.Lib.StableHlo.Predicate

set_option maxRecDepth 16384

noncomputable section

namespace Cert.KernelIdeal.KV

open Idealize.ShloMosaic Idealize.ShloMosaic.TcCoe Idealize.ShloMosaic.ValueIdx Idealize.SL.Sem Idealize.ShloMosaic.StableHlo
open Cert.KernelIdeal Cert.KernelIdeal.Gen Cert.KernelIdeal.Take

/-- Edge rows summed into their destination nodes, from zero. -/
def scat (col : IVec S1600000 32) (u : FVec Ideal S1600000x144 .f32) : FVec Ideal S100000x144 .f32 :=
  Host.scatterAdd (F := Ideal) (φ := .f32) scatter_S100000x144_S1600000x1_S1600000x144_1_0_0_1
    (broadcastInDim S100000x144 ![] bcast_S_S100000x144 (constant S_ .f32 0x00000000#32))
    (broadcastInDim S1600000x1 ![0] bcast_S1600000_S1600000x1_0 col) u

/-- Every node's number of incoming edges: ones summed into the destination nodes, from zero. -/
def cntv (col : IVec S1600000 32) : FVec Ideal S100000 .f32 :=
  Host.scatterAdd (F := Ideal) (φ := .f32) scatter_S100000_S1600000x1_S1600000_n_0_0_1
    (broadcastInDim S100000 ![] bcast_S_S100000 (constant S_ .f32 0x00000000#32))
    (broadcastInDim S1600000x1 ![0] bcast_S1600000_S1600000x1_0 col)
    (broadcastInDim S1600000 ![] bcast_S_S1600000 (constant S_ .f32 0x3F800000#32))

/-! ## The host lines, from any contents -/

/-- Contents carried to a buffer's own type and back are the contents. -/
theorem ofBuf_toBuf {Val : EltTy → Type} {T : BufTy} (x : StableHlo.TRef sig T) (v : T.Contents Val) :
    x.ofBuf (x.toBuf v) = v := by
  obtain ⟨r, h, h2, h3⟩ := x
  subst h
  rfl

section Lines
variable (Wv : Valuation τ sig (Elt Ideal))

theorem lines0_row : StableHlo.after hostOps0 Wv (Proc.devRef .tc main_v1) = rowOf (Wv (Proc.devRef .tc main_arg1)) := by
  after_results; rfl
theorem lines0_col : StableHlo.after hostOps0 Wv (Proc.devRef .tc main_v3) = colOf (Wv (Proc.devRef .tc main_arg1)) := by
  after_results; rfl
theorem lines0_cnt : StableHlo.after hostOps0 Wv (Proc.devRef .tc main_v8)
    = broadcastInDim S100000x1 ![0] bcast_S100000_S100000x1_0 (cntv (colOf (Wv (Proc.devRef .tc main_arg1)))) := by
  after_results; rfl
set_option maxHeartbeats 4000000 in
theorem lines01_take : StableHlo.after hostOps0_1 Wv (Proc.devRef .tc main_v9)
    = takeFill (F := Ideal) (Wv (Proc.devRef .tc main_arg0)) (Wv (Proc.devRef .tc main_v1)) := by
  after_results
  simp only [ofBuf_toBuf]
  simp only [TRef.ofBuf, TRef.toBuf, cast_eq]
  rfl
theorem lines1_scat : StableHlo.after hostOps1 Wv (Proc.devRef .tc main_v13)
    = scat (Wv (Proc.devRef .tc main_v3)) (Wv (Proc.devRef .tc main_v10)) := by
  after_results; rfl
set_option maxHeartbeats 4000000 in
theorem lines2_take : StableHlo.after hostOps2 Wv (Proc.devRef .tc main_v15)
    = takeFill (F := Ideal) (Wv (Proc.devRef .tc main_v14)) (Wv (Proc.devRef .tc main_v1)) := by
  after_results
  simp only [ofBuf_toBuf]
  simp only [TRef.ofBuf, TRef.toBuf, cast_eq]
  rfl
theorem lines3_scat : StableHlo.after hostOps3 Wv (Proc.devRef .tc main_v19)
    = scat (Wv (Proc.devRef .tc main_v3)) (Wv (Proc.devRef .tc main_v16)) := by
  after_results; rfl

end Lines

/-! ## What each boundary keeps -/

/-- A buffer none of a stretch's lines writes keeps its contents across the stretch. -/
macro "host_keep" : tactic => `(tactic|
  exact StableHlo.after_of_forall_not_mem _ _ (List.forall_iff_forall_mem.mp (by
    simp only [hostOps0, hostOps0_1, hostOps1, hostOps2, hostOps3, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

section Boundaries
variable (m : (ℓ : Loc nD τ sig) → Buf (Elt Ideal) ℓ) (ρ : Dev nD → PrngReg) (c : Dev nD)

-- the edge list's first row, up to the second gather
theorem keep_v1 : W5 m ρ c (Proc.devRef .tc main_v1) = W1 m ρ c (Proc.devRef .tc main_v1) :=
  (W5_of_ne m ρ c main_v1 (by decide)).trans <|
  (show W4 m ρ c (Proc.devRef .tc main_v1) = W3 m ρ c (Proc.devRef .tc main_v1) by host_keep).trans <|
  (W3_of_ne m ρ c main_v1 (by decide)).trans <|
  (show W2 m ρ c (Proc.devRef .tc main_v1) = W1 m ρ c (Proc.devRef .tc main_v1) by host_keep)

-- the edge list's second row, up to each scatter
theorem keep_v3_3 : W3 m ρ c (Proc.devRef .tc main_v3) = W1 m ρ c (Proc.devRef .tc main_v3) :=
  (W3_of_ne m ρ c main_v3 (by decide)).trans <|
  (show W2 m ρ c (Proc.devRef .tc main_v3) = W1 m ρ c (Proc.devRef .tc main_v3) by host_keep)
theorem keep_v3_7 : W7 m ρ c (Proc.devRef .tc main_v3) = W1 m ρ c (Proc.devRef .tc main_v3) :=
  (W7_of_ne m ρ c main_v3 (by decide)).trans <|
  (show W6 m ρ c (Proc.devRef .tc main_v3) = W5 m ρ c (Proc.devRef .tc main_v3) by host_keep).trans <|
  (W5_of_ne m ρ c main_v3 (by decide)).trans <|
  (show W4 m ρ c (Proc.devRef .tc main_v3) = W3 m ρ c (Proc.devRef .tc main_v3) by host_keep).trans <|
  keep_v3_3 m ρ c

-- the counts, up to each node stage (the first node stage reads them through an input window)
theorem keep_v8_4 : W4 m ρ c (Proc.devRef .tc main_v8) = W1 m ρ c (Proc.devRef .tc main_v8) :=
  (show W4 m ρ c (Proc.devRef .tc main_v8) = W3 m ρ c (Proc.devRef .tc main_v8) by host_keep).trans <|
  (W3_of_ne m ρ c main_v8 (by decide)).trans <|
  (show W2 m ρ c (Proc.devRef .tc main_v8) = W1 m ρ c (Proc.devRef .tc main_v8) by host_keep)
theorem keep_v8_8 : W8 m ρ c (Proc.devRef .tc main_v8) = W1 m ρ c (Proc.devRef .tc main_v8) :=
  (show W8 m ρ c (Proc.devRef .tc main_v8) = W7 m ρ c (Proc.devRef .tc main_v8) by host_keep).trans <|
  (W7_of_ne m ρ c main_v8 (by decide)).trans <|
  (show W6 m ρ c (Proc.devRef .tc main_v8) = W5 m ρ c (Proc.devRef .tc main_v8) by host_keep).trans <|
  ((W5_arr m ρ c 1).trans (((dat1 (V4 m ρ) c).arrAt_in 1 rfl _).trans (A_eq1 (V4 m ρ) c 1))).trans <|
  keep_v8_4 m ρ c

-- the edge features, up to each edge stage (the first edge stage reads them through an input window)
theorem keep_arg2_2 : W2 m ρ c (Proc.devRef .tc main_arg2) = m ((c : Thread nD τ).loc main_arg2) :=
  (show W2 m ρ c (Proc.devRef .tc main_arg2) = W1 m ρ c (Proc.devRef .tc main_arg2) by host_keep).trans <|
  (show W1 m ρ c (Proc.devRef .tc main_arg2) = W0 m ρ c (Proc.devRef .tc main_arg2) by host_keep)
theorem keep_arg2_6 : W6 m ρ c (Proc.devRef .tc main_arg2) = m ((c : Thread nD τ).loc main_arg2) :=
  (show W6 m ρ c (Proc.devRef .tc main_arg2) = W5 m ρ c (Proc.devRef .tc main_arg2) by host_keep).trans <|
  (W5_of_ne m ρ c main_arg2 (by decide)).trans <|
  (show W4 m ρ c (Proc.devRef .tc main_arg2) = W3 m ρ c (Proc.devRef .tc main_arg2) by host_keep).trans <|
  ((W3_arr m ρ c 1).trans (((dat0 (V2 m ρ) c).arrAt_in 1 rfl _).trans (A_eq0 (V2 m ρ) c 1))).trans <|
  keep_arg2_2 m ρ c

-- the first layer's weights and bias, up to the first node stage
theorem keep_arg3_4 : W4 m ρ c (Proc.devRef .tc main_arg3) = m ((c : Thread nD τ).loc main_arg3) :=
  (show W4 m ρ c (Proc.devRef .tc main_arg3) = W3 m ρ c (Proc.devRef .tc main_arg3) by host_keep).trans <|
  (W3_of_ne m ρ c main_arg3 (by decide)).trans <|
  (show W2 m ρ c (Proc.devRef .tc main_arg3) = W1 m ρ c (Proc.devRef .tc main_arg3) by host_keep).trans <|
  (show W1 m ρ c (Proc.devRef .tc main_arg3) = W0 m ρ c (Proc.devRef .tc main_arg3) by host_keep)
theorem keep_arg4_4 : W4 m ρ c (Proc.devRef .tc main_arg4) = m ((c : Thread nD τ).loc main_arg4) :=
  (show W4 m ρ c (Proc.devRef .tc main_arg4) = W3 m ρ c (Proc.devRef .tc main_arg4) by host_keep).trans <|
  (W3_of_ne m ρ c main_arg4 (by decide)).trans <|
  (show W2 m ρ c (Proc.devRef .tc main_arg4) = W1 m ρ c (Proc.devRef .tc main_arg4) by host_keep).trans <|
  (show W1 m ρ c (Proc.devRef .tc main_arg4) = W0 m ρ c (Proc.devRef .tc main_arg4) by host_keep)

-- the second layer's weights and bias at the second node stage: it reads them through input windows, and they end as launched
theorem keep_arg5_8 : W8 m ρ c (Proc.devRef .tc main_arg5) = m ((c : Thread nD τ).loc main_arg5) :=
  ((W9_arr m ρ c 2).trans (((dat3 (V8 m ρ) c).arrAt_in 2 rfl _).trans (A_eq3 (V8 m ρ) c 2))).symm.trans (W9_main_arg5 m ρ c)
theorem keep_arg6_8 : W8 m ρ c (Proc.devRef .tc main_arg6) = m ((c : Thread nD τ).loc main_arg6) :=
  ((W9_arr m ρ c 3).trans (((dat3 (V8 m ρ) c).arrAt_in 3 rfl _).trans (A_eq3 (V8 m ρ) c 3))).symm.trans (W9_main_arg6 m ρ c)

-- the node features at the first gather
theorem keep_arg0_1 : W1 m ρ c (Proc.devRef .tc main_arg0) = m ((c : Thread nD τ).loc main_arg0) :=
  (show W1 m ρ c (Proc.devRef .tc main_arg0) = W0 m ρ c (Proc.devRef .tc main_arg0) by host_keep)

end Boundaries

/-! ## The result -/

/-- A vector kept as a column reads, at row `n`, the vector at `n`. -/
theorem col_read {α : Type} (v : S100000.Idx → α) (n : Fin 100000) :
    broadcastInDim S100000x1 ![0] bcast_S100000_S100000x1_0 v (ix2 n (0 : Fin 1)) = v (ix1 n) := by
  have h := StableHlo.Predicate.bcast_col1 (n := 100000) bcast_S100000_S100000x1_0 v n
  have e1 : (StableHlo.Predicate.ixP n : (⟨2, ![100000, 1]⟩ : Shape).Idx) = ix2 n (0 : Fin 1) := by
    funext a; match a with | ⟨0, _⟩ => rfl | ⟨1, _⟩ => rfl
  have e2 : (Shape.Idx.ofFin n : (⟨1, ![100000]⟩ : Shape).Idx) = ix1 n := by
    funext a; match a with | ⟨0, _⟩ => rfl
  rw [e1, e2] at h
  exact h

section Result
variable (m : (ℓ : Loc nD τ sig) → Buf (Elt Ideal) ℓ) (ρ : Dev nD → PrngReg) (c : Dev nD)

/-- The program's plain gather at the edge list's source nodes. -/
def takeK (a1 : IVec S2x1600000 32) : Cert.Spec.A2 100000 128 → Cert.Spec.A2 1600000 128 :=
  fun y => takePlain (F := Ideal) y (rowOf a1)
/-- The program's scatter at the edge list's destination nodes. -/
def scatK (a1 : IVec S2x1600000 32) : Cert.Spec.A2 1600000 144 → Cert.Spec.A2 100000 144 :=
  fun u => scat (colOf a1) u
/-- The program's counts. -/
def cntK (a1 : IVec S2x1600000 32) : Fin 100000 → EReal := fun n => cntv (colOf a1) (ix1 n)

/-- Where every source node is a node, the result buffer ends at the specification's two layers of the arguments. -/
theorem result (hrow : ∀ e : Fin 1600000, (rowOf (m ((c : Thread nD τ).loc main_arg1)) (ix1 e)).toNat < 100000) :
    W9 m ρ c (Proc.devRef .tc main_v20)
      = Cert.Spec.twoLayers (takeK (m ((c : Thread nD τ).loc main_arg1))) (scatK (m ((c : Thread nD τ).loc main_arg1)))
          (cntK (m ((c : Thread nD τ).loc main_arg1)))
          (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6)) := by
  -- the first stretch of host lines
  have e1 : W1 m ρ c (Proc.devRef .tc main_v1) = rowOf (m ((c : Thread nD τ).loc main_arg1)) := lines0_row (W0 m ρ c)
  have e3 : W1 m ρ c (Proc.devRef .tc main_v3) = colOf (m ((c : Thread nD τ).loc main_arg1)) := lines0_col (W0 m ρ c)
  have e8 : W1 m ρ c (Proc.devRef .tc main_v8)
      = broadcastInDim S100000x1 ![0] bcast_S100000_S100000x1_0 (cntv (colOf (m ((c : Thread nD τ).loc main_arg1)))) := lines0_cnt (W0 m ρ c)
  -- the first gather shows no fill
  have t1 : W2 m ρ c (Proc.devRef .tc main_v9)
      = takeK (m ((c : Thread nD τ).loc main_arg1)) (m ((c : Thread nD τ).loc main_arg0)) := by
    refine (lines01_take (W1 m ρ c)).trans ?_
    rw [keep_arg0_1 m ρ c, e1]
    exact takeFill_eq _ _ hrow
  -- the first edge stage
  have t2 : W3 m ρ c (Proc.devRef .tc main_v10)
      = Cert.Spec.cn (takeK (m ((c : Thread nD τ).loc main_arg1)) (m ((c : Thread nD τ).loc main_arg0))) (m ((c : Thread nD τ).loc main_arg2)) := by
    refine (W3_arr m ρ c 2).trans ((Cert.KernelIdeal.Cn0.final (V2 m ρ) c).trans ?_)
    show Cert.Spec.cn (W2 m ρ c (Proc.devRef .tc main_v9)) (W2 m ρ c (Proc.devRef .tc main_arg2)) = _
    rw [t1, keep_arg2_2 m ρ c]
  -- the first scatter
  have t3 : W4 m ρ c (Proc.devRef .tc main_v13)
      = scatK (m ((c : Thread nD τ).loc main_arg1)) (Cert.Spec.cn (takeK (m ((c : Thread nD τ).loc main_arg1)) (m ((c : Thread nD τ).loc main_arg0))) (m ((c : Thread nD τ).loc main_arg2))) := by
    refine (lines1_scat (W3 m ρ c)).trans ?_
    rw [keep_v3_3 m ρ c, e3, t2]
    rfl
  -- the first node stage
  have t4 : W5 m ρ c (Proc.devRef .tc main_v14)
      = Cert.Spec.alnRelu (scatK (m ((c : Thread nD τ).loc main_arg1)) (Cert.Spec.cn (takeK (m ((c : Thread nD τ).loc main_arg1)) (m ((c : Thread nD τ).loc main_arg0))) (m ((c : Thread nD τ).loc main_arg2))))
          (cntK (m ((c : Thread nD τ).loc main_arg1))) (m ((c : Thread nD τ).loc main_arg3)) (m ((c : Thread nD τ).loc main_arg4)) := by
    refine (W5_arr m ρ c 4).trans ((Cert.KernelIdeal.Aln1.final (V4 m ρ) c).trans ?_)
    show Cert.Spec.alnRelu (W4 m ρ c (Proc.devRef .tc main_v13)) (fun n => W4 m ρ c (Proc.devRef .tc main_v8) (ix2 n (0 : Fin 1)))
      (W4 m ρ c (Proc.devRef .tc main_arg3)) (W4 m ρ c (Proc.devRef .tc main_arg4)) = _
    rw [t3, keep_v8_4 m ρ c, e8, keep_arg3_4 m ρ c, keep_arg4_4 m ρ c]
    exact congrArg (fun f => Cert.Spec.alnRelu _ f _ _) (funext fun n => col_read _ n)
  -- the second gather shows no fill
  have t5 : W6 m ρ c (Proc.devRef .tc main_v15) = takeK (m ((c : Thread nD τ).loc main_arg1)) (W5 m ρ c (Proc.devRef .tc main_v14)) := by
    refine (lines2_take (W5 m ρ c)).trans ?_
    rw [keep_v1 m ρ c, e1]
    exact takeFill_eq _ _ hrow
  -- the second edge stage
  have t6 : W7 m ρ c (Proc.devRef .tc main_v16)
      = Cert.Spec.cn (takeK (m ((c : Thread nD τ).loc main_arg1)) (W5 m ρ c (Proc.devRef .tc main_v14))) (m ((c : Thread nD τ).loc main_arg2)) := by
    refine (W7_arr m ρ c 2).trans ((Cert.KernelIdeal.Cn2.final (V6 m ρ) c).trans ?_)
    show Cert.Spec.cn (W6 m ρ c (Proc.devRef .tc main_v15)) (W6 m ρ c (Proc.devRef .tc main_arg2)) = _
    rw [t5, keep_arg2_6 m ρ c]
  -- the second scatter
  have t7 : W8 m ρ c (Proc.devRef .tc main_v19)
      = scatK (m ((c : Thread nD τ).loc main_arg1)) (Cert.Spec.cn (takeK (m ((c : Thread nD τ).loc main_arg1)) (W5 m ρ c (Proc.devRef .tc main_v14))) (m ((c : Thread nD τ).loc main_arg2))) := by
    refine (lines3_scat (W7 m ρ c)).trans ?_
    rw [keep_v3_7 m ρ c, e3, t6]
    rfl
  -- the second node stage
  refine (W9_arr m ρ c 4).trans ((Cert.KernelIdeal.Aln3.final (V8 m ρ) c).trans ?_)
  show Cert.Spec.alnSig (W8 m ρ c (Proc.devRef .tc main_v19)) (fun n => W8 m ρ c (Proc.devRef .tc main_v8) (ix2 n (0 : Fin 1)))
    (W8 m ρ c (Proc.devRef .tc main_arg5)) (W8 m ρ c (Proc.devRef .tc main_arg6)) = _
  rw [t7, keep_v8_8 m ρ c, e8, keep_arg5_8 m ρ c, keep_arg6_8 m ρ c, t4]
  unfold Cert.Spec.twoLayers
  exact congrArg (fun f => Cert.Spec.alnSig _ f _ _) (funext fun n => col_read _ n)

end Result

end Cert.KernelIdeal.KV

end
-- ==== Proof.PreRange.lean ====
import proofs.«411764_j69793218560204_1_alg».proof.Pre_finite_inputs
import proofs.«411764_j69793218560204_1_alg».proof.Proof.Gen.Pre_finite_inputs
import Idealize.ShloMosaic.Lib.StableHlo.Predicate
import Idealize.ShloMosaic.Lib.ReduceAll
import Idealize.ShloMosaic.Lib.ValueIdx
import Idealize.ShloMosaic.Lib.Pipeline.Value
import Idealize.ShloMosaic.PureOps.Ideal

noncomputable section

namespace Cert.PreRange

open Idealize.ShloMosaic Idealize.ShloMosaic.ValueIdx
open Cert.Pre_finite_inputs Cert.Pre_finite_inputs.Facts

/-- Every edge's source node is a node: the edge list's first row, read as unsigned words, stays below the node count
    (so, read signed, it lies in `[0, 100000)`). -/
def RowOK (a1 : (⟨2, ![2, 1600000]⟩ : Shape).Idx → BitVec 32) : Prop :=
  ∀ e : Fin 1600000, (a1 (ix2 (0 : Fin 2) e)).toNat < 100000

/-- A signed word in `[0, n)`, with `n` below 2³¹, is below `n` when read unsigned: a word at or above 2³¹ reads
    negative, which the lower bound excludes, and below 2³¹ the two readings agree. -/
theorem toNat_lt_of_signed (w : BitVec 32) (n : Nat) (hn : n < 2 ^ 31)
    (h0 : IntOp.cmpi .sge w 0#32 = 1#1) (h1 : IntOp.cmpi .slt w (BitVec.ofNat 32 n) = 1#1) : w.toNat < n := by
  by_cases hw : w.toNat < 2 ^ 31
  · have hn' : (BitVec.ofNat 32 n).toNat < 2 ^ 31 := by rw [BitVec.toNat_ofNat]; omega
    have h := (StableHlo.Predicate.slt_iff_toNat hw hn').1 h1
    rw [BitVec.toNat_ofNat] at h; omega
  · exfalso
    unfold IntOp.cmpi at h0
    rw [StableHlo.Predicate.ofBool_eq_one_iff] at h0
    have h0' : (0#32).toInt ≤ w.toInt := by simpa [BitVec.sle] using h0
    have hneg : w.toInt < 0 := by rw [BitVec.toInt_eq_toNat_cond]; split <;> omega
    have hz : (0#32).toInt = 0 := by decide
    omega

/-- The rank-zero shape has one index. -/
instance : Subsingleton S_.Idx := ⟨fun a b => funext fun d => d.elim0⟩

/-- The first row of the edge list, cut out as a 1 × 1600000 slab and flattened, reads at edge `e` the list's
    entry (0, e): the slab starts at the origin, and flattening a one-row slab keeps the column. -/
theorem row_apply (a1 : IVec S2x1600000 32) (e : Fin 1600000) :
    shapeCast S1600000 (extractStridedSlice S1x1600000 ![0, 0] a1 slices_S2x1600000_S1x1600000_0_0)
        shapeCasts_S1x1600000_S1600000 (ix1 e) = a1 (ix2 (0 : Fin 2) e) := by
  rw [shapeCast_apply _ shapeCasts_S1x1600000_S1600000 (ix1 e) (ix2 (0 : Fin 1) e)
    (by rewrite [Shape.rowMajor_val_two, Shape.rowMajor_val_one]; show 0 * 1600000 + e.val = e.val; omega)]
  exact extractStridedSlice_apply ![0, 0] a1 slices_S2x1600000_S1x1600000_0_0 (ix2 (0 : Fin 1) e) (ix2 (0 : Fin 2) e)
    (fun a => match a with
      | ⟨0, _⟩ => by show (0 : Nat) = 0 + 0; omega
      | ⟨1, _⟩ => by show e.val = 0 + e.val; omega)

/-- The precondition's last conjunct says exactly that of the edge list. -/
theorem rowOK_of_pre (a0 : FVec Ideal S100000x128 .f32) (a1 : IVec S2x1600000 32) (a2 : FVec Ideal S1600000x16 .f32)
    (a3 : FVec Ideal S144x128 .f32) (a4 : FVec Ideal S128 .f32) (a5 : FVec Ideal S144x4 .f32) (a6 : FVec Ideal S4 .f32)
    (h : Cert.Pre_finite_inputs.fn (F := Ideal) a0 a1 a2 a3 a4 a5 a6 = (fun _ => 1#1)) : RowOK a1 := by
  intro e
  -- the precondition is a conjunction whose last conjunct is "for all edges, 0 ≤ row ∧ row < 100000"
  have h0 := congrFun h ValueIdx.ix0
  dsimp only [Cert.Pre_finite_inputs.fn, Cert.Pre_finite_inputs.fn_part1, Cert.Pre_finite_inputs.fn_part2] at h0
  have h1 := (IntOp.andi_eq_one.1 h0).2
  clear h0 h
  -- a conjunction over all edges that holds, holds at edge `e`
  have h2 := Host.reduce_andi_all _ _ _ _ _ h1 (ix1 e)
  clear h1
  -- at edge `e` both compares read the list's entry (0, e) against the constants 0 and 100000
  have h3 : IntOp.andi (IntOp.cmpi .sge (a1 (ix2 (0 : Fin 2) e)) 0#32)
      (IntOp.cmpi .slt (a1 (ix2 (0 : Fin 2) e)) 100000#32) = 1#1 := by
    rw [← row_apply a1 e]; exact h2
  obtain ⟨hge, hlt⟩ := IntOp.andi_eq_one.1 h3
  exact toNat_lt_of_signed _ 100000 (by decide) hge hlt

end Cert.PreRange

end
-- ==== Proof.RefRunSteps.lean ====
/- Tabulated: the reference program's 115 lines cut at lines 12, 24, 28, 39, 44, 54, 57, 65, 77, 81, 92, 97, 107 into 14 stretches, and for each stretch the values
   written before it that a later line still reads, with the seven arguments. Each lemma says: a stretch run from contents
   holding those values, each at its stage's value of the arguments, ends in contents holding the next cut's values likewise.
   A value the stretch writes is the stretch's lines composed, which is its stage one definition at a time; any other is kept. -/
import proofs.«411764_j69793218560204_1_alg».proof.Proof.RefOpsP
import proofs.«411764_j69793218560204_1_alg».proof.Proof.RefReadP
import Idealize.ShloMosaic.Lib.StableHlo.Run

set_option maxRecDepth 16384

noncomputable section

namespace Cert.ReferenceIdeal.RunStages

open Idealize.ShloMosaic Idealize.ShloMosaic.TcCoe Idealize.ShloMosaic.ValueIdx Idealize.SL.Sem Idealize.ShloMosaic.StableHlo
open Cert.ReferenceIdeal Cert.ReferenceIdeal.Gen Cert.ReferenceIdeal.ValueP Cert.ReferenceIdeal.ReadP

variable {F : FTy → Type} [FloatOps F]

/-- Lines 0–11 of the program. -/
def chunk1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)) ]

/-- Lines 12–23 of the program. -/
def chunk2 : List (HloOp τ sig (Elt F)) :=
  [ binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    binary main_v10 main_arg2 main_v11 ((fun a b => concatenate S1600000x144 1 [⟨S1600000x128, a⟩, ⟨S1600000x16, b⟩] concatenates_S1600000x128_S1600000x16_S1600000x144_d1) : (⟨S1600000x128, .f32⟩ : BufTy).Contents (Elt F) → (⟨S1600000x16, .f32⟩ : BufTy).Contents (Elt F) → (⟨S1600000x144, .f32⟩ : BufTy).Contents (Elt F)),
    binary main_v11 main_v11 main_v12 (mulf : (⟨S1600000x144, .f32⟩ : BufTy).Contents (Elt F) → (⟨S1600000x144, .f32⟩ : BufTy).Contents (Elt F) → (⟨S1600000x144, .f32⟩ : BufTy).Contents (Elt F)),
    nullary main_cst (constant S_ .f32 0x00000000#32),
    binary main_v12 main_cst main_v13 ((fun x v => Host.reduceAdd x v reducesTo_S1600000x144_S1600000_d1 h_S_) : (⟨S1600000x144, .f32⟩ : BufTy).Contents (Elt F) → (⟨S_, .f32⟩ : BufTy).Contents (Elt F) → (⟨S1600000, .f32⟩ : BufTy).Contents (Elt F)),
    unary main_v13 main_v14 (broadcastInDim S1600000x1 ![0] bcast_S1600000_S1600000x1_0 : (⟨S1600000, .f32⟩ : BufTy).Contents (Elt F) → (⟨S1600000x1, .f32⟩ : BufTy).Contents (Elt F)),
    unary main_v14 main_v15 (Host.sqrt : (⟨S1600000x1, .f32⟩ : BufTy).Contents (Elt F) → (⟨S1600000x1, .f32⟩ : BufTy).Contents (Elt F)),
    nullary main_cst_1 (constant S_ .f32 0x2B8CBCCC#32),
    unary main_cst_1 main_v16 (broadcastInDim S1600000x1 ![] bcast_S_S1600000x1 : (⟨S_, .f32⟩ : BufTy).Contents (Elt F) → (⟨S1600000x1, .f32⟩ : BufTy).Contents (Elt F)),
    binary main_v15 main_v16 main_v17 (maximumf : (⟨S1600000x1, .f32⟩ : BufTy).Contents (Elt F) → (⟨S1600000x1, .f32⟩ : BufTy).Contents (Elt F) → (⟨S1600000x1, .f32⟩ : BufTy).Contents (Elt F)),
    unary main_v17 main_v18 (broadcastInDim S1600000x144 ![0, 1] bcast_S1600000x1_S1600000x144_0_1 : (⟨S1600000x1, .f32⟩ : BufTy).Contents (Elt F) → (⟨S1600000x144, .f32⟩ : BufTy).Contents (Elt F)),
    binary main_v11 main_v18 main_v19 (Host.divf : (⟨S1600000x144, .f32⟩ : BufTy).Contents (Elt F) → (⟨S1600000x144, .f32⟩ : BufTy).Contents (Elt F) → (⟨S1600000x144, .f32⟩ : BufTy).Contents (Elt F)) ]

/-- Lines 24–27 of the program. -/
def chunk3 : List (HloOp τ sig (Elt F)) :=
  [ nullary main_cst_2 (constant S_ .f32 0x00000000#32),
    unary main_cst_2 main_v20 (broadcastInDim S100000x144 ![] bcast_S_S100000x144 : (⟨S_, .f32⟩ : BufTy).Contents (Elt F) → (⟨S100000x144, .f32⟩ : BufTy).Contents (Elt F)),
    unary main_v3 main_v21 (broadcastInDim S1600000x1 ![0] bcast_S1600000_S1600000x1_0 : (⟨S1600000, .i32⟩ : BufTy).Contents (Elt F) → (⟨S1600000x1, .i32⟩ : BufTy).Contents (Elt F)),
    ternary main_v20 main_v21 main_v19 main_v22 ((fun x i u => Host.scatterAdd scatter_S100000x144_S1600000x1_S1600000x144_1_0_0_1 x i u) : (⟨S100000x144, .f32⟩ : BufTy).Contents (Elt F) → (⟨S1600000x1, .i32⟩ : BufTy).Contents (Elt F) → (⟨S1600000x144, .f32⟩ : BufTy).Contents (Elt F) → (⟨S100000x144, .f32⟩ : BufTy).Contents (Elt F)) ]

/-- Lines 28–38 of the program. -/
def chunk4 : List (HloOp τ sig (Elt F)) :=
  [ nullary main_cst_3 (constant S_ .f32 0x3F800000#32),
    unary main_cst_3 main_v23 (broadcastInDim S1600000 ![] bcast_S_S1600000 : (⟨S_, .f32⟩ : BufTy).Contents (Elt F) → (⟨S1600000, .f32⟩ : BufTy).Contents (Elt F)),
    nullary main_cst_4 (constant S_ .f32 0x00000000#32),
    unary main_cst_4 main_v24 (broadcastInDim S100000 ![] bcast_S_S100000 : (⟨S_, .f32⟩ : BufTy).Contents (Elt F) → (⟨S100000, .f32⟩ : BufTy).Contents (Elt F)),
    unary main_v3 main_v25 (broadcastInDim S1600000x1 ![0] bcast_S1600000_S1600000x1_0 : (⟨S1600000, .i32⟩ : BufTy).Contents (Elt F) → (⟨S1600000x1, .i32⟩ : BufTy).Contents (Elt F)),
    ternary main_v24 main_v25 main_v23 main_v26 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_5 (constant S_ .f32 0x3F800000#32),
    unary main_cst_5 main_v27 (broadcastInDim S100000 ![] bcast_S_S100000 : (⟨S_, .f32⟩ : BufTy).Contents (Elt F) → (⟨S100000, .f32⟩ : BufTy).Contents (Elt F)),
    binary main_v26 main_v27 main_v28 (maximumf : (⟨S100000, .f32⟩ : BufTy).Contents (Elt F) → (⟨S100000, .f32⟩ : BufTy).Contents (Elt F) → (⟨S100000, .f32⟩ : BufTy).Contents (Elt F)),
    unary main_v28 main_v29 (broadcastInDim S100000x1 ![0] bcast_S100000_S100000x1_0 : (⟨S100000, .f32⟩ : BufTy).Contents (Elt F) → (⟨S100000x1, .f32⟩ : BufTy).Contents (Elt F)),
    unary main_v29 main_v30 (broadcastInDim S100000x144 ![0, 1] bcast_S100000x1_S100000x144_0_1 : (⟨S100000x1, .f32⟩ : BufTy).Contents (Elt F) → (⟨S100000x144, .f32⟩ : BufTy).Contents (Elt F)) ]

/-- Lines 39–43 of the program. -/
def chunk5 : List (HloOp τ sig (Elt F)) :=
  [ binary main_v22 main_v30 main_v31 (Host.divf : (⟨S100000x144, .f32⟩ : BufTy).Contents (Elt F) → (⟨S100000x144, .f32⟩ : BufTy).Contents (Elt F) → (⟨S100000x144, .f32⟩ : BufTy).Contents (Elt F)),
    binary main_v31 main_arg3 main_v32 ((fun l r => Host.dotGeneral dot_S100000x144_S144x128_S100000x128_1_0_0_1_n_n none l r) : (⟨S100000x144, .f32⟩ : BufTy).Contents (Elt F) → (⟨S144x128, .f32⟩ : BufTy).Contents (Elt F) → (⟨S100000x128, .f32⟩ : BufTy).Contents (Elt F)),
    unary main_arg4 main_v33 (broadcastInDim S1x128 ![1] bcast_S128_S1x128_1 : (⟨S128, .f32⟩ : BufTy).Contents (Elt F) → (⟨S1x128, .f32⟩ : BufTy).Contents (Elt F)),
    unary main_v33 main_v34 (broadcastInDim S100000x128 ![0, 1] bcast_S1x128_S100000x128_0_1 : (⟨S1x128, .f32⟩ : BufTy).Contents (Elt F) → (⟨S100000x128, .f32⟩ : BufTy).Contents (Elt F)),
    binary main_v32 main_v34 main_v35 (addf : (⟨S100000x128, .f32⟩ : BufTy).Contents (Elt F) → (⟨S100000x128, .f32⟩ : BufTy).Contents (Elt F) → (⟨S100000x128, .f32⟩ : BufTy).Contents (Elt F)) ]

/-- Lines 44–53 of the program. -/
def chunk6 : List (HloOp τ sig (Elt F)) :=
  [ binary main_v35 main_v35 main_v36 (mulf : (⟨S100000x128, .f32⟩ : BufTy).Contents (Elt F) → (⟨S100000x128, .f32⟩ : BufTy).Contents (Elt F) → (⟨S100000x128, .f32⟩ : BufTy).Contents (Elt F)),
    nullary main_cst_6 (constant S_ .f32 0x00000000#32),
    binary main_v36 main_cst_6 main_v37 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v37 main_v38 (broadcastInDim S100000x1 ![0] bcast_S100000_S100000x1_0 : (⟨S100000, .f32⟩ : BufTy).Contents (Elt F) → (⟨S100000x1, .f32⟩ : BufTy).Contents (Elt F)),
    unary main_v38 main_v39 (Host.sqrt : (⟨S100000x1, .f32⟩ : BufTy).Contents (Elt F) → (⟨S100000x1, .f32⟩ : BufTy).Contents (Elt F)),
    nullary main_cst_7 (constant S_ .f32 0x2B8CBCCC#32),
    unary main_cst_7 main_v40 (broadcastInDim S100000x1 ![] bcast_S_S100000x1 : (⟨S_, .f32⟩ : BufTy).Contents (Elt F) → (⟨S100000x1, .f32⟩ : BufTy).Contents (Elt F)),
    binary main_v39 main_v40 main_v41 (maximumf : (⟨S100000x1, .f32⟩ : BufTy).Contents (Elt F) → (⟨S100000x1, .f32⟩ : BufTy).Contents (Elt F) → (⟨S100000x1, .f32⟩ : BufTy).Contents (Elt F)),
    unary main_v41 main_v42 (broadcastInDim S100000x128 ![0, 1] bcast_S100000x1_S100000x128_0_1 : (⟨S100000x1, .f32⟩ : BufTy).Contents (Elt F) → (⟨S100000x128, .f32⟩ : BufTy).Contents (Elt F)),
    binary main_v35 main_v42 main_v43 (Host.divf : (⟨S100000x128, .f32⟩ : BufTy).Contents (Elt F) → (⟨S100000x128, .f32⟩ : BufTy).Contents (Elt F) → (⟨S100000x128, .f32⟩ : BufTy).Contents (Elt F)) ]

/-- Lines 54–56 of the program. -/
def chunk7 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v43) (TRef.of (T := ⟨S100000x128, .f32⟩) main_call0_v0) (TRef.of (T := ⟨S100000x128, .f32⟩) main_v44) maximumf ]

/-- Lines 57–64 of the program. -/
def chunk8 : List (HloOp τ sig (Elt F)) :=
  [ nullary main_c_8 (constantI S_ 32 0#32),
    unary main_c_8 main_v45 (broadcastInDim S1600000 ![] bcast_S_S1600000 : (⟨S_, .i32⟩ : BufTy).Contents (Elt F) → (⟨S1600000, .i32⟩ : BufTy).Contents (Elt F)),
    binary main_v1 main_v45 main_v46 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v47 (broadcastInDim S1600000 ![] bcast_S_S1600000 : (⟨S_, .i32⟩ : BufTy).Contents (Elt F) → (⟨S1600000, .i32⟩ : BufTy).Contents (Elt F)),
    binary main_v1 main_v47 main_v48 (addi : (⟨S1600000, .i32⟩ : BufTy).Contents (Elt F) → (⟨S1600000, .i32⟩ : BufTy).Contents (Elt F) → (⟨S1600000, .i32⟩ : BufTy).Contents (Elt F)),
    ternary main_v46 main_v48 main_v1 main_v49 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v49 main_v50 (broadcastInDim S1600000x1 ![0] bcast_S1600000_S1600000x1_0 : (⟨S1600000, .i32⟩ : BufTy).Contents (Elt F) → (⟨S1600000x1, .i32⟩ : BufTy).Contents (Elt F)) ]

/-- Lines 65–76 of the program. -/
def chunk9 : List (HloOp τ sig (Elt F)) :=
  [ binary main_v44 main_v50 main_v51 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    binary main_v51 main_arg2 main_v52 ((fun a b => concatenate S1600000x144 1 [⟨S1600000x128, a⟩, ⟨S1600000x16, b⟩] concatenates_S1600000x128_S1600000x16_S1600000x144_d1) : (⟨S1600000x128, .f32⟩ : BufTy).Contents (Elt F) → (⟨S1600000x16, .f32⟩ : BufTy).Contents (Elt F) → (⟨S1600000x144, .f32⟩ : BufTy).Contents (Elt F)),
    binary main_v52 main_v52 main_v53 (mulf : (⟨S1600000x144, .f32⟩ : BufTy).Contents (Elt F) → (⟨S1600000x144, .f32⟩ : BufTy).Contents (Elt F) → (⟨S1600000x144, .f32⟩ : BufTy).Contents (Elt F)),
    nullary main_cst_10 (constant S_ .f32 0x00000000#32),
    binary main_v53 main_cst_10 main_v54 ((fun x v => Host.reduceAdd x v reducesTo_S1600000x144_S1600000_d1 h_S_) : (⟨S1600000x144, .f32⟩ : BufTy).Contents (Elt F) → (⟨S_, .f32⟩ : BufTy).Contents (Elt F) → (⟨S1600000, .f32⟩ : BufTy).Contents (Elt F)),
    unary main_v54 main_v55 (broadcastInDim S1600000x1 ![0] bcast_S1600000_S1600000x1_0 : (⟨S1600000, .f32⟩ : BufTy).Contents (Elt F) → (⟨S1600000x1, .f32⟩ : BufTy).Contents (Elt F)),
    unary main_v55 main_v56 (Host.sqrt : (⟨S1600000x1, .f32⟩ : BufTy).Contents (Elt F) → (⟨S1600000x1, .f32⟩ : BufTy).Contents (Elt F)),
    nullary main_cst_11 (constant S_ .f32 0x2B8CBCCC#32),
    unary main_cst_11 main_v57 (broadcastInDim S1600000x1 ![] bcast_S_S1600000x1 : (⟨S_, .f32⟩ : BufTy).Contents (Elt F) → (⟨S1600000x1, .f32⟩ : BufTy).Contents (Elt F)),
    binary main_v56 main_v57 main_v58 (maximumf : (⟨S1600000x1, .f32⟩ : BufTy).Contents (Elt F) → (⟨S1600000x1, .f32⟩ : BufTy).Contents (Elt F) → (⟨S1600000x1, .f32⟩ : BufTy).Contents (Elt F)),
    unary main_v58 main_v59 (broadcastInDim S1600000x144 ![0, 1] bcast_S1600000x1_S1600000x144_0_1 : (⟨S1600000x1, .f32⟩ : BufTy).Contents (Elt F) → (⟨S1600000x144, .f32⟩ : BufTy).Contents (Elt F)),
    binary main_v52 main_v59 main_v60 (Host.divf : (⟨S1600000x144, .f32⟩ : BufTy).Contents (Elt F) → (⟨S1600000x144, .f32⟩ : BufTy).Contents (Elt F) → (⟨S1600000x144, .f32⟩ : BufTy).Contents (Elt F)) ]

/-- Lines 77–80 of the program. -/
def chunk10 : List (HloOp τ sig (Elt F)) :=
  [ nullary main_cst_12 (constant S_ .f32 0x00000000#32),
    unary main_cst_12 main_v61 (broadcastInDim S100000x144 ![] bcast_S_S100000x144 : (⟨S_, .f32⟩ : BufTy).Contents (Elt F) → (⟨S100000x144, .f32⟩ : BufTy).Contents (Elt F)),
    unary main_v3 main_v62 (broadcastInDim S1600000x1 ![0] bcast_S1600000_S1600000x1_0 : (⟨S1600000, .i32⟩ : BufTy).Contents (Elt F) → (⟨S1600000x1, .i32⟩ : BufTy).Contents (Elt F)),
    ternary main_v61 main_v62 main_v60 main_v63 ((fun x i u => Host.scatterAdd scatter_S100000x144_S1600000x1_S1600000x144_1_0_0_1 x i u) : (⟨S100000x144, .f32⟩ : BufTy).Contents (Elt F) → (⟨S1600000x1, .i32⟩ : BufTy).Contents (Elt F) → (⟨S1600000x144, .f32⟩ : BufTy).Contents (Elt F) → (⟨S100000x144, .f32⟩ : BufTy).Contents (Elt F)) ]

/-- Lines 81–91 of the program. -/
def chunk11 : List (HloOp τ sig (Elt F)) :=
  [ nullary main_cst_13 (constant S_ .f32 0x3F800000#32),
    unary main_cst_13 main_v64 (broadcastInDim S1600000 ![] bcast_S_S1600000 : (⟨S_, .f32⟩ : BufTy).Contents (Elt F) → (⟨S1600000, .f32⟩ : BufTy).Contents (Elt F)),
    nullary main_cst_14 (constant S_ .f32 0x00000000#32),
    unary main_cst_14 main_v65 (broadcastInDim S100000 ![] bcast_S_S100000 : (⟨S_, .f32⟩ : BufTy).Contents (Elt F) → (⟨S100000, .f32⟩ : BufTy).Contents (Elt F)),
    unary main_v3 main_v66 (broadcastInDim S1600000x1 ![0] bcast_S1600000_S1600000x1_0 : (⟨S1600000, .i32⟩ : BufTy).Contents (Elt F) → (⟨S1600000x1, .i32⟩ : BufTy).Contents (Elt F)),
    ternary main_v65 main_v66 main_v64 main_v67 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_15 (constant S_ .f32 0x3F800000#32),
    unary main_cst_15 main_v68 (broadcastInDim S100000 ![] bcast_S_S100000 : (⟨S_, .f32⟩ : BufTy).Contents (Elt F) → (⟨S100000, .f32⟩ : BufTy).Contents (Elt F)),
    binary main_v67 main_v68 main_v69 (maximumf : (⟨S100000, .f32⟩ : BufTy).Contents (Elt F) → (⟨S100000, .f32⟩ : BufTy).Contents (Elt F) → (⟨S100000, .f32⟩ : BufTy).Contents (Elt F)),
    unary main_v69 main_v70 (broadcastInDim S100000x1 ![0] bcast_S100000_S100000x1_0 : (⟨S100000, .f32⟩ : BufTy).Contents (Elt F) → (⟨S100000x1, .f32⟩ : BufTy).Contents (Elt F)),
    unary main_v70 main_v71 (broadcastInDim S100000x144 ![0, 1] bcast_S100000x1_S100000x144_0_1 : (⟨S100000x1, .f32⟩ : BufTy).Contents (Elt F) → (⟨S100000x144, .f32⟩ : BufTy).Contents (Elt F)) ]

/-- Lines 92–96 of the program. -/
def chunk12 : List (HloOp τ sig (Elt F)) :=
  [ binary main_v63 main_v71 main_v72 (Host.divf : (⟨S100000x144, .f32⟩ : BufTy).Contents (Elt F) → (⟨S100000x144, .f32⟩ : BufTy).Contents (Elt F) → (⟨S100000x144, .f32⟩ : BufTy).Contents (Elt F)),
    binary main_v72 main_arg5 main_v73 ((fun l r => Host.dotGeneral dot_S100000x144_S144x4_S100000x4_1_0_0_1_n_n none l r) : (⟨S100000x144, .f32⟩ : BufTy).Contents (Elt F) → (⟨S144x4, .f32⟩ : BufTy).Contents (Elt F) → (⟨S100000x4, .f32⟩ : BufTy).Contents (Elt F)),
    unary main_arg6 main_v74 (broadcastInDim S1x4 ![1] bcast_S4_S1x4_1 : (⟨S4, .f32⟩ : BufTy).Contents (Elt F) → (⟨S1x4, .f32⟩ : BufTy).Contents (Elt F)),
    unary main_v74 main_v75 (broadcastInDim S100000x4 ![0, 1] bcast_S1x4_S100000x4_0_1 : (⟨S1x4, .f32⟩ : BufTy).Contents (Elt F) → (⟨S100000x4, .f32⟩ : BufTy).Contents (Elt F)),
    binary main_v73 main_v75 main_v76 (addf : (⟨S100000x4, .f32⟩ : BufTy).Contents (Elt F) → (⟨S100000x4, .f32⟩ : BufTy).Contents (Elt F) → (⟨S100000x4, .f32⟩ : BufTy).Contents (Elt F)) ]

/-- Lines 97–106 of the program. -/
def chunk13 : List (HloOp τ sig (Elt F)) :=
  [ binary main_v76 main_v76 main_v77 (mulf : (⟨S100000x4, .f32⟩ : BufTy).Contents (Elt F) → (⟨S100000x4, .f32⟩ : BufTy).Contents (Elt F) → (⟨S100000x4, .f32⟩ : BufTy).Contents (Elt F)),
    nullary main_cst_16 (constant S_ .f32 0x00000000#32),
    binary main_v77 main_cst_16 main_v78 ((fun x v => Host.reduceAdd x v reducesTo_S100000x4_S100000_d1 h_S_) : (⟨S100000x4, .f32⟩ : BufTy).Contents (Elt F) → (⟨S_, .f32⟩ : BufTy).Contents (Elt F) → (⟨S100000, .f32⟩ : BufTy).Contents (Elt F)),
    unary main_v78 main_v79 (broadcastInDim S100000x1 ![0] bcast_S100000_S100000x1_0 : (⟨S100000, .f32⟩ : BufTy).Contents (Elt F) → (⟨S100000x1, .f32⟩ : BufTy).Contents (Elt F)),
    unary main_v79 main_v80 (Host.sqrt : (⟨S100000x1, .f32⟩ : BufTy).Contents (Elt F) → (⟨S100000x1, .f32⟩ : BufTy).Contents (Elt F)),
    nullary main_cst_17 (constant S_ .f32 0x2B8CBCCC#32),
    unary main_cst_17 main_v81 (broadcastInDim S100000x1 ![] bcast_S_S100000x1 : (⟨S_, .f32⟩ : BufTy).Contents (Elt F) → (⟨S100000x1, .f32⟩ : BufTy).Contents (Elt F)),
    binary main_v80 main_v81 main_v82 (maximumf : (⟨S100000x1, .f32⟩ : BufTy).Contents (Elt F) → (⟨S100000x1, .f32⟩ : BufTy).Contents (Elt F) → (⟨S100000x1, .f32⟩ : BufTy).Contents (Elt F)),
    unary main_v82 main_v83 (broadcastInDim S100000x4 ![0, 1] bcast_S100000x1_S100000x4_0_1 : (⟨S100000x1, .f32⟩ : BufTy).Contents (Elt F) → (⟨S100000x4, .f32⟩ : BufTy).Contents (Elt F)),
    binary main_v76 main_v83 main_v84 (Host.divf : (⟨S100000x4, .f32⟩ : BufTy).Contents (Elt F) → (⟨S100000x4, .f32⟩ : BufTy).Contents (Elt F) → (⟨S100000x4, .f32⟩ : BufTy).Contents (Elt F)) ]

/-- Lines 107–114 of the program. -/
def chunk14 : List (HloOp τ sig (Elt F)) :=
  [ unary main_v84 main_v85 (Host.negf : (⟨S100000x4, .f32⟩ : BufTy).Contents (Elt F) → (⟨S100000x4, .f32⟩ : BufTy).Contents (Elt F)),
    unary main_v85 main_v86 (Host.exp : (⟨S100000x4, .f32⟩ : BufTy).Contents (Elt F) → (⟨S100000x4, .f32⟩ : BufTy).Contents (Elt F)),
    nullary main_cst_18 (constant S_ .f32 0x3F800000#32),
    unary main_cst_18 main_v87 (broadcastInDim S100000x4 ![] bcast_S_S100000x4 : (⟨S_, .f32⟩ : BufTy).Contents (Elt F) → (⟨S100000x4, .f32⟩ : BufTy).Contents (Elt F)),
    binary main_v87 main_v86 main_v88 (addf : (⟨S100000x4, .f32⟩ : BufTy).Contents (Elt F) → (⟨S100000x4, .f32⟩ : BufTy).Contents (Elt F) → (⟨S100000x4, .f32⟩ : BufTy).Contents (Elt F)),
    nullary main_cst_19 (constant S_ .f32 0x3F800000#32),
    unary main_cst_19 main_v89 (broadcastInDim S100000x4 ![] bcast_S_S100000x4 : (⟨S_, .f32⟩ : BufTy).Contents (Elt F) → (⟨S100000x4, .f32⟩ : BufTy).Contents (Elt F)),
    binary main_v89 main_v88 main_v90 (Host.divf : (⟨S100000x4, .f32⟩ : BufTy).Contents (Elt F) → (⟨S100000x4, .f32⟩ : BufTy).Contents (Elt F) → (⟨S100000x4, .f32⟩ : BufTy).Contents (Elt F)) ]

/-- The program's lines are these stretches in a row. -/
theorem ops_split : (ops : List (HloOp τ sig (Elt F))) = chunk1 ++ (chunk2 ++ (chunk3 ++ (chunk4 ++ (chunk5 ++ (chunk6 ++ (chunk7 ++ (chunk8 ++ (chunk9 ++ (chunk10 ++ (chunk11 ++ (chunk12 ++ (chunk13 ++ (chunk14))))))))))))) := rfl

set_option maxHeartbeats 1000000 in
/-- Lines 0–11, run from contents that hold the arguments and every value still to be read at its stage's value of
    the arguments, leave such contents. -/
theorem step1 (W : Valuation τ sig (Elt F)) (x0 : (⟨S100000x128, .f32⟩ : BufTy).Contents (Elt F)) (x1 : (⟨S2x1600000, .i32⟩ : BufTy).Contents (Elt F)) (x2 : (⟨S1600000x16, .f32⟩ : BufTy).Contents (Elt F)) (x3 : (⟨S144x128, .f32⟩ : BufTy).Contents (Elt F)) (x4 : (⟨S128, .f32⟩ : BufTy).Contents (Elt F)) (x5 : (⟨S144x4, .f32⟩ : BufTy).Contents (Elt F)) (x6 : (⟨S4, .f32⟩ : BufTy).Contents (Elt F))
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6) :
    (after (chunk1 (F := F)) W (Proc.devRef .tc main_v9) = val_main_v9 (F := F) x1)
      ∧ (after (chunk1 (F := F)) W (Proc.devRef .tc main_v3) = val_main_v3 (F := F) x1)
      ∧ (after (chunk1 (F := F)) W (Proc.devRef .tc main_v1) = val_main_v1 (F := F) x1)
      ∧ (after (chunk1 (F := F)) W (Proc.devRef .tc main_arg0) = x0)
      ∧ (after (chunk1 (F := F)) W (Proc.devRef .tc main_arg1) = x1)
      ∧ (after (chunk1 (F := F)) W (Proc.devRef .tc main_arg2) = x2)
      ∧ (after (chunk1 (F := F)) W (Proc.devRef .tc main_arg3) = x3)
      ∧ (after (chunk1 (F := F)) W (Proc.devRef .tc main_arg4) = x4)
      ∧ (after (chunk1 (F := F)) W (Proc.devRef .tc main_arg5) = x5)
      ∧ (after (chunk1 (F := F)) W (Proc.devRef .tc main_arg6) = x6) := by
  unfold chunk1
  refine ⟨?_, ?_, ?_, ?_, ?_, ?_, ?_, ?_, ?_, ?_⟩
  · after_results; rw [h_main_arg1]; rfl
  · after_results; rw [h_main_arg1]; rfl
  · after_results; rw [h_main_arg1]; rfl
  · after_results; exact h_main_arg0
  · after_results; exact h_main_arg1
  · after_results; exact h_main_arg2
  · after_results; exact h_main_arg3
  · after_results; exact h_main_arg4
  · after_results; exact h_main_arg5
  · after_results; exact h_main_arg6

set_option maxHeartbeats 1000000 in
/-- Lines 12–23, run from contents that hold the arguments and every value still to be read at its stage's value of
    the arguments, leave such contents. -/
theorem step2 (W : Valuation τ sig (Elt F)) (x0 : (⟨S100000x128, .f32⟩ : BufTy).Contents (Elt F)) (x1 : (⟨S2x1600000, .i32⟩ : BufTy).Contents (Elt F)) (x2 : (⟨S1600000x16, .f32⟩ : BufTy).Contents (Elt F)) (x3 : (⟨S144x128, .f32⟩ : BufTy).Contents (Elt F)) (x4 : (⟨S128, .f32⟩ : BufTy).Contents (Elt F)) (x5 : (⟨S144x4, .f32⟩ : BufTy).Contents (Elt F)) (x6 : (⟨S4, .f32⟩ : BufTy).Contents (Elt F))
    (h_main_v9 : W (Proc.devRef .tc main_v9) = val_main_v9 (F := F) x1)
    (h_main_v3 : W (Proc.devRef .tc main_v3) = val_main_v3 (F := F) x1)
    (h_main_v1 : W (Proc.devRef .tc main_v1) = val_main_v1 (F := F) x1)
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6) :
    (after (chunk2 (F := F)) W (Proc.devRef .tc main_v3) = val_main_v3 (F := F) x1)
      ∧ (after (chunk2 (F := F)) W (Proc.devRef .tc main_v19) = val_main_v19 (F := F) x0 x1 x2)
      ∧ (after (chunk2 (F := F)) W (Proc.devRef .tc main_v1) = val_main_v1 (F := F) x1)
      ∧ (after (chunk2 (F := F)) W (Proc.devRef .tc main_arg0) = x0)
      ∧ (after (chunk2 (F := F)) W (Proc.devRef .tc main_arg1) = x1)
      ∧ (after (chunk2 (F := F)) W (Proc.devRef .tc main_arg2) = x2)
      ∧ (after (chunk2 (F := F)) W (Proc.devRef .tc main_arg3) = x3)
      ∧ (after (chunk2 (F := F)) W (Proc.devRef .tc main_arg4) = x4)
      ∧ (after (chunk2 (F := F)) W (Proc.devRef .tc main_arg5) = x5)
      ∧ (after (chunk2 (F := F)) W (Proc.devRef .tc main_arg6) = x6) := by
  unfold chunk2
  refine ⟨?_, ?_, ?_, ?_, ?_, ?_, ?_, ?_, ?_, ?_⟩
  · after_results; exact h_main_v3
  · after_results; rw [h_main_arg0, h_main_v9, h_main_arg2]; rfl
  · after_results; exact h_main_v1
  · after_results; exact h_main_arg0
  · after_results; exact h_main_arg1
  · after_results; exact h_main_arg2
  · after_results; exact h_main_arg3
  · after_results; exact h_main_arg4
  · after_results; exact h_main_arg5
  · after_results; exact h_main_arg6

set_option maxHeartbeats 1000000 in
/-- Lines 24–27, run from contents that hold the arguments and every value still to be read at its stage's value of
    the arguments, leave such contents. -/
theorem step3 (W : Valuation τ sig (Elt F)) (x0 : (⟨S100000x128, .f32⟩ : BufTy).Contents (Elt F)) (x1 : (⟨S2x1600000, .i32⟩ : BufTy).Contents (Elt F)) (x2 : (⟨S1600000x16, .f32⟩ : BufTy).Contents (Elt F)) (x3 : (⟨S144x128, .f32⟩ : BufTy).Contents (Elt F)) (x4 : (⟨S128, .f32⟩ : BufTy).Contents (Elt F)) (x5 : (⟨S144x4, .f32⟩ : BufTy).Contents (Elt F)) (x6 : (⟨S4, .f32⟩ : BufTy).Contents (Elt F))
    (h_main_v3 : W (Proc.devRef .tc main_v3) = val_main_v3 (F := F) x1)
    (h_main_v19 : W (Proc.devRef .tc main_v19) = val_main_v19 (F := F) x0 x1 x2)
    (h_main_v1 : W (Proc.devRef .tc main_v1) = val_main_v1 (F := F) x1)
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6) :
    (after (chunk3 (F := F)) W (Proc.devRef .tc main_v3) = val_main_v3 (F := F) x1)
      ∧ (after (chunk3 (F := F)) W (Proc.devRef .tc main_v22) = val_main_v22 (F := F) x0 x1 x2)
      ∧ (after (chunk3 (F := F)) W (Proc.devRef .tc main_v1) = val_main_v1 (F := F) x1)
      ∧ (after (chunk3 (F := F)) W (Proc.devRef .tc main_arg0) = x0)
      ∧ (after (chunk3 (F := F)) W (Proc.devRef .tc main_arg1) = x1)
      ∧ (after (chunk3 (F := F)) W (Proc.devRef .tc main_arg2) = x2)
      ∧ (after (chunk3 (F := F)) W (Proc.devRef .tc main_arg3) = x3)
      ∧ (after (chunk3 (F := F)) W (Proc.devRef .tc main_arg4) = x4)
      ∧ (after (chunk3 (F := F)) W (Proc.devRef .tc main_arg5) = x5)
      ∧ (after (chunk3 (F := F)) W (Proc.devRef .tc main_arg6) = x6) := by
  unfold chunk3
  refine ⟨?_, ?_, ?_, ?_, ?_, ?_, ?_, ?_, ?_, ?_⟩
  · after_results; exact h_main_v3
  · after_results; rw [h_main_v3, h_main_v19]; rfl
  · after_results; exact h_main_v1
  · after_results; exact h_main_arg0
  · after_results; exact h_main_arg1
  · after_results; exact h_main_arg2
  · after_results; exact h_main_arg3
  · after_results; exact h_main_arg4
  · after_results; exact h_main_arg5
  · after_results; exact h_main_arg6

set_option maxHeartbeats 1000000 in
/-- Lines 28–38, run from contents that hold the arguments and every value still to be read at its stage's value of
    the arguments, leave such contents. -/
theorem step4 (W : Valuation τ sig (Elt F)) (x0 : (⟨S100000x128, .f32⟩ : BufTy).Contents (Elt F)) (x1 : (⟨S2x1600000, .i32⟩ : BufTy).Contents (Elt F)) (x2 : (⟨S1600000x16, .f32⟩ : BufTy).Contents (Elt F)) (x3 : (⟨S144x128, .f32⟩ : BufTy).Contents (Elt F)) (x4 : (⟨S128, .f32⟩ : BufTy).Contents (Elt F)) (x5 : (⟨S144x4, .f32⟩ : BufTy).Contents (Elt F)) (x6 : (⟨S4, .f32⟩ : BufTy).Contents (Elt F))
    (h_main_v3 : W (Proc.devRef .tc main_v3) = val_main_v3 (F := F) x1)
    (h_main_v22 : W (Proc.devRef .tc main_v22) = val_main_v22 (F := F) x0 x1 x2)
    (h_main_v1 : W (Proc.devRef .tc main_v1) = val_main_v1 (F := F) x1)
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6) :
    (after (chunk4 (F := F)) W (Proc.devRef .tc main_v22) = val_main_v22 (F := F) x0 x1 x2)
      ∧ (after (chunk4 (F := F)) W (Proc.devRef .tc main_v30) = val_main_v30 (F := F) x1)
      ∧ (after (chunk4 (F := F)) W (Proc.devRef .tc main_v1) = val_main_v1 (F := F) x1)
      ∧ (after (chunk4 (F := F)) W (Proc.devRef .tc main_v3) = val_main_v3 (F := F) x1)
      ∧ (after (chunk4 (F := F)) W (Proc.devRef .tc main_arg0) = x0)
      ∧ (after (chunk4 (F := F)) W (Proc.devRef .tc main_arg1) = x1)
      ∧ (after (chunk4 (F := F)) W (Proc.devRef .tc main_arg2) = x2)
      ∧ (after (chunk4 (F := F)) W (Proc.devRef .tc main_arg3) = x3)
      ∧ (after (chunk4 (F := F)) W (Proc.devRef .tc main_arg4) = x4)
      ∧ (after (chunk4 (F := F)) W (Proc.devRef .tc main_arg5) = x5)
      ∧ (after (chunk4 (F := F)) W (Proc.devRef .tc main_arg6) = x6) := by
  unfold chunk4
  refine ⟨?_, ?_, ?_, ?_, ?_, ?_, ?_, ?_, ?_, ?_, ?_⟩
  · after_results; exact h_main_v22
  · after_results; rw [h_main_v3]; rfl
  · after_results; exact h_main_v1
  · after_results; exact h_main_v3
  · after_results; exact h_main_arg0
  · after_results; exact h_main_arg1
  · after_results; exact h_main_arg2
  · after_results; exact h_main_arg3
  · after_results; exact h_main_arg4
  · after_results; exact h_main_arg5
  · after_results; exact h_main_arg6

set_option maxHeartbeats 1000000 in
/-- Lines 39–43, run from contents that hold the arguments and every value still to be read at its stage's value of
    the arguments, leave such contents. -/
theorem step5 (W : Valuation τ sig (Elt F)) (x0 : (⟨S100000x128, .f32⟩ : BufTy).Contents (Elt F)) (x1 : (⟨S2x1600000, .i32⟩ : BufTy).Contents (Elt F)) (x2 : (⟨S1600000x16, .f32⟩ : BufTy).Contents (Elt F)) (x3 : (⟨S144x128, .f32⟩ : BufTy).Contents (Elt F)) (x4 : (⟨S128, .f32⟩ : BufTy).Contents (Elt F)) (x5 : (⟨S144x4, .f32⟩ : BufTy).Contents (Elt F)) (x6 : (⟨S4, .f32⟩ : BufTy).Contents (Elt F))
    (h_main_v22 : W (Proc.devRef .tc main_v22) = val_main_v22 (F := F) x0 x1 x2)
    (h_main_v30 : W (Proc.devRef .tc main_v30) = val_main_v30 (F := F) x1)
    (h_main_v1 : W (Proc.devRef .tc main_v1) = val_main_v1 (F := F) x1)
    (h_main_v3 : W (Proc.devRef .tc main_v3) = val_main_v3 (F := F) x1)
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6) :
    (after (chunk5 (F := F)) W (Proc.devRef .tc main_v35) = val_main_v35 (F := F) x0 x1 x2 x3 x4)
      ∧ (after (chunk5 (F := F)) W (Proc.devRef .tc main_v1) = val_main_v1 (F := F) x1)
      ∧ (after (chunk5 (F := F)) W (Proc.devRef .tc main_v3) = val_main_v3 (F := F) x1)
      ∧ (after (chunk5 (F := F)) W (Proc.devRef .tc main_arg0) = x0)
      ∧ (after (chunk5 (F := F)) W (Proc.devRef .tc main_arg1) = x1)
      ∧ (after (chunk5 (F := F)) W (Proc.devRef .tc main_arg2) = x2)
      ∧ (after (chunk5 (F := F)) W (Proc.devRef .tc main_arg3) = x3)
      ∧ (after (chunk5 (F := F)) W (Proc.devRef .tc main_arg4) = x4)
      ∧ (after (chunk5 (F := F)) W (Proc.devRef .tc main_arg5) = x5)
      ∧ (after (chunk5 (F := F)) W (Proc.devRef .tc main_arg6) = x6) := by
  unfold chunk5
  refine ⟨?_, ?_, ?_, ?_, ?_, ?_, ?_, ?_, ?_, ?_⟩
  · after_results; rw [h_main_v22, h_main_v30, h_main_arg3, h_main_arg4]; rfl
  · after_results; exact h_main_v1
  · after_results; exact h_main_v3
  · after_results; exact h_main_arg0
  · after_results; exact h_main_arg1
  · after_results; exact h_main_arg2
  · after_results; exact h_main_arg3
  · after_results; exact h_main_arg4
  · after_results; exact h_main_arg5
  · after_results; exact h_main_arg6

set_option maxHeartbeats 1000000 in
/-- Lines 44–53, run from contents that hold the arguments and every value still to be read at its stage's value of
    the arguments, leave such contents. -/
theorem step6 (W : Valuation τ sig (Elt F)) (x0 : (⟨S100000x128, .f32⟩ : BufTy).Contents (Elt F)) (x1 : (⟨S2x1600000, .i32⟩ : BufTy).Contents (Elt F)) (x2 : (⟨S1600000x16, .f32⟩ : BufTy).Contents (Elt F)) (x3 : (⟨S144x128, .f32⟩ : BufTy).Contents (Elt F)) (x4 : (⟨S128, .f32⟩ : BufTy).Contents (Elt F)) (x5 : (⟨S144x4, .f32⟩ : BufTy).Contents (Elt F)) (x6 : (⟨S4, .f32⟩ : BufTy).Contents (Elt F))
    (h_main_v35 : W (Proc.devRef .tc main_v35) = val_main_v35 (F := F) x0 x1 x2 x3 x4)
    (h_main_v1 : W (Proc.devRef .tc main_v1) = val_main_v1 (F := F) x1)
    (h_main_v3 : W (Proc.devRef .tc main_v3) = val_main_v3 (F := F) x1)
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6) :
    (after (chunk6 (F := F)) W (Proc.devRef .tc main_v43) = val_main_v43 (F := F) x0 x1 x2 x3 x4)
      ∧ (after (chunk6 (F := F)) W (Proc.devRef .tc main_v1) = val_main_v1 (F := F) x1)
      ∧ (after (chunk6 (F := F)) W (Proc.devRef .tc main_v3) = val_main_v3 (F := F) x1)
      ∧ (after (chunk6 (F := F)) W (Proc.devRef .tc main_arg0) = x0)
      ∧ (after (chunk6 (F := F)) W (Proc.devRef .tc main_arg1) = x1)
      ∧ (after (chunk6 (F := F)) W (Proc.devRef .tc main_arg2) = x2)
      ∧ (after (chunk6 (F := F)) W (Proc.devRef .tc main_arg3) = x3)
      ∧ (after (chunk6 (F := F)) W (Proc.devRef .tc main_arg4) = x4)
      ∧ (after (chunk6 (F := F)) W (Proc.devRef .tc main_arg5) = x5)
      ∧ (after (chunk6 (F := F)) W (Proc.devRef .tc main_arg6) = x6) := by
  unfold chunk6
  refine ⟨?_, ?_, ?_, ?_, ?_, ?_, ?_, ?_, ?_, ?_⟩
  · after_results; rw [h_main_v35]; rfl
  · after_results; exact h_main_v1
  · after_results; exact h_main_v3
  · after_results; exact h_main_arg0
  · after_results; exact h_main_arg1
  · after_results; exact h_main_arg2
  · after_results; exact h_main_arg3
  · after_results; exact h_main_arg4
  · after_results; exact h_main_arg5
  · after_results; exact h_main_arg6

set_option maxHeartbeats 1000000 in
/-- Lines 54–56, run from contents that hold the arguments and every value still to be read at its stage's value of
    the arguments, leave such contents. -/
theorem step7 (W : Valuation τ sig (Elt F)) (x0 : (⟨S100000x128, .f32⟩ : BufTy).Contents (Elt F)) (x1 : (⟨S2x1600000, .i32⟩ : BufTy).Contents (Elt F)) (x2 : (⟨S1600000x16, .f32⟩ : BufTy).Contents (Elt F)) (x3 : (⟨S144x128, .f32⟩ : BufTy).Contents (Elt F)) (x4 : (⟨S128, .f32⟩ : BufTy).Contents (Elt F)) (x5 : (⟨S144x4, .f32⟩ : BufTy).Contents (Elt F)) (x6 : (⟨S4, .f32⟩ : BufTy).Contents (Elt F))
    (h_main_v43 : W (Proc.devRef .tc main_v43) = val_main_v43 (F := F) x0 x1 x2 x3 x4)
    (h_main_v1 : W (Proc.devRef .tc main_v1) = val_main_v1 (F := F) x1)
    (h_main_v3 : W (Proc.devRef .tc main_v3) = val_main_v3 (F := F) x1)
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6) :
    (after (chunk7 (F := F)) W (Proc.devRef .tc main_v1) = val_main_v1 (F := F) x1)
      ∧ (after (chunk7 (F := F)) W (Proc.devRef .tc main_v44) = val_main_v44 (F := F) x0 x1 x2 x3 x4)
      ∧ (after (chunk7 (F := F)) W (Proc.devRef .tc main_v3) = val_main_v3 (F := F) x1)
      ∧ (after (chunk7 (F := F)) W (Proc.devRef .tc main_arg0) = x0)
      ∧ (after (chunk7 (F := F)) W (Proc.devRef .tc main_arg1) = x1)
      ∧ (after (chunk7 (F := F)) W (Proc.devRef .tc main_arg2) = x2)
      ∧ (after (chunk7 (F := F)) W (Proc.devRef .tc main_arg3) = x3)
      ∧ (after (chunk7 (F := F)) W (Proc.devRef .tc main_arg4) = x4)
      ∧ (after (chunk7 (F := F)) W (Proc.devRef .tc main_arg5) = x5)
      ∧ (after (chunk7 (F := F)) W (Proc.devRef .tc main_arg6) = x6) := by
  unfold chunk7
  refine ⟨?_, ?_, ?_, ?_, ?_, ?_, ?_, ?_, ?_, ?_⟩
  · after_results; exact h_main_v1
  · after_results; rw [h_main_v43]; rfl
  · after_results; exact h_main_v3
  · after_results; exact h_main_arg0
  · after_results; exact h_main_arg1
  · after_results; exact h_main_arg2
  · after_results; exact h_main_arg3
  · after_results; exact h_main_arg4
  · after_results; exact h_main_arg5
  · after_results; exact h_main_arg6

set_option maxHeartbeats 1000000 in
/-- Lines 57–64, run from contents that hold the arguments and every value still to be read at its stage's value of
    the arguments, leave such contents. -/
theorem step8 (W : Valuation τ sig (Elt F)) (x0 : (⟨S100000x128, .f32⟩ : BufTy).Contents (Elt F)) (x1 : (⟨S2x1600000, .i32⟩ : BufTy).Contents (Elt F)) (x2 : (⟨S1600000x16, .f32⟩ : BufTy).Contents (Elt F)) (x3 : (⟨S144x128, .f32⟩ : BufTy).Contents (Elt F)) (x4 : (⟨S128, .f32⟩ : BufTy).Contents (Elt F)) (x5 : (⟨S144x4, .f32⟩ : BufTy).Contents (Elt F)) (x6 : (⟨S4, .f32⟩ : BufTy).Contents (Elt F))
    (h_main_v1 : W (Proc.devRef .tc main_v1) = val_main_v1 (F := F) x1)
    (h_main_v44 : W (Proc.devRef .tc main_v44) = val_main_v44 (F := F) x0 x1 x2 x3 x4)
    (h_main_v3 : W (Proc.devRef .tc main_v3) = val_main_v3 (F := F) x1)
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6) :
    (after (chunk8 (F := F)) W (Proc.devRef .tc main_v44) = val_main_v44 (F := F) x0 x1 x2 x3 x4)
      ∧ (after (chunk8 (F := F)) W (Proc.devRef .tc main_v50) = val_main_v50 (F := F) x1)
      ∧ (after (chunk8 (F := F)) W (Proc.devRef .tc main_v3) = val_main_v3 (F := F) x1)
      ∧ (after (chunk8 (F := F)) W (Proc.devRef .tc main_arg0) = x0)
      ∧ (after (chunk8 (F := F)) W (Proc.devRef .tc main_arg1) = x1)
      ∧ (after (chunk8 (F := F)) W (Proc.devRef .tc main_arg2) = x2)
      ∧ (after (chunk8 (F := F)) W (Proc.devRef .tc main_arg3) = x3)
      ∧ (after (chunk8 (F := F)) W (Proc.devRef .tc main_arg4) = x4)
      ∧ (after (chunk8 (F := F)) W (Proc.devRef .tc main_arg5) = x5)
      ∧ (after (chunk8 (F := F)) W (Proc.devRef .tc main_arg6) = x6) := by
  unfold chunk8
  refine ⟨?_, ?_, ?_, ?_, ?_, ?_, ?_, ?_, ?_, ?_⟩
  · after_results; exact h_main_v44
  · after_results; rw [h_main_v1]; rfl
  · after_results; exact h_main_v3
  · after_results; exact h_main_arg0
  · after_results; exact h_main_arg1
  · after_results; exact h_main_arg2
  · after_results; exact h_main_arg3
  · after_results; exact h_main_arg4
  · after_results; exact h_main_arg5
  · after_results; exact h_main_arg6

set_option maxHeartbeats 1000000 in
/-- Lines 65–76, run from contents that hold the arguments and every value still to be read at its stage's value of
    the arguments, leave such contents. -/
theorem step9 (W : Valuation τ sig (Elt F)) (x0 : (⟨S100000x128, .f32⟩ : BufTy).Contents (Elt F)) (x1 : (⟨S2x1600000, .i32⟩ : BufTy).Contents (Elt F)) (x2 : (⟨S1600000x16, .f32⟩ : BufTy).Contents (Elt F)) (x3 : (⟨S144x128, .f32⟩ : BufTy).Contents (Elt F)) (x4 : (⟨S128, .f32⟩ : BufTy).Contents (Elt F)) (x5 : (⟨S144x4, .f32⟩ : BufTy).Contents (Elt F)) (x6 : (⟨S4, .f32⟩ : BufTy).Contents (Elt F))
    (h_main_v44 : W (Proc.devRef .tc main_v44) = val_main_v44 (F := F) x0 x1 x2 x3 x4)
    (h_main_v50 : W (Proc.devRef .tc main_v50) = val_main_v50 (F := F) x1)
    (h_main_v3 : W (Proc.devRef .tc main_v3) = val_main_v3 (F := F) x1)
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6) :
    (after (chunk9 (F := F)) W (Proc.devRef .tc main_v3) = val_main_v3 (F := F) x1)
      ∧ (after (chunk9 (F := F)) W (Proc.devRef .tc main_v60) = val_main_v60 (F := F) x0 x1 x2 x3 x4)
      ∧ (after (chunk9 (F := F)) W (Proc.devRef .tc main_arg0) = x0)
      ∧ (after (chunk9 (F := F)) W (Proc.devRef .tc main_arg1) = x1)
      ∧ (after (chunk9 (F := F)) W (Proc.devRef .tc main_arg2) = x2)
      ∧ (after (chunk9 (F := F)) W (Proc.devRef .tc main_arg3) = x3)
      ∧ (after (chunk9 (F := F)) W (Proc.devRef .tc main_arg4) = x4)
      ∧ (after (chunk9 (F := F)) W (Proc.devRef .tc main_arg5) = x5)
      ∧ (after (chunk9 (F := F)) W (Proc.devRef .tc main_arg6) = x6) := by
  unfold chunk9
  refine ⟨?_, ?_, ?_, ?_, ?_, ?_, ?_, ?_, ?_⟩
  · after_results; exact h_main_v3
  · after_results; rw [h_main_v44, h_main_v50, h_main_arg2]; rfl
  · after_results; exact h_main_arg0
  · after_results; exact h_main_arg1
  · after_results; exact h_main_arg2
  · after_results; exact h_main_arg3
  · after_results; exact h_main_arg4
  · after_results; exact h_main_arg5
  · after_results; exact h_main_arg6

set_option maxHeartbeats 1000000 in
/-- Lines 77–80, run from contents that hold the arguments and every value still to be read at its stage's value of
    the arguments, leave such contents. -/
theorem step10 (W : Valuation τ sig (Elt F)) (x0 : (⟨S100000x128, .f32⟩ : BufTy).Contents (Elt F)) (x1 : (⟨S2x1600000, .i32⟩ : BufTy).Contents (Elt F)) (x2 : (⟨S1600000x16, .f32⟩ : BufTy).Contents (Elt F)) (x3 : (⟨S144x128, .f32⟩ : BufTy).Contents (Elt F)) (x4 : (⟨S128, .f32⟩ : BufTy).Contents (Elt F)) (x5 : (⟨S144x4, .f32⟩ : BufTy).Contents (Elt F)) (x6 : (⟨S4, .f32⟩ : BufTy).Contents (Elt F))
    (h_main_v3 : W (Proc.devRef .tc main_v3) = val_main_v3 (F := F) x1)
    (h_main_v60 : W (Proc.devRef .tc main_v60) = val_main_v60 (F := F) x0 x1 x2 x3 x4)
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6) :
    (after (chunk10 (F := F)) W (Proc.devRef .tc main_v3) = val_main_v3 (F := F) x1)
      ∧ (after (chunk10 (F := F)) W (Proc.devRef .tc main_v63) = val_main_v63 (F := F) x0 x1 x2 x3 x4)
      ∧ (after (chunk10 (F := F)) W (Proc.devRef .tc main_arg0) = x0)
      ∧ (after (chunk10 (F := F)) W (Proc.devRef .tc main_arg1) = x1)
      ∧ (after (chunk10 (F := F)) W (Proc.devRef .tc main_arg2) = x2)
      ∧ (after (chunk10 (F := F)) W (Proc.devRef .tc main_arg3) = x3)
      ∧ (after (chunk10 (F := F)) W (Proc.devRef .tc main_arg4) = x4)
      ∧ (after (chunk10 (F := F)) W (Proc.devRef .tc main_arg5) = x5)
      ∧ (after (chunk10 (F := F)) W (Proc.devRef .tc main_arg6) = x6) := by
  unfold chunk10
  refine ⟨?_, ?_, ?_, ?_, ?_, ?_, ?_, ?_, ?_⟩
  · after_results; exact h_main_v3
  · after_results; rw [h_main_v3, h_main_v60]; rfl
  · after_results; exact h_main_arg0
  · after_results; exact h_main_arg1
  · after_results; exact h_main_arg2
  · after_results; exact h_main_arg3
  · after_results; exact h_main_arg4
  · after_results; exact h_main_arg5
  · after_results; exact h_main_arg6

set_option maxHeartbeats 1000000 in
/-- Lines 81–91, run from contents that hold the arguments and every value still to be read at its stage's value of
    the arguments, leave such contents. -/
theorem step11 (W : Valuation τ sig (Elt F)) (x0 : (⟨S100000x128, .f32⟩ : BufTy).Contents (Elt F)) (x1 : (⟨S2x1600000, .i32⟩ : BufTy).Contents (Elt F)) (x2 : (⟨S1600000x16, .f32⟩ : BufTy).Contents (Elt F)) (x3 : (⟨S144x128, .f32⟩ : BufTy).Contents (Elt F)) (x4 : (⟨S128, .f32⟩ : BufTy).Contents (Elt F)) (x5 : (⟨S144x4, .f32⟩ : BufTy).Contents (Elt F)) (x6 : (⟨S4, .f32⟩ : BufTy).Contents (Elt F))
    (h_main_v3 : W (Proc.devRef .tc main_v3) = val_main_v3 (F := F) x1)
    (h_main_v63 : W (Proc.devRef .tc main_v63) = val_main_v63 (F := F) x0 x1 x2 x3 x4)
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6) :
    (after (chunk11 (F := F)) W (Proc.devRef .tc main_v63) = val_main_v63 (F := F) x0 x1 x2 x3 x4)
      ∧ (after (chunk11 (F := F)) W (Proc.devRef .tc main_v71) = val_main_v71 (F := F) x1)
      ∧ (after (chunk11 (F := F)) W (Proc.devRef .tc main_arg0) = x0)
      ∧ (after (chunk11 (F := F)) W (Proc.devRef .tc main_arg1) = x1)
      ∧ (after (chunk11 (F := F)) W (Proc.devRef .tc main_arg2) = x2)
      ∧ (after (chunk11 (F := F)) W (Proc.devRef .tc main_arg3) = x3)
      ∧ (after (chunk11 (F := F)) W (Proc.devRef .tc main_arg4) = x4)
      ∧ (after (chunk11 (F := F)) W (Proc.devRef .tc main_arg5) = x5)
      ∧ (after (chunk11 (F := F)) W (Proc.devRef .tc main_arg6) = x6) := by
  unfold chunk11
  refine ⟨?_, ?_, ?_, ?_, ?_, ?_, ?_, ?_, ?_⟩
  · after_results; exact h_main_v63
  · after_results; rw [h_main_v3]; rfl
  · after_results; exact h_main_arg0
  · after_results; exact h_main_arg1
  · after_results; exact h_main_arg2
  · after_results; exact h_main_arg3
  · after_results; exact h_main_arg4
  · after_results; exact h_main_arg5
  · after_results; exact h_main_arg6

set_option maxHeartbeats 1000000 in
/-- Lines 92–96, run from contents that hold the arguments and every value still to be read at its stage's value of
    the arguments, leave such contents. -/
theorem step12 (W : Valuation τ sig (Elt F)) (x0 : (⟨S100000x128, .f32⟩ : BufTy).Contents (Elt F)) (x1 : (⟨S2x1600000, .i32⟩ : BufTy).Contents (Elt F)) (x2 : (⟨S1600000x16, .f32⟩ : BufTy).Contents (Elt F)) (x3 : (⟨S144x128, .f32⟩ : BufTy).Contents (Elt F)) (x4 : (⟨S128, .f32⟩ : BufTy).Contents (Elt F)) (x5 : (⟨S144x4, .f32⟩ : BufTy).Contents (Elt F)) (x6 : (⟨S4, .f32⟩ : BufTy).Contents (Elt F))
    (h_main_v63 : W (Proc.devRef .tc main_v63) = val_main_v63 (F := F) x0 x1 x2 x3 x4)
    (h_main_v71 : W (Proc.devRef .tc main_v71) = val_main_v71 (F := F) x1)
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6) :
    (after (chunk12 (F := F)) W (Proc.devRef .tc main_v76) = val_main_v76 (F := F) x0 x1 x2 x3 x4 x5 x6)
      ∧ (after (chunk12 (F := F)) W (Proc.devRef .tc main_arg0) = x0)
      ∧ (after (chunk12 (F := F)) W (Proc.devRef .tc main_arg1) = x1)
      ∧ (after (chunk12 (F := F)) W (Proc.devRef .tc main_arg2) = x2)
      ∧ (after (chunk12 (F := F)) W (Proc.devRef .tc main_arg3) = x3)
      ∧ (after (chunk12 (F := F)) W (Proc.devRef .tc main_arg4) = x4)
      ∧ (after (chunk12 (F := F)) W (Proc.devRef .tc main_arg5) = x5)
      ∧ (after (chunk12 (F := F)) W (Proc.devRef .tc main_arg6) = x6) := by
  unfold chunk12
  refine ⟨?_, ?_, ?_, ?_, ?_, ?_, ?_, ?_⟩
  · after_results; rw [h_main_v63, h_main_v71, h_main_arg5, h_main_arg6]; rfl
  · after_results; exact h_main_arg0
  · after_results; exact h_main_arg1
  · after_results; exact h_main_arg2
  · after_results; exact h_main_arg3
  · after_results; exact h_main_arg4
  · after_results; exact h_main_arg5
  · after_results; exact h_main_arg6

set_option maxHeartbeats 1000000 in
/-- Lines 97–106, run from contents that hold the arguments and every value still to be read at its stage's value of
    the arguments, leave such contents. -/
theorem step13 (W : Valuation τ sig (Elt F)) (x0 : (⟨S100000x128, .f32⟩ : BufTy).Contents (Elt F)) (x1 : (⟨S2x1600000, .i32⟩ : BufTy).Contents (Elt F)) (x2 : (⟨S1600000x16, .f32⟩ : BufTy).Contents (Elt F)) (x3 : (⟨S144x128, .f32⟩ : BufTy).Contents (Elt F)) (x4 : (⟨S128, .f32⟩ : BufTy).Contents (Elt F)) (x5 : (⟨S144x4, .f32⟩ : BufTy).Contents (Elt F)) (x6 : (⟨S4, .f32⟩ : BufTy).Contents (Elt F))
    (h_main_v76 : W (Proc.devRef .tc main_v76) = val_main_v76 (F := F) x0 x1 x2 x3 x4 x5 x6)
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6) :
    (after (chunk13 (F := F)) W (Proc.devRef .tc main_v84) = val_main_v84 (F := F) x0 x1 x2 x3 x4 x5 x6)
      ∧ (after (chunk13 (F := F)) W (Proc.devRef .tc main_arg0) = x0)
      ∧ (after (chunk13 (F := F)) W (Proc.devRef .tc main_arg1) = x1)
      ∧ (after (chunk13 (F := F)) W (Proc.devRef .tc main_arg2) = x2)
      ∧ (after (chunk13 (F := F)) W (Proc.devRef .tc main_arg3) = x3)
      ∧ (after (chunk13 (F := F)) W (Proc.devRef .tc main_arg4) = x4)
      ∧ (after (chunk13 (F := F)) W (Proc.devRef .tc main_arg5) = x5)
      ∧ (after (chunk13 (F := F)) W (Proc.devRef .tc main_arg6) = x6) := by
  unfold chunk13
  refine ⟨?_, ?_, ?_, ?_, ?_, ?_, ?_, ?_⟩
  · after_results; rw [h_main_v76]; rfl
  · after_results; exact h_main_arg0
  · after_results; exact h_main_arg1
  · after_results; exact h_main_arg2
  · after_results; exact h_main_arg3
  · after_results; exact h_main_arg4
  · after_results; exact h_main_arg5
  · after_results; exact h_main_arg6

set_option maxHeartbeats 1000000 in
/-- Lines 107–114, run from contents that hold the arguments and every value still to be read at its stage's value of
    the arguments, leave such contents. -/
theorem step14 (W : Valuation τ sig (Elt F)) (x0 : (⟨S100000x128, .f32⟩ : BufTy).Contents (Elt F)) (x1 : (⟨S2x1600000, .i32⟩ : BufTy).Contents (Elt F)) (x2 : (⟨S1600000x16, .f32⟩ : BufTy).Contents (Elt F)) (x3 : (⟨S144x128, .f32⟩ : BufTy).Contents (Elt F)) (x4 : (⟨S128, .f32⟩ : BufTy).Contents (Elt F)) (x5 : (⟨S144x4, .f32⟩ : BufTy).Contents (Elt F)) (x6 : (⟨S4, .f32⟩ : BufTy).Contents (Elt F))
    (h_main_v84 : W (Proc.devRef .tc main_v84) = val_main_v84 (F := F) x0 x1 x2 x3 x4 x5 x6)
    (h_main_arg0 : W (Proc.devRef .tc main_arg0) = x0)
    (h_main_arg1 : W (Proc.devRef .tc main_arg1) = x1)
    (h_main_arg2 : W (Proc.devRef .tc main_arg2) = x2)
    (h_main_arg3 : W (Proc.devRef .tc main_arg3) = x3)
    (h_main_arg4 : W (Proc.devRef .tc main_arg4) = x4)
    (h_main_arg5 : W (Proc.devRef .tc main_arg5) = x5)
    (h_main_arg6 : W (Proc.devRef .tc main_arg6) = x6) :
    (after (chunk14 (F := F)) W (Proc.devRef .tc main_v90) = val_main_v90 (F := F) x0 x1 x2 x3 x4 x5 x6)
      ∧ (after (chunk14 (F := F)) W (Proc.devRef .tc main_arg0) = x0)
      ∧ (after (chunk14 (F := F)) W (Proc.devRef .tc main_arg1) = x1)
      ∧ (after (chunk14 (F := F)) W (Proc.devRef .tc main_arg2) = x2)
      ∧ (after (chunk14 (F := F)) W (Proc.devRef .tc main_arg3) = x3)
      ∧ (after (chunk14 (F := F)) W (Proc.devRef .tc main_arg4) = x4)
      ∧ (after (chunk14 (F := F)) W (Proc.devRef .tc main_arg5) = x5)
      ∧ (after (chunk14 (F := F)) W (Proc.devRef .tc main_arg6) = x6) := by
  unfold chunk14
  refine ⟨?_, ?_, ?_, ?_, ?_, ?_, ?_, ?_⟩
  · after_results; rw [h_main_v84]; rfl
  · after_results; exact h_main_arg0
  · after_results; exact h_main_arg1
  · after_results; exact h_main_arg2
  · after_results; exact h_main_arg3
  · after_results; exact h_main_arg4
  · after_results; exact h_main_arg5
  · after_results; exact h_main_arg6

end Cert.ReferenceIdeal.RunStages

end
-- ==== Proof.RefRun.lean ====
import proofs.«411764_j69793218560204_1_alg».proof.Proof.RefOpsP
import proofs.«411764_j69793218560204_1_alg».proof.Proof.RefReadP
import proofs.«411764_j69793218560204_1_alg».proof.Proof.RefRunSteps
import Idealize.ShloMosaic.Lib.StableHlo.Run

set_option maxRecDepth 16384

noncomputable section

namespace Cert.ReferenceIdeal.RunStages

open Idealize.ShloMosaic Idealize.ShloMosaic.TcCoe Idealize.ShloMosaic.ValueIdx Idealize.SL.Sem Idealize.ShloMosaic.StableHlo
open Cert.ReferenceIdeal Cert.ReferenceIdeal.Gen Cert.ReferenceIdeal.ValueP Cert.ReferenceIdeal.ReadP

section Assembly

variable {F : FTy → Type} [FloatOps F]

/-- Running two stretches in a row is running the second from where the first ends. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- All the lines, run from any contents, leave in the result buffer the last stage's value of the arguments' contents,
    and the arguments as they were: the stretches one after the other, each from where the one before ends. At every cut
    the contents so far are forgotten but for what the cut's lemma says of them. -/
theorem after_all (Wv : Valuation τ sig (Elt F)) :
    after (ops (F := F)) Wv (Proc.devRef .tc main_v90)
        = val_main_v90 (F := F) (Wv (Proc.devRef .tc main_arg0)) (Wv (Proc.devRef .tc main_arg1)) (Wv (Proc.devRef .tc main_arg2)) (Wv (Proc.devRef .tc main_arg3)) (Wv (Proc.devRef .tc main_arg4)) (Wv (Proc.devRef .tc main_arg5)) (Wv (Proc.devRef .tc main_arg6))
      ∧ after (ops (F := F)) Wv (Proc.devRef .tc main_arg0) = Wv (Proc.devRef .tc main_arg0)
      ∧ after (ops (F := F)) Wv (Proc.devRef .tc main_arg1) = Wv (Proc.devRef .tc main_arg1)
      ∧ after (ops (F := F)) Wv (Proc.devRef .tc main_arg2) = Wv (Proc.devRef .tc main_arg2)
      ∧ after (ops (F := F)) Wv (Proc.devRef .tc main_arg3) = Wv (Proc.devRef .tc main_arg3)
      ∧ after (ops (F := F)) Wv (Proc.devRef .tc main_arg4) = Wv (Proc.devRef .tc main_arg4)
      ∧ after (ops (F := F)) Wv (Proc.devRef .tc main_arg5) = Wv (Proc.devRef .tc main_arg5)
      ∧ after (ops (F := F)) Wv (Proc.devRef .tc main_arg6) = Wv (Proc.devRef .tc main_arg6) := by
  rw [ops_split]
  simp only [after_app]
  obtain ⟨o1_v9, o1_v3, o1_v1, o1_arg0, o1_arg1, o1_arg2, o1_arg3, o1_arg4, o1_arg5, o1_arg6⟩ :=
    step1 Wv (Wv (Proc.devRef .tc main_arg0)) (Wv (Proc.devRef .tc main_arg1)) (Wv (Proc.devRef .tc main_arg2)) (Wv (Proc.devRef .tc main_arg3)) (Wv (Proc.devRef .tc main_arg4)) (Wv (Proc.devRef .tc main_arg5)) (Wv (Proc.devRef .tc main_arg6)) rfl rfl rfl rfl rfl rfl rfl
  generalize after (chunk1 (F := F)) Wv = W1 at *
  obtain ⟨o2_v3, o2_v19, o2_v1, o2_arg0, o2_arg1, o2_arg2, o2_arg3, o2_arg4, o2_arg5, o2_arg6⟩ :=
    step2 W1 _ _ _ _ _ _ _ o1_v9 o1_v3 o1_v1 o1_arg0 o1_arg1 o1_arg2 o1_arg3 o1_arg4 o1_arg5 o1_arg6
  generalize after (chunk2 (F := F)) W1 = W2 at *
  clear o1_v9 o1_v3 o1_v1 o1_arg0 o1_arg1 o1_arg2 o1_arg3 o1_arg4 o1_arg5 o1_arg6
  obtain ⟨o3_v3, o3_v22, o3_v1, o3_arg0, o3_arg1, o3_arg2, o3_arg3, o3_arg4, o3_arg5, o3_arg6⟩ :=
    step3 W2 _ _ _ _ _ _ _ o2_v3 o2_v19 o2_v1 o2_arg0 o2_arg1 o2_arg2 o2_arg3 o2_arg4 o2_arg5 o2_arg6
  generalize after (chunk3 (F := F)) W2 = W3 at *
  clear o2_v3 o2_v19 o2_v1 o2_arg0 o2_arg1 o2_arg2 o2_arg3 o2_arg4 o2_arg5 o2_arg6
  obtain ⟨o4_v22, o4_v30, o4_v1, o4_v3, o4_arg0, o4_arg1, o4_arg2, o4_arg3, o4_arg4, o4_arg5, o4_arg6⟩ :=
    step4 W3 _ _ _ _ _ _ _ o3_v3 o3_v22 o3_v1 o3_arg0 o3_arg1 o3_arg2 o3_arg3 o3_arg4 o3_arg5 o3_arg6
  generalize after (chunk4 (F := F)) W3 = W4 at *
  clear o3_v3 o3_v22 o3_v1 o3_arg0 o3_arg1 o3_arg2 o3_arg3 o3_arg4 o3_arg5 o3_arg6
  obtain ⟨o5_v35, o5_v1, o5_v3, o5_arg0, o5_arg1, o5_arg2, o5_arg3, o5_arg4, o5_arg5, o5_arg6⟩ :=
    step5 W4 _ _ _ _ _ _ _ o4_v22 o4_v30 o4_v1 o4_v3 o4_arg0 o4_arg1 o4_arg2 o4_arg3 o4_arg4 o4_arg5 o4_arg6
  generalize after (chunk5 (F := F)) W4 = W5 at *
  clear o4_v22 o4_v30 o4_v1 o4_v3 o4_arg0 o4_arg1 o4_arg2 o4_arg3 o4_arg4 o4_arg5 o4_arg6
  obtain ⟨o6_v43, o6_v1, o6_v3, o6_arg0, o6_arg1, o6_arg2, o6_arg3, o6_arg4, o6_arg5, o6_arg6⟩ :=
    step6 W5 _ _ _ _ _ _ _ o5_v35 o5_v1 o5_v3 o5_arg0 o5_arg1 o5_arg2 o5_arg3 o5_arg4 o5_arg5 o5_arg6
  generalize after (chunk6 (F := F)) W5 = W6 at *
  clear o5_v35 o5_v1 o5_v3 o5_arg0 o5_arg1 o5_arg2 o5_arg3 o5_arg4 o5_arg5 o5_arg6
  obtain ⟨o7_v1, o7_v44, o7_v3, o7_arg0, o7_arg1, o7_arg2, o7_arg3, o7_arg4, o7_arg5, o7_arg6⟩ :=
    step7 W6 _ _ _ _ _ _ _ o6_v43 o6_v1 o6_v3 o6_arg0 o6_arg1 o6_arg2 o6_arg3 o6_arg4 o6_arg5 o6_arg6
  generalize after (chunk7 (F := F)) W6 = W7 at *
  clear o6_v43 o6_v1 o6_v3 o6_arg0 o6_arg1 o6_arg2 o6_arg3 o6_arg4 o6_arg5 o6_arg6
  obtain ⟨o8_v44, o8_v50, o8_v3, o8_arg0, o8_arg1, o8_arg2, o8_arg3, o8_arg4, o8_arg5, o8_arg6⟩ :=
    step8 W7 _ _ _ _ _ _ _ o7_v1 o7_v44 o7_v3 o7_arg0 o7_arg1 o7_arg2 o7_arg3 o7_arg4 o7_arg5 o7_arg6
  generalize after (chunk8 (F := F)) W7 = W8 at *
  clear o7_v1 o7_v44 o7_v3 o7_arg0 o7_arg1 o7_arg2 o7_arg3 o7_arg4 o7_arg5 o7_arg6
  obtain ⟨o9_v3, o9_v60, o9_arg0, o9_arg1, o9_arg2, o9_arg3, o9_arg4, o9_arg5, o9_arg6⟩ :=
    step9 W8 _ _ _ _ _ _ _ o8_v44 o8_v50 o8_v3 o8_arg0 o8_arg1 o8_arg2 o8_arg3 o8_arg4 o8_arg5 o8_arg6
  generalize after (chunk9 (F := F)) W8 = W9 at *
  clear o8_v44 o8_v50 o8_v3 o8_arg0 o8_arg1 o8_arg2 o8_arg3 o8_arg4 o8_arg5 o8_arg6
  obtain ⟨o10_v3, o10_v63, o10_arg0, o10_arg1, o10_arg2, o10_arg3, o10_arg4, o10_arg5, o10_arg6⟩ :=
    step10 W9 _ _ _ _ _ _ _ o9_v3 o9_v60 o9_arg0 o9_arg1 o9_arg2 o9_arg3 o9_arg4 o9_arg5 o9_arg6
  generalize after (chunk10 (F := F)) W9 = W10 at *
  clear o9_v3 o9_v60 o9_arg0 o9_arg1 o9_arg2 o9_arg3 o9_arg4 o9_arg5 o9_arg6
  obtain ⟨o11_v63, o11_v71, o11_arg0, o11_arg1, o11_arg2, o11_arg3, o11_arg4, o11_arg5, o11_arg6⟩ :=
    step11 W10 _ _ _ _ _ _ _ o10_v3 o10_v63 o10_arg0 o10_arg1 o10_arg2 o10_arg3 o10_arg4 o10_arg5 o10_arg6
  generalize after (chunk11 (F := F)) W10 = W11 at *
  clear o10_v3 o10_v63 o10_arg0 o10_arg1 o10_arg2 o10_arg3 o10_arg4 o10_arg5 o10_arg6
  obtain ⟨o12_v76, o12_arg0, o12_arg1, o12_arg2, o12_arg3, o12_arg4, o12_arg5, o12_arg6⟩ :=
    step12 W11 _ _ _ _ _ _ _ o11_v63 o11_v71 o11_arg0 o11_arg1 o11_arg2 o11_arg3 o11_arg4 o11_arg5 o11_arg6
  generalize after (chunk12 (F := F)) W11 = W12 at *
  clear o11_v63 o11_v71 o11_arg0 o11_arg1 o11_arg2 o11_arg3 o11_arg4 o11_arg5 o11_arg6
  obtain ⟨o13_v84, o13_arg0, o13_arg1, o13_arg2, o13_arg3, o13_arg4, o13_arg5, o13_arg6⟩ :=
    step13 W12 _ _ _ _ _ _ _ o12_v76 o12_arg0 o12_arg1 o12_arg2 o12_arg3 o12_arg4 o12_arg5 o12_arg6
  generalize after (chunk13 (F := F)) W12 = W13 at *
  clear o12_v76 o12_arg0 o12_arg1 o12_arg2 o12_arg3 o12_arg4 o12_arg5 o12_arg6
  exact step14 W13 _ _ _ _ _ _ _ o13_v84 o13_arg0 o13_arg1 o13_arg2 o13_arg3 o13_arg4 o13_arg5 o13_arg6

end Assembly

/-- The reference program's lines, run from any contents, leave in the result buffer the last stage's value of the
    arguments' contents. -/
theorem after_result (Wv : Valuation τ sig (Elt Ideal)) :
    StableHlo.after (ops (F := Ideal)) Wv (Proc.devRef .tc main_v90)
      = val_main_v90 (F := Ideal) (Wv (Proc.devRef .tc main_arg0)) (Wv (Proc.devRef .tc main_arg1)) (Wv (Proc.devRef .tc main_arg2))
          (Wv (Proc.devRef .tc main_arg3)) (Wv (Proc.devRef .tc main_arg4)) (Wv (Proc.devRef .tc main_arg5)) (Wv (Proc.devRef .tc main_arg6)) := by
  exact (after_all (F := Ideal) Wv).1

/-- Every weakly fair execution of the reference program terminates with the result at the last stage's value of the
    arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v90)
        = val_main_v90 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  exact (θ_run defs _ _).mono (fun _ h c =>
      ⟨(h c main_v90).trans (after_all (F := Ideal) _).1,
       (h c main_arg0).trans (after_all (F := Ideal) _).2.1,
       (h c main_arg1).trans (after_all (F := Ideal) _).2.2.1,
       (h c main_arg2).trans (after_all (F := Ideal) _).2.2.2.1,
       (h c main_arg3).trans (after_all (F := Ideal) _).2.2.2.2.1,
       (h c main_arg4).trans (after_all (F := Ideal) _).2.2.2.2.2.1,
       (h c main_arg5).trans (after_all (F := Ideal) _).2.2.2.2.2.2.1,
       (h c main_arg6).trans (after_all (F := Ideal) _).2.2.2.2.2.2.2⟩)
    (run_seq scopedRefs_eq scopedSems_eq defs main (fun _ => ops) main_eq (fun _ => ops_sub) m ρ)

end Cert.ReferenceIdeal.RunStages

end
-- ==== Proof.RefStages.lean ====
import proofs.«411764_j69793218560204_1_alg».proof.Proof.RefReadP
import proofs.«411764_j69793218560204_1_alg».proof.Proof.Spec
import Idealize.ShloMosaic.Lib.Pipeline.Value
import Idealize.ShloMosaic.Lib.ValueLayout

set_option maxRecDepth 16384

noncomputable section

namespace Cert.ReferenceIdeal.Stages

open Idealize.ShloMosaic Idealize.ShloMosaic.TcCoe Idealize.ShloMosaic.ValueIdx Idealize.SL.Sem
open Cert.ReferenceIdeal Cert.ReferenceIdeal.ReadP

/-- Rows of a node array read at the edges' source nodes (the edge list's first row, negative entries wrapped). -/
def take (x1 : (⟨S2x1600000, .i32⟩ : BufTy).Contents (Elt Ideal)) (y : (⟨S100000x128, .f32⟩ : BufTy).Contents (Elt Ideal)) :
    (⟨S1600000x128, .f32⟩ : BufTy).Contents (Elt Ideal) :=
  Host.gather gather_S100000x128_S1600000x1_S1600000x128_1_0_n_n_0_1_1128 y (val_main_v9 (F := Ideal) x1)

/-- Edge rows summed into their destination nodes (the edge list's second row), from zero. -/
def scat (x1 : (⟨S2x1600000, .i32⟩ : BufTy).Contents (Elt Ideal)) (u : (⟨S1600000x144, .f32⟩ : BufTy).Contents (Elt Ideal)) :
    (⟨S100000x144, .f32⟩ : BufTy).Contents (Elt Ideal) :=
  Host.scatterAdd (F := Ideal) (φ := .f32) scatter_S100000x144_S1600000x1_S1600000x144_1_0_0_1 (val_main_v20 (F := Ideal)) (val_main_v21 (F := Ideal) x1) u

/-- Every node's number of incoming edges. -/
def cnt (x1 : (⟨S2x1600000, .i32⟩ : BufTy).Contents (Elt Ideal)) : Fin 100000 → EReal :=
  fun n => val_main_v26 (F := Ideal) x1 (ix1 n)

open Cert.ReferenceIdeal.Gen

/-- The sums start from the zero word, which adds nothing. -/
theorem zsum (s : EReal) : Ideal.ofBits .f32 0x00000000#32 + s = s := by rw [Ideal.ofBits_zero_f32, zero_add]

/-- A two-piece row read at an entry: the first piece below 128, the second piece (128 less) from there on. -/
theorem cat_apply (xr : (⟨S1600000x128, .f32⟩ : BufTy).Contents (Elt Ideal)) (ea : (⟨S1600000x16, .f32⟩ : BufTy).Contents (Elt Ideal))
    (e : Fin 1600000) (k : Fin 144) :
    concatenate S1600000x144 1 [⟨S1600000x128, xr⟩, ⟨S1600000x16, ea⟩] concatenates_S1600000x128_S1600000x16_S1600000x144_d1 (ix2 e k)
      = Cert.Spec.catAt xr ea e k := by
  unfold Cert.Spec.catAt
  split
  · next h =>
    exact concatenate_pair_apply_left 1 xr ea _ (ix2 e k) rfl (ix2 e ⟨k.val, h⟩)
      (fun b => by match b with | ⟨0, _⟩ => rfl | ⟨1, _⟩ => rfl)
  · next h =>
    exact concatenate_pair_apply_right 1 xr ea _ (ix2 e k) rfl rfl (ix2 e ⟨k.val - 128, by have := k.isLt; omega⟩)
      (fun b hb => by match b with | ⟨0, _⟩ => rfl | ⟨1, _⟩ => exact absurd rfl hb)
      (by show k.val - 128 + 128 = k.val; omega)

/-- The first layer's concatenated row: the gathered node features, then the edge features. -/
theorem v11_apply (x0 : (⟨S100000x128, .f32⟩ : BufTy).Contents (Elt Ideal)) (x1 : (⟨S2x1600000, .i32⟩ : BufTy).Contents (Elt Ideal))
    (x2 : (⟨S1600000x16, .f32⟩ : BufTy).Contents (Elt Ideal)) (e : Fin 1600000) (k : Fin 144) :
    val_main_v11 (F := Ideal) x0 x1 x2 (ix2 e k) = Cert.Spec.catAt (take x1 x0) x2 e k :=
  cat_apply (take x1 x0) x2 e k

/-- The first layer's edge stage: each concatenated row divided by its floored Euclidean norm. The norm's sum runs over
    the 144 entries of the same edge's row, whatever entry is being read. -/
theorem v19_eq (x0 : (⟨S100000x128, .f32⟩ : BufTy).Contents (Elt Ideal)) (x1 : (⟨S2x1600000, .i32⟩ : BufTy).Contents (Elt Ideal))
    (x2 : (⟨S1600000x16, .f32⟩ : BufTy).Contents (Elt Ideal)) :
    val_main_v19 (F := Ideal) x0 x1 x2 = Cert.Spec.cn (take x1 x0) x2 := by
  funext i
  obtain ⟨e, j, rfl⟩ : ∃ e j, i = ix2 e j := ⟨i 0, i 1, eq_ix2 i⟩
  have h13 : ∀ k, idx_main_v13 (idx_main_v14 (idx_main_v18 (ix2 e j))) k = ix2 e k := fun k =>
    funext fun a => Fin.ext (by match a with | ⟨0, _⟩ => rfl | ⟨1, _⟩ => rfl)
  rw [val_main_v19_apply, val_main_v18_apply, val_main_v17_apply, val_main_v15_apply, val_main_v14_apply,
    val_main_v13_apply, val_main_v16_apply, val_main_cst_1_apply, val_main_cst_apply]
  simp only [h13, val_main_v12_apply, v11_apply, Ideal.hostDivf_def, Ideal.hostUnary_sqrt_def, Ideal.maximumf_def,
    Ideal.mulf_def, Ideal.ofBits_def, Ideal.ofBits_zero_f32, zero_add]
  rfl

/-- The first layer's mean row: the summed row of node `n` divided by the node's count floored at one; the count depends
    on the node only. -/
theorem v31_at (x0 : (⟨S100000x128, .f32⟩ : BufTy).Contents (Elt Ideal)) (x1 : (⟨S2x1600000, .i32⟩ : BufTy).Contents (Elt Ideal))
    (x2 : (⟨S1600000x16, .f32⟩ : BufTy).Contents (Elt Ideal)) (n : Fin 100000) (k : Fin 144) :
    val_main_v31 (F := Ideal) x0 x1 x2 (ix2 n k)
      = Cert.Spec.aggAt (val_main_v22 (F := Ideal) x0 x1 x2) (cnt x1) n k := by
  have h26 : idx_main_v29 (idx_main_v30 (ix2 n k)) = ix1 n :=
    funext fun a => Fin.ext (by match a with | ⟨0, _⟩ => rfl)
  rw [val_main_v31_apply, val_main_v30_apply, val_main_v29_apply, h26, val_main_v28_apply, val_main_v27_apply,
    val_main_cst_5_apply]
  rfl

/-- The first layer's linear row: entry `j` contracts the mean row of node `n` with column `j` of the weights and adds
    entry `j` of the bias. -/
theorem v35_at (x0 : (⟨S100000x128, .f32⟩ : BufTy).Contents (Elt Ideal)) (x1 : (⟨S2x1600000, .i32⟩ : BufTy).Contents (Elt Ideal))
    (x2 : (⟨S1600000x16, .f32⟩ : BufTy).Contents (Elt Ideal)) (x3 : (⟨S144x128, .f32⟩ : BufTy).Contents (Elt Ideal))
    (x4 : (⟨S128, .f32⟩ : BufTy).Contents (Elt Ideal)) (n : Fin 100000) (j : Fin 128) :
    val_main_v35 (F := Ideal) x0 x1 x2 x3 x4 (ix2 n j)
      = Cert.Spec.linAt (val_main_v22 (F := Ideal) x0 x1 x2) (cnt x1) x3 x4 n j := by
  have hl : ∀ k, lidx_main_v32 (ix2 n j) k = ix2 n k := fun k =>
    funext fun a => Fin.ext (by match a with | ⟨0, _⟩ => rfl | ⟨1, _⟩ => rfl)
  have hr : ∀ k, ridx_main_v32 (ix2 n j) k = ix2 k j := fun k =>
    funext fun a => Fin.ext (by match a with | ⟨0, _⟩ => rfl | ⟨1, _⟩ => rfl)
  have h4 : idx_main_v33 (idx_main_v34 (ix2 n j)) = ix1 j :=
    funext fun a => Fin.ext (by match a with | ⟨0, _⟩ => rfl)
  rw [val_main_v35_apply, val_main_v34_apply, val_main_v33_apply, val_main_v32_apply, h4]
  refine congrArg (· + x4 (ix1 j)) (Finset.sum_congr rfl fun k _ => ?_)
  rw [hl, hr, v31_at]

/-- The first layer's node stage: the linear row divided by its floored norm (a sum over the 128 entries of node `n`'s
    row), then the maximum with the zero word. -/
theorem v44_eq (x0 : (⟨S100000x128, .f32⟩ : BufTy).Contents (Elt Ideal)) (x1 : (⟨S2x1600000, .i32⟩ : BufTy).Contents (Elt Ideal))
    (x2 : (⟨S1600000x16, .f32⟩ : BufTy).Contents (Elt Ideal)) (x3 : (⟨S144x128, .f32⟩ : BufTy).Contents (Elt Ideal))
    (x4 : (⟨S128, .f32⟩ : BufTy).Contents (Elt Ideal)) :
    val_main_v44 (F := Ideal) x0 x1 x2 x3 x4
      = Cert.Spec.alnRelu (val_main_v22 (F := Ideal) x0 x1 x2) (cnt x1) x3 x4 := by
  funext i
  obtain ⟨n, j, rfl⟩ : ∃ n j, i = ix2 n j := ⟨i 0, i 1, eq_ix2 i⟩
  have h37 : ∀ k, idx_main_v37 (idx_main_v38 (idx_main_v42 (ix2 n j))) k = ix2 n k := fun k =>
    funext fun a => Fin.ext (by match a with | ⟨0, _⟩ => rfl | ⟨1, _⟩ => rfl)
  rw [val_main_v44_apply, val_main_call0_v0_apply, val_main_call0_cst_apply, val_main_v43_apply, val_main_v42_apply,
    val_main_v41_apply, val_main_v39_apply, val_main_v38_apply, val_main_v37_apply, val_main_v40_apply,
    val_main_cst_7_apply, val_main_cst_6_apply]
  have hs : (∑ k, val_main_v36 (F := Ideal) x0 x1 x2 x3 x4 (idx_main_v37 (idx_main_v38 (idx_main_v42 (ix2 n j))) k))
      = ∑ k : Fin 128, Cert.Spec.linAt (val_main_v22 (F := Ideal) x0 x1 x2) (cnt x1) x3 x4 n k
          * Cert.Spec.linAt (val_main_v22 (F := Ideal) x0 x1 x2) (cnt x1) x3 x4 n k :=
    Finset.sum_congr rfl fun k _ => by rw [h37, val_main_v36_apply, v35_at]; rfl
  rw [hs, v35_at]
  simp only [Ideal.ofBits_def, zsum, Ideal.hostDivf_def, Ideal.hostUnary_sqrt_def, Ideal.maximumf_def]
  rfl

/-- The second layer recomputes the first's index arrays, zero array and counts: the same terms under other names. -/
theorem v50_eq (x1 : (⟨S2x1600000, .i32⟩ : BufTy).Contents (Elt Ideal)) : val_main_v50 (F := Ideal) x1 = val_main_v9 (F := Ideal) x1 := rfl
theorem v61_eq : val_main_v61 (F := Ideal) = val_main_v20 (F := Ideal) := rfl
theorem v62_eq (x1 : (⟨S2x1600000, .i32⟩ : BufTy).Contents (Elt Ideal)) : val_main_v62 (F := Ideal) x1 = val_main_v21 (F := Ideal) x1 := rfl
theorem v67_eq (x1 : (⟨S2x1600000, .i32⟩ : BufTy).Contents (Elt Ideal)) : val_main_v67 (F := Ideal) x1 = val_main_v26 (F := Ideal) x1 := rfl

/-- The first layer's summed rows are the shared scatter of the edge stage. -/
theorem v22_eq (x0 : (⟨S100000x128, .f32⟩ : BufTy).Contents (Elt Ideal)) (x1 : (⟨S2x1600000, .i32⟩ : BufTy).Contents (Elt Ideal))
    (x2 : (⟨S1600000x16, .f32⟩ : BufTy).Contents (Elt Ideal)) :
    val_main_v22 (F := Ideal) x0 x1 x2 = scat x1 (val_main_v19 (F := Ideal) x0 x1 x2) := rfl

/-- The second layer gathers from the first layer's result with the same index array. -/
theorem v51_eq (x0 : (⟨S100000x128, .f32⟩ : BufTy).Contents (Elt Ideal)) (x1 : (⟨S2x1600000, .i32⟩ : BufTy).Contents (Elt Ideal))
    (x2 : (⟨S1600000x16, .f32⟩ : BufTy).Contents (Elt Ideal)) (x3 : (⟨S144x128, .f32⟩ : BufTy).Contents (Elt Ideal))
    (x4 : (⟨S128, .f32⟩ : BufTy).Contents (Elt Ideal)) :
    val_main_v51 (F := Ideal) x0 x1 x2 x3 x4 = take x1 (val_main_v44 (F := Ideal) x0 x1 x2 x3 x4) := by
  unfold val_main_v51 take
  rw [v50_eq]

/-- The second layer's summed rows are the shared scatter of its edge stage. -/
theorem v63_eq (x0 : (⟨S100000x128, .f32⟩ : BufTy).Contents (Elt Ideal)) (x1 : (⟨S2x1600000, .i32⟩ : BufTy).Contents (Elt Ideal))
    (x2 : (⟨S1600000x16, .f32⟩ : BufTy).Contents (Elt Ideal)) (x3 : (⟨S144x128, .f32⟩ : BufTy).Contents (Elt Ideal))
    (x4 : (⟨S128, .f32⟩ : BufTy).Contents (Elt Ideal)) :
    val_main_v63 (F := Ideal) x0 x1 x2 x3 x4 = scat x1 (val_main_v60 (F := Ideal) x0 x1 x2 x3 x4) := by
  unfold val_main_v63 scat
  rw [v61_eq, v62_eq]

/-- The second layer's concatenated row: the gathered first-layer features, then the edge features. -/
theorem v52_apply (x0 : (⟨S100000x128, .f32⟩ : BufTy).Contents (Elt Ideal)) (x1 : (⟨S2x1600000, .i32⟩ : BufTy).Contents (Elt Ideal))
    (x2 : (⟨S1600000x16, .f32⟩ : BufTy).Contents (Elt Ideal)) (x3 : (⟨S144x128, .f32⟩ : BufTy).Contents (Elt Ideal))
    (x4 : (⟨S128, .f32⟩ : BufTy).Contents (Elt Ideal)) (e : Fin 1600000) (k : Fin 144) :
    val_main_v52 (F := Ideal) x0 x1 x2 x3 x4 (ix2 e k)
      = Cert.Spec.catAt (take x1 (val_main_v44 (F := Ideal) x0 x1 x2 x3 x4)) x2 e k :=
  (cat_apply (val_main_v51 (F := Ideal) x0 x1 x2 x3 x4) x2 e k).trans (by rw [v51_eq])

/-- The second layer's edge stage, row by row as in the first. -/
theorem v60_eq (x0 : (⟨S100000x128, .f32⟩ : BufTy).Contents (Elt Ideal)) (x1 : (⟨S2x1600000, .i32⟩ : BufTy).Contents (Elt Ideal))
    (x2 : (⟨S1600000x16, .f32⟩ : BufTy).Contents (Elt Ideal)) (x3 : (⟨S144x128, .f32⟩ : BufTy).Contents (Elt Ideal))
    (x4 : (⟨S128, .f32⟩ : BufTy).Contents (Elt Ideal)) :
    val_main_v60 (F := Ideal) x0 x1 x2 x3 x4 = Cert.Spec.cn (take x1 (val_main_v44 (F := Ideal) x0 x1 x2 x3 x4)) x2 := by
  funext i
  obtain ⟨e, j, rfl⟩ : ∃ e j, i = ix2 e j := ⟨i 0, i 1, eq_ix2 i⟩
  have h54 : ∀ k, idx_main_v54 (idx_main_v55 (idx_main_v59 (ix2 e j))) k = ix2 e k := fun k =>
    funext fun a => Fin.ext (by match a with | ⟨0, _⟩ => rfl | ⟨1, _⟩ => rfl)
  rw [val_main_v60_apply, val_main_v59_apply, val_main_v58_apply, val_main_v56_apply, val_main_v55_apply,
    val_main_v54_apply, val_main_v57_apply, val_main_cst_11_apply, val_main_cst_10_apply]
  simp only [h54, val_main_v53_apply, v52_apply, Ideal.hostDivf_def, Ideal.hostUnary_sqrt_def, Ideal.maximumf_def,
    Ideal.mulf_def, Ideal.ofBits_def, zsum]
  rfl

/-- The second layer's mean row, over the same counts. -/
theorem v72_at (x0 : (⟨S100000x128, .f32⟩ : BufTy).Contents (Elt Ideal)) (x1 : (⟨S2x1600000, .i32⟩ : BufTy).Contents (Elt Ideal))
    (x2 : (⟨S1600000x16, .f32⟩ : BufTy).Contents (Elt Ideal)) (x3 : (⟨S144x128, .f32⟩ : BufTy).Contents (Elt Ideal))
    (x4 : (⟨S128, .f32⟩ : BufTy).Contents (Elt Ideal)) (n : Fin 100000) (k : Fin 144) :
    val_main_v72 (F := Ideal) x0 x1 x2 x3 x4 (ix2 n k)
      = Cert.Spec.aggAt (val_main_v63 (F := Ideal) x0 x1 x2 x3 x4) (cnt x1) n k := by
  have h67 : idx_main_v70 (idx_main_v71 (ix2 n k)) = ix1 n :=
    funext fun a => Fin.ext (by match a with | ⟨0, _⟩ => rfl)
  rw [val_main_v72_apply, val_main_v71_apply, val_main_v70_apply, h67, val_main_v69_apply, val_main_v68_apply,
    val_main_cst_15_apply, v67_eq]
  rfl

/-- The second layer's linear row (four columns). -/
theorem v76_at (x0 : (⟨S100000x128, .f32⟩ : BufTy).Contents (Elt Ideal)) (x1 : (⟨S2x1600000, .i32⟩ : BufTy).Contents (Elt Ideal))
    (x2 : (⟨S1600000x16, .f32⟩ : BufTy).Contents (Elt Ideal)) (x3 : (⟨S144x128, .f32⟩ : BufTy).Contents (Elt Ideal))
    (x4 : (⟨S128, .f32⟩ : BufTy).Contents (Elt Ideal)) (x5 : (⟨S144x4, .f32⟩ : BufTy).Contents (Elt Ideal))
    (x6 : (⟨S4, .f32⟩ : BufTy).Contents (Elt Ideal)) (n : Fin 100000) (j : Fin 4) :
    val_main_v76 (F := Ideal) x0 x1 x2 x3 x4 x5 x6 (ix2 n j)
      = Cert.Spec.linAt (val_main_v63 (F := Ideal) x0 x1 x2 x3 x4) (cnt x1) x5 x6 n j := by
  have hl : ∀ k, lidx_main_v73 (ix2 n j) k = ix2 n k := fun k =>
    funext fun a => Fin.ext (by match a with | ⟨0, _⟩ => rfl | ⟨1, _⟩ => rfl)
  have hr : ∀ k, ridx_main_v73 (ix2 n j) k = ix2 k j := fun k =>
    funext fun a => Fin.ext (by match a with | ⟨0, _⟩ => rfl | ⟨1, _⟩ => rfl)
  have h6 : idx_main_v74 (idx_main_v75 (ix2 n j)) = ix1 j :=
    funext fun a => Fin.ext (by match a with | ⟨0, _⟩ => rfl)
  rw [val_main_v76_apply, val_main_v75_apply, val_main_v74_apply, val_main_v73_apply, h6]
  refine congrArg (· + x6 (ix1 j)) (Finset.sum_congr rfl fun k _ => ?_)
  rw [hl, hr, v72_at]

/-- The second layer's normalised linear row: the sum under the norm runs over the four entries of node `n`'s row. -/
theorem v84_at (x0 : (⟨S100000x128, .f32⟩ : BufTy).Contents (Elt Ideal)) (x1 : (⟨S2x1600000, .i32⟩ : BufTy).Contents (Elt Ideal))
    (x2 : (⟨S1600000x16, .f32⟩ : BufTy).Contents (Elt Ideal)) (x3 : (⟨S144x128, .f32⟩ : BufTy).Contents (Elt Ideal))
    (x4 : (⟨S128, .f32⟩ : BufTy).Contents (Elt Ideal)) (x5 : (⟨S144x4, .f32⟩ : BufTy).Contents (Elt Ideal))
    (x6 : (⟨S4, .f32⟩ : BufTy).Contents (Elt Ideal)) (n : Fin 100000) (j : Fin 4) :
    val_main_v84 (F := Ideal) x0 x1 x2 x3 x4 x5 x6 (ix2 n j)
      = Cert.Spec.normAt (val_main_v63 (F := Ideal) x0 x1 x2 x3 x4) (cnt x1) x5 x6 n j := by
  have h78 : ∀ k, idx_main_v78 (idx_main_v79 (idx_main_v83 (ix2 n j))) k = ix2 n k := fun k =>
    funext fun a => Fin.ext (by match a with | ⟨0, _⟩ => rfl | ⟨1, _⟩ => rfl)
  rw [val_main_v84_apply, val_main_v83_apply, val_main_v82_apply, val_main_v80_apply, val_main_v79_apply,
    val_main_v78_apply, val_main_v81_apply, val_main_cst_17_apply, val_main_cst_16_apply]
  have hs : (∑ k, val_main_v77 (F := Ideal) x0 x1 x2 x3 x4 x5 x6 (idx_main_v78 (idx_main_v79 (idx_main_v83 (ix2 n j))) k))
      = ∑ k : Fin 4, Cert.Spec.linAt (val_main_v63 (F := Ideal) x0 x1 x2 x3 x4) (cnt x1) x5 x6 n k
          * Cert.Spec.linAt (val_main_v63 (F := Ideal) x0 x1 x2 x3 x4) (cnt x1) x5 x6 n k :=
    Finset.sum_congr rfl fun k _ => by rw [h78, val_main_v77_apply, v76_at]; rfl
  rw [hs, v76_at]
  simp only [Ideal.ofBits_def, zsum, Ideal.hostDivf_def, Ideal.hostUnary_sqrt_def, Ideal.maximumf_def]
  rfl

/-- The word of one. -/
theorem one_word : Ideal.ofBits .f32 0x3F800000#32 = 1 := by
  simp [Ideal.ofBits, Ideal.ieee, -EReal.coe_mul]; norm_num

/-- The second layer's node stage: one over one plus the exponential of the negated normalised row is the logistic
    function of it. -/
theorem v90_eq (x0 : (⟨S100000x128, .f32⟩ : BufTy).Contents (Elt Ideal)) (x1 : (⟨S2x1600000, .i32⟩ : BufTy).Contents (Elt Ideal))
    (x2 : (⟨S1600000x16, .f32⟩ : BufTy).Contents (Elt Ideal)) (x3 : (⟨S144x128, .f32⟩ : BufTy).Contents (Elt Ideal))
    (x4 : (⟨S128, .f32⟩ : BufTy).Contents (Elt Ideal)) (x5 : (⟨S144x4, .f32⟩ : BufTy).Contents (Elt Ideal))
    (x6 : (⟨S4, .f32⟩ : BufTy).Contents (Elt Ideal)) :
    val_main_v90 (F := Ideal) x0 x1 x2 x3 x4 x5 x6
      = Cert.Spec.alnSig (val_main_v63 (F := Ideal) x0 x1 x2 x3 x4) (cnt x1) x5 x6 := by
  funext i
  obtain ⟨n, j, rfl⟩ : ∃ n j, i = ix2 n j := ⟨i 0, i 1, eq_ix2 i⟩
  rw [val_main_v90_apply, val_main_v89_apply, val_main_cst_19_apply, val_main_v88_apply, val_main_v87_apply,
    val_main_cst_18_apply, val_main_v86_apply, val_main_v85_apply, v84_at]
  simp only [Ideal.ofBits_def, one_word, Ideal.hostDivf_def, Ideal.addf_def, Ideal.hostUnary_exp_def, Ideal.hostNegf_def,
    Ideal.negf_def]
  rfl

/-- The reference's result is the two layers of the specification over its own gather, scatter and counts. -/
theorem result_eq (x0 : (⟨S100000x128, .f32⟩ : BufTy).Contents (Elt Ideal)) (x1 : (⟨S2x1600000, .i32⟩ : BufTy).Contents (Elt Ideal))
    (x2 : (⟨S1600000x16, .f32⟩ : BufTy).Contents (Elt Ideal)) (x3 : (⟨S144x128, .f32⟩ : BufTy).Contents (Elt Ideal))
    (x4 : (⟨S128, .f32⟩ : BufTy).Contents (Elt Ideal)) (x5 : (⟨S144x4, .f32⟩ : BufTy).Contents (Elt Ideal))
    (x6 : (⟨S4, .f32⟩ : BufTy).Contents (Elt Ideal)) :
    val_main_v90 (F := Ideal) x0 x1 x2 x3 x4 x5 x6
      = Cert.Spec.twoLayers (take x1) (scat x1) (cnt x1) x0 x2 x3 x4 x5 x6 := by
  unfold Cert.Spec.twoLayers
  rw [v90_eq, v63_eq, v60_eq, v44_eq, v22_eq, v19_eq]

end Cert.ReferenceIdeal.Stages

end
-- ==== Proof.lean ====
/-
  Two programs compute a two-layer message-passing network on a graph of 100000 nodes and 1600000 edges: the kernel
  program runs its edge stage and its node stage as pipelined kernels between host lines (the gathers and the scatters),
  the reference program is host lines only. Over the extended reals both are the specification's two layers
  (Proof/Spec.lean): the kernel program's result is read off its run boundary by boundary (Proof/KValue.lean, over the
  four stage lemmas), the reference program's off its lines (Proof/RefRun.lean, Proof/RefStages.lean), and the gather,
  the scatter and the counts the two programs share are the same operations of the same edge list. The precondition's
  last conjunct — every edge's source node is a node — is what makes the kernel program's gather, which fills
  out-of-range rows with a pattern, the reference's plain one.
-/
import proofs.«411764_j69793218560204_1_alg».proof.Defs
import proofs.«411764_j69793218560204_1_alg».proof.Proof.Gen.Kernel
import proofs.«411764_j69793218560204_1_alg».proof.Proof.Gen.Kernel.Frame
import proofs.«411764_j69793218560204_1_alg».proof.Proof.Gen.KernelIdeal
import proofs.«411764_j69793218560204_1_alg».proof.Proof.Gen.KernelIdeal.Frame
import proofs.«411764_j69793218560204_1_alg».proof.Proof.Gen.ReferenceIdeal
import proofs.«411764_j69793218560204_1_alg».proof.Proof.Gen.Pre_finite_inputs
import proofs.«411764_j69793218560204_1_alg».proof.Proof.KRun
import proofs.«411764_j69793218560204_1_alg».proof.Proof.KValue
import proofs.«411764_j69793218560204_1_alg».proof.Proof.PreRange
import proofs.«411764_j69793218560204_1_alg».proof.Proof.RefRun
import proofs.«411764_j69793218560204_1_alg».proof.Proof.RefStages
import Idealize.ShloMosaic.Adequacy
import Idealize.ShloMosaic.Init

set_option maxRecDepth 16384

noncomputable section

namespace Cert.Proof

open Idealize.ShloMosaic Idealize.ShloMosaic.ValueIdx Idealize.SL.Sem

/-! ## The operations the two programs share -/

/-- The reference's gather is the kernel program's plain gather of the same edge list. -/
theorem take_eq (a1 : IVec Cert.KernelIdeal.S2x1600000 32) :
    Cert.ReferenceIdeal.Stages.take a1 = Cert.KernelIdeal.KV.takeK a1 := rfl

/-- The reference's scatter is the kernel program's of the same edge list. -/
theorem scat_eq (a1 : IVec Cert.KernelIdeal.S2x1600000 32) :
    Cert.ReferenceIdeal.Stages.scat a1 = Cert.KernelIdeal.KV.scatK a1 := rfl

/-- The reference's counts are the kernel program's of the same edge list. -/
theorem cnt_eq (a1 : IVec Cert.KernelIdeal.S2x1600000 32) :
    Cert.ReferenceIdeal.Stages.cnt a1 = Cert.KernelIdeal.KV.cntK a1 := rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunStages.run m ρ)

/-- From memories agreeing on the arguments both programs end at the specification's two layers of the arguments, over
    the kernel program's gather, scatter and counts. -/
theorem algebraic : Cert.algebraic_KernelIdeal_ReferenceIdeal := by
  intro m ρ m' ρ' hpre hagree
  have hrow : ∀ c : Dev Cert.KernelIdeal.nD, ∀ e : Fin 1600000,
      (Cert.KernelIdeal.Take.rowOf (m ((c.tc : Thread Cert.KernelIdeal.nD Cert.KernelIdeal.τ).loc Cert.KernelIdeal.main_arg1)) (ix1 e)).toNat < 100000 := by
    intro c e
    rw [Cert.KernelIdeal.Take.rowOf_apply]
    exact Cert.PreRange.rowOK_of_pre _ _ _ _ _ _ _ (hpre c) e
  refine ⟨fun c => Cert.Spec.twoLayers
      (Cert.KernelIdeal.KV.takeK (m ((c.tc : Thread Cert.KernelIdeal.nD Cert.KernelIdeal.τ).loc Cert.KernelIdeal.main_arg1)))
      (Cert.KernelIdeal.KV.scatK (m ((c.tc : Thread Cert.KernelIdeal.nD Cert.KernelIdeal.τ).loc Cert.KernelIdeal.main_arg1)))
      (Cert.KernelIdeal.KV.cntK (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KV.result m ρ c (hrow c)), (h c).2⟩)
      (Cert.KernelIdeal.GenP.run_result (F := Ideal) m ρ)
  · refine (θ_run Cert.ReferenceIdeal.defs _ _).mono (fun r h c => ⟨(h c).1.trans ?_, (h c).2⟩)
      (Cert.ReferenceIdeal.RunStages.run m' ρ')
    rw [Cert.ReferenceIdeal.Stages.result_eq, (hagree c).1, (hagree c).2.1, (hagree c).2.2.1, (hagree c).2.2.2.1,
      (hagree c).2.2.2.2.1, (hagree c).2.2.2.2.2.1, (hagree c).2.2.2.2.2.2, take_eq, scat_eq, cnt_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
